-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S128x16000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x32 : Shape := ⟨2, ![2000000, 32]⟩
abbrev S2000000 : Shape := ⟨1, ![2000000]⟩
abbrev S_ : Shape := ⟨0, ![]⟩

class Facts : Prop where
  bcast_S_S2000000x32 : S_.BroadcastsInDim S2000000x32 (![] : Fin 0 → Fin S2000000x32.rank)
  reducesTo_S2000000x32_S_d0_1 : S2000000x32.ReducesTo [0, 1] S_
  h_S_ : 0 < S_.numel

variable [Facts]

def fn {F : FTy → Type} [FloatOps F] (main_arg0 : FVec F S2000000x32 .f32) (main_arg1 : IVec S2000000 32) : IVec S_ 1 :=
  let main_v0 : FVec F S2000000x32 .f32 := Host.absf main_arg0
  let main_cst : FVec F S_ .f32 := constant S_ .f32 0x7F800000#32
  let main_v1 : FVec F S2000000x32 .f32 := broadcastInDim S2000000x32 ![] bcast_S_S2000000x32 main_cst
  let main_v2 : IVec S2000000x32 1 := cmpf .olt main_v0 main_v1
  let main_c : IVec S_ 1 := constantI S_ 1 1#1
  let main_v3 : IVec S_ 1 := (fun x v => Host.reduce IntOp.andi x v reducesTo_S2000000x32_S_d0_1 h_S_) main_v2 main_c
  main_v3
-- ==== Kernel.lean ====
abbrev S2000000x32 : Shape := ⟨2, ![2000000, 32]⟩
abbrev S2000000 : Shape := ⟨1, ![2000000]⟩
abbrev S32x2000000 : Shape := ⟨2, ![32, 2000000]⟩
abbrev S1x2000000 : Shape := ⟨2, ![1, 2000000]⟩
abbrev S125x128x32 : Shape := ⟨3, ![125, 128, 32]⟩
abbrev S125x128x1 : Shape := ⟨3, ![125, 128, 1]⟩
abbrev S32x16000 : Shape := ⟨2, ![32, 16000]⟩
abbrev S1x16000 : Shape := ⟨2, ![1, 16000]⟩
abbrev S1x128x32 : Shape := ⟨3, ![1, 128, 32]⟩
abbrev S1x128x1 : Shape := ⟨3, ![1, 128, 1]⟩
abbrev S128x16000 : Shape := ⟨2, ![128, 16000]⟩
abbrev S128x32 : Shape := ⟨2, ![128, 32]⟩
abbrev S128 : Shape := ⟨1, ![128]⟩
abbrev S128x1 : Shape := ⟨2, ![128, 1]⟩
abbrev S_ : Shape := ⟨0, ![]⟩
abbrev S65x32 : Shape := ⟨2, ![65, 32]⟩
abbrev S65 : Shape := ⟨1, ![65]⟩
abbrev S1 : Shape := ⟨1, ![1]⟩
abbrev S32 : Shape := ⟨1, ![32]⟩
abbrev S65x1 : Shape := ⟨2, ![65, 1]⟩
abbrev S32x128 : Shape := ⟨2, ![32, 128]⟩
abbrev S16000 : Shape := ⟨1, ![16000]⟩
abbrev S65x1x32 : Shape := ⟨3, ![65, 1, 32]⟩
abbrev S1x65x32 : Shape := ⟨3, ![1, 65, 32]⟩
abbrev S65x65x32 : Shape := ⟨3, ![65, 65, 32]⟩
abbrev S65x65 : Shape := ⟨2, ![65, 65]⟩
abbrev S1x65 : Shape := ⟨2, ![1, 65]⟩

abbrev nBuf : Space → Nat
  | .hbm => 139
  | .vmem => 15
  | .smem => 0
  | _ => 0

abbrev hbmTy0_0 (i : Nat) : BufTy := match i % 128 with
  | 0 => ⟨S2000000x32, .f32⟩
  | 1 => ⟨S2000000, .i32⟩
  | 2 => ⟨S32x2000000, .f32⟩
  | 3 => ⟨S1x2000000, .i32⟩
  | 4 => ⟨S125x128x32, .f32⟩
  | 5 => ⟨S125x128x1, .f32⟩
  | 6 => ⟨S_, .f32⟩
  | 7 => ⟨S128x32, .f32⟩
  | 8 => ⟨S_, .f32⟩
  | 9 => ⟨S128x1, .f32⟩
  | 10 => ⟨S128, .f32⟩
  | 11 => ⟨S65x32, .f32⟩
  | 12 => ⟨S65, .f32⟩
  | 13 => ⟨S_, .i32⟩
  | 14 => ⟨S1, .i32⟩
  | 15 => ⟨S_, .f32⟩
  | 16 => ⟨S32, .f32⟩
  | 17 => ⟨S65x32, .f32⟩
  | 18 => ⟨S_, .i32⟩
  | 19 => ⟨S1, .i32⟩
  | 20 => ⟨S_, .f32⟩
  | 21 => ⟨S65, .f32⟩
  | 22 => ⟨S_, .f32⟩
  | 23 => ⟨S65, .f32⟩
  | 24 => ⟨S65, .i1⟩
  | 25 => ⟨S_, .f32⟩
  | 26 => ⟨S65, .f32⟩
  | 27 => ⟨S65, .f32⟩
  | 28 => ⟨S65x1, .f32⟩
  | 29 => ⟨S65x32, .f32⟩
  | 30 => ⟨S65x32, .f32⟩
  | 31 => ⟨S65, .i32⟩
  | 32 => ⟨S_, .i32⟩
  | 33 => ⟨S_, .i32⟩
  | 34 => ⟨S_, .i32⟩
  | 35 => ⟨S_, .i32⟩
  | 36 => ⟨S_, .f32⟩
  | 37 => ⟨S_, .f32⟩
  | 38 => ⟨S128x32, .f32⟩
  | 39 => ⟨S_, .i32⟩
  | 40 => ⟨S1, .i32⟩
  | 41 => ⟨S128x32, .f32⟩
  | 42 => ⟨S32x128, .f32⟩
  | 43 => ⟨S125x128x1, .f32⟩
  | 44 => ⟨S_, .f32⟩
  | 45 => ⟨S128x1, .f32⟩
  | 46 => ⟨S128, .f32⟩
  | 47 => ⟨S65, .f32⟩
  | 48 => ⟨S65, .f32⟩
  | 49 => ⟨S_, .f32⟩
  | 50 => ⟨S_, .f32⟩
  | 51 => ⟨S65, .f32⟩
  | 52 => ⟨S65, .f32⟩
  | 53 => ⟨S_, .f32⟩
  | 54 => ⟨S_, .f32⟩
  | 55 => ⟨S_, .f32⟩
  | 56 => ⟨S65x1x32, .f32⟩
  | 57 => ⟨S1x65x32, .f32⟩
  | 58 => ⟨S65x65x32, .f32⟩
  | 59 => ⟨S65x65x32, .f32⟩
  | 60 => ⟨S65x65x32, .f32⟩
  | 61 => ⟨S65x65x32, .f32⟩
  | 62 => ⟨S_, .f32⟩
  | 63 => ⟨S65x65, .f32⟩
  | 64 => ⟨S_, .i1⟩
  | 65 => ⟨S65x65, .i1⟩
  | 66 => ⟨S65x65, .i32⟩
  | 67 => ⟨S_, .i32⟩
  | 68 => ⟨S65x65, .i32⟩
  | 69 => ⟨S65x65, .i32⟩
  | 70 => ⟨S65x65, .i32⟩
  | 71 => ⟨S65x65, .i1⟩
  | 72 => ⟨S_, .i1⟩
  | 73 => ⟨S65x65, .i1⟩
  | 74 => ⟨S65x65, .i1⟩
  | 75 => ⟨S65x1, .i1⟩
  | 76 => ⟨S65x65, .i1⟩
  | 77 => ⟨S65x65, .i1⟩
  | 78 => ⟨S1x65, .i1⟩
  | 79 => ⟨S65x65, .i1⟩
  | 80 => ⟨S65x65, .i1⟩
  | 81 => ⟨S_, .f32⟩
  | 82 => ⟨S_, .f32⟩
  | 83 => ⟨S65x65, .f32⟩
  | 84 => ⟨S65x65, .f32⟩
  | 85 => ⟨S65x65, .f32⟩
  | 86 => ⟨S_, .f32⟩
  | 87 => ⟨S65x65, .f32⟩
  | 88 => ⟨S65x65, .f32⟩
  | 89 => ⟨S_, .f32⟩
  | 90 => ⟨S65x65, .f32⟩
  | 91 => ⟨S65x65, .f32⟩
  | 92 => ⟨S65x65, .f32⟩
  | 93 => ⟨S_, .f32⟩
  | 94 => ⟨S_, .f32⟩
  | 95 => ⟨S65x65, .f32⟩
  | 96 => ⟨S65x65, .f32⟩
  | 97 => ⟨S65x65, .i32⟩
  | 98 => ⟨S_, .i32⟩
  | 99 => ⟨S_, .i32⟩
  | 100 => ⟨S_, .i32⟩
  | 101 => ⟨S_, .i1⟩
  | 102 => ⟨S_, .f32⟩
  | 103 => ⟨S_, .f32⟩
  | 104 => ⟨S_, .i32⟩
  | 105 => ⟨S_, .i32⟩
  | 106 => ⟨S_, .f32⟩
  | 107 => ⟨S_, .f32⟩
  | 108 => ⟨S_, .f32⟩
  | 109 => ⟨S_, .f32⟩
  | 110 => ⟨S_, .f32⟩
  | 111 => ⟨S65x32, .f32⟩
  | 112 => ⟨S_, .f32⟩
  | 113 => ⟨S65, .f32⟩
  | 114 => ⟨S_, .f32⟩
  | 115 => ⟨S_, .f32⟩
  | 116 => ⟨S65, .f32⟩
  | 117 => ⟨S65, .f32⟩
  | 118 => ⟨S65, .f32⟩
  | 119 => ⟨S_, .f32⟩
  | 120 => ⟨S_, .f32⟩
  | 121 => ⟨S65, .f32⟩
  | 122 => ⟨S65, .f32⟩
  | 123 => ⟨S_, .f32⟩
  | 124 => ⟨S_, .f32⟩
  | 125 => ⟨S_, .f32⟩
  | 126 => ⟨S_, .f32⟩
  | 127 => ⟨S_, .f32⟩
  | _ => ⟨S2000000x32, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .i32⟩
  | 7 => ⟨S_, .i1⟩
  | 8 => ⟨S_, .f32⟩
  | 9 => ⟨S_, .f32⟩
  | 10 => ⟨S_, .f32⟩
  | _ => ⟨S2000000x32, .f32⟩

abbrev hbmTy (i : Nat) : BufTy := match i / 128 with
  | 0 => hbmTy0_0 i
  | 1 => hbmTy0_1 i
  | _ => ⟨S2000000x32, .f32⟩

abbrev bufTy : (tb : Table) → Fin (tcTables nBuf tb) → BufTy
  | .hbm, ⟨i, _⟩ => hbmTy i
  | .local _ .vmem, ⟨0, _⟩ => ⟨S32x16000, .f32⟩
  | .local _ .vmem, ⟨1, _⟩ => ⟨S32x16000, .f32⟩
  | .local _ .vmem, ⟨2, _⟩ => ⟨S1x16000, .i32⟩
  | .local _ .vmem, ⟨3, _⟩ => ⟨S1x16000, .i32⟩
  | .local _ .vmem, ⟨4, _⟩ => ⟨S1x128x32, .f32⟩
  | .local _ .vmem, ⟨5, _⟩ => ⟨S1x128x32, .f32⟩
  | .local _ .vmem, ⟨6, _⟩ => ⟨S1x128x1, .f32⟩
  | .local _ .vmem, ⟨7, _⟩ => ⟨S1x128x1, .f32⟩
  | .local _ .vmem, ⟨8, _⟩ => ⟨S32x16000, .f32⟩
  | .local _ .vmem, ⟨9, _⟩ => ⟨S32x16000, .f32⟩
  | .local _ .vmem, ⟨10, _⟩ => ⟨S1x16000, .i32⟩
  | .local _ .vmem, ⟨11, _⟩ => ⟨S1x16000, .i32⟩
  | .local _ .vmem, ⟨12, _⟩ => ⟨S32x128, .f32⟩
  | .local _ .vmem, ⟨13, _⟩ => ⟨S1x128x1, .f32⟩
  | .local _ .vmem, ⟨14, _⟩ => ⟨S1x128x1, .f32⟩
  | _, _ => ⟨S2000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_c_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_call0_v0 : Ref sig .tc := ⟨.hbm, 50, rfl⟩
abbrev main_call0_v1 : Ref sig .tc := ⟨.hbm, 51, rfl⟩
abbrev main_v33 : Ref sig .tc := ⟨.hbm, 52, rfl⟩
abbrev main_cst_12 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_13 : Ref sig .tc := ⟨.hbm, 62, rfl⟩
abbrev main_v42 : Ref sig .tc := ⟨.hbm, 63, rfl⟩
abbrev main_c_14 : Ref sig .tc := ⟨.hbm, 64, rfl⟩
abbrev main_v43 : Ref sig .tc := ⟨.hbm, 65, rfl⟩
abbrev main_call1_v0 : Ref sig .tc := ⟨.hbm, 66, rfl⟩
abbrev main_call1_c : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_c_0 : Ref sig .tc := ⟨.hbm, 72, rfl⟩
abbrev main_call1_v5 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_15 : Ref sig .tc := ⟨.hbm, 81, rfl⟩
abbrev main_call2_v0 : Ref sig .tc := ⟨.hbm, 82, rfl⟩
abbrev main_call2_v1 : Ref sig .tc := ⟨.hbm, 83, rfl⟩
abbrev main_v51 : Ref sig .tc := ⟨.hbm, 84, rfl⟩
abbrev main_v52 : Ref sig .tc := ⟨.hbm, 85, rfl⟩
abbrev main_cst_16 : Ref sig .tc := ⟨.hbm, 86, rfl⟩
abbrev main_v53 : Ref sig .tc := ⟨.hbm, 87, rfl⟩
abbrev main_v54 : Ref sig .tc := ⟨.hbm, 88, rfl⟩
abbrev main_cst_17 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_18 : Ref sig .tc := ⟨.hbm, 93, rfl⟩
abbrev main_call3_v0 : Ref sig .tc := ⟨.hbm, 94, rfl⟩
abbrev main_call3_v1 : Ref sig .tc := ⟨.hbm, 95, rfl⟩
abbrev main_v58 : Ref sig .tc := ⟨.hbm, 96, rfl⟩
abbrev main_v59 : Ref sig .tc := ⟨.hbm, 97, rfl⟩
abbrev main_c_19 : Ref sig .tc := ⟨.hbm, 98, rfl⟩
abbrev main_v60 : Ref sig .tc := ⟨.hbm, 99, rfl⟩
abbrev main_c_20 : Ref sig .tc := ⟨.hbm, 100, rfl⟩
abbrev main_v61 : Ref sig .tc := ⟨.hbm, 101, rfl⟩
abbrev main_cst_21 : Ref sig .tc := ⟨.hbm, 102, rfl⟩
abbrev main_v62 : Ref sig .tc := ⟨.hbm, 103, rfl⟩
abbrev main_c_22 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_23 : Ref sig .tc := ⟨.hbm, 108, rfl⟩
abbrev main_call4_v0 : Ref sig .tc := ⟨.hbm, 109, rfl⟩
abbrev main_v66 : Ref sig .tc := ⟨.hbm, 110, rfl⟩
abbrev main_v67 : Ref sig .tc := ⟨.hbm, 111, rfl⟩
abbrev main_cst_24 : Ref sig .tc := ⟨.hbm, 112, rfl⟩
abbrev main_v68 : Ref sig .tc := ⟨.hbm, 113, rfl⟩
abbrev main_cst_25 : Ref sig .tc := ⟨.hbm, 114, rfl⟩
abbrev main_call5_v0 : Ref sig .tc := ⟨.hbm, 115, rfl⟩
abbrev main_call5_v1 : Ref sig .tc := ⟨.hbm, 116, rfl⟩
abbrev main_v69 : Ref sig .tc := ⟨.hbm, 117, rfl⟩
abbrev main_v70 : Ref sig .tc := ⟨.hbm, 118, rfl⟩
abbrev main_cst_26 : Ref sig .tc := ⟨.hbm, 119, rfl⟩
abbrev main_call6_v0 : Ref sig .tc := ⟨.hbm, 120, rfl⟩
abbrev main_call6_v1 : Ref sig .tc := ⟨.hbm, 121, rfl⟩
abbrev main_v71 : Ref sig .tc := ⟨.hbm, 122, rfl⟩
abbrev main_cst_27 : Ref sig .tc := ⟨.hbm, 123, rfl⟩
abbrev main_v72 : Ref sig .tc := ⟨.hbm, 124, rfl⟩
abbrev main_v73 : Ref sig .tc := ⟨.hbm, 125, rfl⟩
abbrev main_cst_28 : Ref sig .tc := ⟨.hbm, 126, rfl⟩
abbrev main_v74 : Ref sig .tc := ⟨.hbm, 127, rfl⟩
abbrev main_cst_29 : Ref sig .tc := ⟨.hbm, 128, rfl⟩
abbrev main_v75 : Ref sig .tc := ⟨.hbm, 129, rfl⟩
abbrev main_v76 : Ref sig .tc := ⟨.hbm, 130, rfl⟩
abbrev main_cst_30 : Ref sig .tc := ⟨.hbm, 131, rfl⟩
abbrev main_v77 : Ref sig .tc := ⟨.hbm, 132, rfl⟩
abbrev main_v78 : Ref sig .tc := ⟨.hbm, 133, rfl⟩
abbrev main_c_31 : Ref sig .tc := ⟨.hbm, 134, rfl⟩
abbrev main_v79 : Ref sig .tc := ⟨.hbm, 135, rfl⟩
abbrev main_cst_32 : Ref sig .tc := ⟨.hbm, 136, rfl⟩
abbrev main_call7_v0 : Ref sig .tc := ⟨.hbm, 137, rfl⟩
abbrev main_v80 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x16000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S2000000x32_S32x2000000_1_0 : S2000000x32.Transposes [1, 0] S32x2000000
  shapeCasts_S2000000_S1x2000000 : S2000000.ShapeCasts S1x2000000
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  iota_S128x16000_d0_w32 : S128x16000.Iotas .tc 32 [0]
  broadcasts_S1x16000_S128x16000 : S1x16000.Broadcasts S128x16000
  natLt_1_32 : 1 < 32
  bitsLt_bf16_f32 : FTy.bits .bf16 < FTy.bits .f32
  inb_S32x16000_S32x16000_0_0 : ∀ a, (![0, 0] : Fin 2 → Nat) a + S32x16000.size a ≤ S32x16000.size a
  h_S32x16000 : 0 < S32x16000.numel
  shapeCasts_S32x16000_S32x16000 : S32x16000.ShapeCasts S32x16000
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  shapeCasts_S128x32_S1x128x32 : S128x32.ShapeCasts S1x128x32
  reduces_S128x16000_S128 : S128x16000.Reduces [1] S128
  shapeCasts_S128_S128x1 : S128.ShapeCasts S128x1
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  reducesTo_S125x128x32_S128x32_d0 : S125x128x32.ReducesTo [0] S128x32
  h_S_ : 0 < S_.numel
  reducesTo_S125x128x1_S128x1_d0 : S125x128x1.ReducesTo [0] S128x1
  shapeCasts_S128x1_S128 : S128x1.ShapeCasts S128
  slices_S128x32_S65x32_0_0 : S128x32.Slices ![0, 0] S65x32
  slices_S128_S65_0 : S128.Slices ![0] S65
  bcast_S_S1 : S_.BroadcastsInDim S1 (![] : Fin 0 → Fin S1.rank)
  bcast_S_S32 : S_.BroadcastsInDim S32 (![] : Fin 0 → Fin S32.rank)
  bcast_S_S65 : S_.BroadcastsInDim S65 (![] : Fin 0 → Fin S65.rank)
  bcast_S65_S65x1_0 : S65.BroadcastsInDim S65x1 (![0] : Fin 1 → Fin S65x1.rank)
  bcast_S65x1_S65x32_0_1 : S65x1.BroadcastsInDim S65x32 (![0, 1] : Fin 2 → Fin S65x32.rank)
  reducesTo_S65_S_d0 : S65.ReducesTo [0] S_
  bcast_S_S128x32 : S_.BroadcastsInDim S128x32 (![] : Fin 0 → Fin S128x32.rank)
  transposes_S128x32_S32x128_1_0 : S128x32.Transposes [1, 0] S32x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  reduces_S32x16000_S16000 : S32x16000.Reduces [0] S16000
  shapeCasts_S16000_S1x16000 : S16000.ShapeCasts S1x16000
  bcast_S65x32_S65x1x32_0_2 : S65x32.BroadcastsInDim S65x1x32 (![0, 2] : Fin 2 → Fin S65x1x32.rank)
  bcast_S65x32_S1x65x32_1_2 : S65x32.BroadcastsInDim S1x65x32 (![1, 2] : Fin 2 → Fin S1x65x32.rank)
  bcast_S65x1x32_S65x65x32_0_1_2 : S65x1x32.BroadcastsInDim S65x65x32 (![0, 1, 2] : Fin 3 → Fin S65x65x32.rank)
  bcast_S1x65x32_S65x65x32_0_1_2 : S1x65x32.BroadcastsInDim S65x65x32 (![0, 1, 2] : Fin 3 → Fin S65x65x32.rank)
  reducesTo_S65x65x32_S65x65_d2 : S65x65x32.ReducesTo [2] S65x65
  bcast_S_S65x65 : S_.BroadcastsInDim S65x65 (![] : Fin 0 → Fin S65x65.rank)
  bcast_S65x1_S65x65_0_1 : S65x1.BroadcastsInDim S65x65 (![0, 1] : Fin 2 → Fin S65x65.rank)
  bcast_S65_S1x65_1 : S65.BroadcastsInDim S1x65 (![1] : Fin 1 → Fin S1x65.rank)
  bcast_S1x65_S65x65_0_1 : S1x65.BroadcastsInDim S65x65 (![0, 1] : Fin 2 → Fin S65x65.rank)
  reducesTo_S65x65_S_d0_1 : S65x65.ReducesTo [0, 1] S_
  reducesTo_S65x32_S65_d1 : S65x32.ReducesTo [1] S65
  dot_S128x16000_S32x16000_S128x32_1_1_0_0_n_n_wf : DotDims.WF S128x16000 S32x16000 S128x32 [1] [1] [0] [0] [] []
  scatter_S65x32_S1_S32_0_0_0_0_wf : ScatterDims.WF S65x32 S1 S32 [0] [0] [0] 0
  scatter_S65_S1_S__n_0_0_0_wf : ScatterDims.WF S65 S1 S_ [] [0] [0] 0
  scatter_S128x32_S1_S65x32_01_n_0_0_wf : ScatterDims.WF S128x32 S1 S65x32 [0, 1] [] [0] 0
  dot_S32x128_S128x16000_S32x16000_1_0_0_1_n_n_wf : DotDims.WF S32x128 S128x16000 S32x16000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16000.size a ≤ S32x2000000.size a
  hwx0_0 : ∀ i : grid0.Coords, EltTy.bits .f32 = 32 ∨ (Rect.block (s := S32x2000000) S32x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16000.size a ≤ S1x2000000.size a
  hwx0_1 : ∀ i : grid0.Coords, EltTy.bits .i32 = 32 ∨ (Rect.block (s := S1x2000000) S1x16000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x32.size a ≤ S125x128x32.size a
  hwx0_2 : ∀ i : grid0.Coords, EltTy.bits .f32 = 32 ∨ (Rect.block (s := S125x128x32) S1x128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S125x128x1.size a
  hwx0_3 : ∀ i : grid0.Coords, EltTy.bits .f32 = 32 ∨ (Rect.block (s := S125x128x1) S1x128x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x16000.size a ≤ S32x2000000.size a
  hwx1_0 : ∀ i : grid1.Coords, EltTy.bits .f32 = 32 ∨ (Rect.block (s := S32x2000000) S32x16000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16000.size a ≤ S1x2000000.size a
  hwx1_1 : ∀ i : grid1.Coords, EltTy.bits .i32 = 32 ∨ (Rect.block (s := S1x2000000) S1x16000.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x128.size a
  hwx1_2 : ∀ i : grid1.Coords, EltTy.bits .f32 = 32 ∨ (Rect.block (s := S32x128) S32x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x1.size a ≤ S125x128x1.size a
  hwx1_3 : ∀ i : grid1.Coords, EltTy.bits .f32 = 32 ∨ (Rect.block (s := S125x128x1) S1x128x1.size (cc1_transform_3 i) (hinb1_3 i)).WholeWords (EltTy.packing .f32)

variable [Facts₀]

def dot_S128x16000_S32x16000_S128x32_1_1_0_0_n_n : DotDims S128x16000 S32x16000 S128x32 where
  lhsContracting := [1]
  rhsContracting := [1]
  lhsNonContracting := [0]
  rhsNonContracting := [0]
  lhsBatch := []
  rhsBatch := []
  wf := dot_S128x16000_S32x16000_S128x32_1_1_0_0_n_n_wf
def scatter_S65x32_S1_S32_0_0_0_0 : ScatterDims S65x32 S1 S32 where
  updateWindowDims := [0]
  insertedWindowDims := [0]
  scatterDimsToOperandDims := [0]
  indexVectorDim := 0
  wf := scatter_S65x32_S1_S32_0_0_0_0_wf
def scatter_S65_S1_S__n_0_0_0 : ScatterDims S65 S1 S_ where
  updateWindowDims := []
  insertedWindowDims := [0]
  scatterDimsToOperandDims := [0]
  indexVectorDim := 0
  wf := scatter_S65_S1_S__n_0_0_0_wf
def scatter_S128x32_S1_S65x32_01_n_0_0 : ScatterDims S128x32 S1 S65x32 where
  updateWindowDims := [0, 1]
  insertedWindowDims := []
  scatterDimsToOperandDims := [0]
  indexVectorDim := 0
  wf := scatter_S128x32_S1_S65x32_01_n_0_0_wf
def dot_S32x128_S128x16000_S32x16000_1_0_0_1_n_n : DotDims S32x128 S128x16000 S32x16000 where
  lhsContracting := [1]
  rhsContracting := [0]
  lhsNonContracting := [0]
  rhsNonContracting := [1]
  lhsBatch := []
  rhsBatch := []
  wf := dot_S32x128_S128x16000_S32x16000_1_0_0_1_n_n_wf

abbrev win0_0 : Pipeline.Window sig grid0 :=
  Pipeline.Window.ofSpec (Memref.whole main_v0) S32x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x128x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S32x16000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x16000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2000000x32 : Shape := ⟨2, ![2000000, 32]⟩
abbrev S2000000 : Shape := ⟨1, ![2000000]⟩
abbrev S_ : Shape := ⟨0, ![]⟩
abbrev S2000000x1 : Shape := ⟨2, ![2000000, 1]⟩
abbrev S65x32 : Shape := ⟨2, ![65, 32]⟩
abbrev S65 : Shape := ⟨1, ![65]⟩
abbrev S1 : Shape := ⟨1, ![1]⟩
abbrev S65x1 : Shape := ⟨2, ![65, 1]⟩
abbrev S65x1x32 : Shape := ⟨3, ![65, 1, 32]⟩
abbrev S1x65x32 : Shape := ⟨3, ![1, 65, 32]⟩
abbrev S65x65x32 : Shape := ⟨3, ![65, 65, 32]⟩
abbrev S65x65 : Shape := ⟨2, ![65, 65]⟩
abbrev S1x65 : Shape := ⟨2, ![1, 65]⟩

abbrev nBuf : Space → Nat
  | .hbm => 171
  | .vmem => 0
  | .smem => 0
  | _ => 0

abbrev hbmTy0_0 (i : Nat) : BufTy := match i % 128 with
  | 0 => ⟨S2000000x32, .f32⟩
  | 1 => ⟨S2000000, .i32⟩
  | 2 => ⟨S_, .i32⟩
  | 3 => ⟨S2000000, .i32⟩
  | 4 => ⟨S2000000, .i1⟩
  | 5 => ⟨S_, .i32⟩
  | 6 => ⟨S_, .i32⟩
  | 7 => ⟨S2000000, .i32⟩
  | 8 => ⟨S2000000, .i32⟩
  | 9 => ⟨S2000000, .f32⟩
  | 10 => ⟨S2000000x1, .f32⟩
  | 11 => ⟨S2000000x32, .f32⟩
  | 12 => ⟨S2000000x32, .f32⟩
  | 13 => ⟨S_, .f32⟩
  | 14 => ⟨S65x32, .f32⟩
  | 15 => ⟨S2000000x1, .i32⟩
  | 16 => ⟨S65x32, .f32⟩
  | 17 => ⟨S_, .f32⟩
  | 18 => ⟨S65, .f32⟩
  | 19 => ⟨S2000000x1, .i32⟩
  | 20 => ⟨S65, .f32⟩
  | 21 => ⟨S_, .f32⟩
  | 22 => ⟨S65, .f32⟩
  | 23 => ⟨S65, .i1⟩
  | 24 => ⟨S_, .i32⟩
  | 25 => ⟨S1, .i32⟩
  | 26 => ⟨S_, .i1⟩
  | 27 => ⟨S65, .i1⟩
  | 28 => ⟨S_, .f32⟩
  | 29 => ⟨S65, .f32⟩
  | 30 => ⟨S65, .f32⟩
  | 31 => ⟨S65x1, .f32⟩
  | 32 => ⟨S65x32, .f32⟩
  | 33 => ⟨S65x32, .f32⟩
  | 34 => ⟨S65, .i32⟩
  | 35 => ⟨S_, .i32⟩
  | 36 => ⟨S_, .i32⟩
  | 37 => ⟨S_, .i32⟩
  | 38 => ⟨S_, .i32⟩
  | 39 => ⟨S_, .f32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S2000000x1, .i32⟩
  | 48 => ⟨S2000000x32, .f32⟩
  | 49 => ⟨S2000000x32, .f32⟩
  | 50 => ⟨S2000000x32, .f32⟩
  | 51 => ⟨S_, .f32⟩
  | 52 => ⟨S2000000, .f32⟩
  | 53 => ⟨S_, .f32⟩
  | 54 => ⟨S2000000, .f32⟩
  | 55 => ⟨S2000000, .i1⟩
  | 56 => ⟨S_, .f32⟩
  | 57 => ⟨S_, .f32⟩
  | 58 => ⟨S2000000, .f32⟩
  | 59 => ⟨S2000000, .f32⟩
  | 60 => ⟨S2000000, .f32⟩
  | 61 => ⟨S_, .f32⟩
  | 62 => ⟨S2000000, .f32⟩
  | 63 => ⟨S2000000, .i1⟩
  | 64 => ⟨S_, .f32⟩
  | 65 => ⟨S_, .f32⟩
  | 66 => ⟨S2000000, .f32⟩
  | 67 => ⟨S2000000, .f32⟩
  | 68 => ⟨S_, .f32⟩
  | 69 => ⟨S2000000, .f32⟩
  | 70 => ⟨S2000000, .f32⟩
  | 71 => ⟨S_, .f32⟩
  | 72 => ⟨S2000000, .f32⟩
  | 73 => ⟨S2000000, .f32⟩
  | 74 => ⟨S2000000, .f32⟩
  | 75 => ⟨S2000000, .f32⟩
  | 76 => ⟨S_, .f32⟩
  | 77 => ⟨S65, .f32⟩
  | 78 => ⟨S2000000x1, .i32⟩
  | 79 => ⟨S65, .f32⟩
  | 80 => ⟨S65, .f32⟩
  | 81 => ⟨S_, .f32⟩
  | 82 => ⟨S_, .f32⟩
  | 83 => ⟨S65, .f32⟩
  | 84 => ⟨S65, .f32⟩
  | 85 => ⟨S_, .f32⟩
  | 86 => ⟨S_, .f32⟩
  | 87 => ⟨S_, .f32⟩
  | 88 => ⟨S65x1x32, .f32⟩
  | 89 => ⟨S1x65x32, .f32⟩
  | 90 => ⟨S65x65x32, .f32⟩
  | 91 => ⟨S65x65x32, .f32⟩
  | 92 => ⟨S65x65x32, .f32⟩
  | 93 => ⟨S65x65x32, .f32⟩
  | 94 => ⟨S_, .f32⟩
  | 95 => ⟨S65x65, .f32⟩
  | 96 => ⟨S_, .i1⟩
  | 97 => ⟨S65x65, .i1⟩
  | 98 => ⟨S65x65, .i32⟩
  | 99 => ⟨S_, .i32⟩
  | 100 => ⟨S65x65, .i32⟩
  | 101 => ⟨S65x65, .i32⟩
  | 102 => ⟨S65x65, .i32⟩
  | 103 => ⟨S65x65, .i1⟩
  | 104 => ⟨S_, .i1⟩
  | 105 => ⟨S65x65, .i1⟩
  | 106 => ⟨S65x65, .i1⟩
  | 107 => ⟨S65x1, .i1⟩
  | 108 => ⟨S65x65, .i1⟩
  | 109 => ⟨S65x65, .i1⟩
  | 110 => ⟨S1x65, .i1⟩
  | 111 => ⟨S65x65, .i1⟩
  | 112 => ⟨S65x65, .i1⟩
  | 113 => ⟨S_, .f32⟩
  | 114 => ⟨S_, .f32⟩
  | 115 => ⟨S65x65, .f32⟩
  | 116 => ⟨S65x65, .f32⟩
  | 117 => ⟨S65x65, .f32⟩
  | 118 => ⟨S_, .f32⟩
  | 119 => ⟨S65x65, .f32⟩
  | 120 => ⟨S65x65, .f32⟩
  | 121 => ⟨S_, .f32⟩
  | 122 => ⟨S65x65, .f32⟩
  | 123 => ⟨S65x65, .f32⟩
  | 124 => ⟨S65x65, .f32⟩
  | 125 => ⟨S_, .f32⟩
  | 126 => ⟨S_, .f32⟩
  | 127 => ⟨S65x65, .f32⟩
  | _ => ⟨S2000000x32, .f32⟩

abbrev hbmTy0_1 (i : Nat) : BufTy := match i % 128 with
  | 0 => ⟨S65x65, .f32⟩
  | 1 => ⟨S65x65, .i32⟩
  | 2 => ⟨S_, .i32⟩
  | 3 => ⟨S_, .i32⟩
  | 4 => ⟨S_, .i32⟩
  | 5 => ⟨S_, .i1⟩
  | 6 => ⟨S_, .f32⟩
  | 7 => ⟨S_, .f32⟩
  | 8 => ⟨S_, .i32⟩
  | 9 => ⟨S_, .i32⟩
  | 10 => ⟨S_, .f32⟩
  | 11 => ⟨S_, .f32⟩
  | 12 => ⟨S_, .f32⟩
  | 13 => ⟨S_, .f32⟩
  | 14 => ⟨S_, .f32⟩
  | 15 => ⟨S65x32, .f32⟩
  | 16 => ⟨S_, .f32⟩
  | 17 => ⟨S65, .f32⟩
  | 18 => ⟨S_, .f32⟩
  | 19 => ⟨S_, .f32⟩
  | 20 => ⟨S65, .f32⟩
  | 21 => ⟨S65, .f32⟩
  | 22 => ⟨S65, .f32⟩
  | 23 => ⟨S_, .f32⟩
  | 24 => ⟨S_, .f32⟩
  | 25 => ⟨S65, .f32⟩
  | 26 => ⟨S65, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .i32⟩
  | 39 => ⟨S_, .i1⟩
  | 40 => ⟨S_, .f32⟩
  | 41 => ⟨S_, .f32⟩
  | 42 => ⟨S_, .f32⟩
  | _ => ⟨S2000000x32, .f32⟩

abbrev hbmTy (i : Nat) : BufTy := match i / 128 with
  | 0 => hbmTy0_0 i
  | 1 => hbmTy0_1 i
  | _ => ⟨S2000000x32, .f32⟩

abbrev bufTy : (tb : Table) → Fin (tcTables nBuf tb) → BufTy
  | .hbm, ⟨i, _⟩ => hbmTy i
  | _, _ => ⟨S2000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_v26 : Ref sig .tc := ⟨.hbm, 41, rfl⟩
abbrev main_v27 : Ref sig .tc := ⟨.hbm, 42, rfl⟩
abbrev main_c_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_call1_v0 : Ref sig .tc := ⟨.hbm, 57, rfl⟩
abbrev main_call1_v1 : Ref sig .tc := ⟨.hbm, 58, rfl⟩
abbrev main_v38 : Ref sig .tc := ⟨.hbm, 59, rfl⟩
abbrev main_v39 : Ref sig .tc := ⟨.hbm, 60, rfl⟩
abbrev main_cst_13 : Ref sig .tc := ⟨.hbm, 61, rfl⟩
abbrev main_v40 : Ref sig .tc := ⟨.hbm, 62, rfl⟩
abbrev main_v41 : Ref sig .tc := ⟨.hbm, 63, rfl⟩
abbrev main_cst_14 : Ref sig .tc := ⟨.hbm, 64, rfl⟩
abbrev main_call2_v0 : Ref sig .tc := ⟨.hbm, 65, rfl⟩
abbrev main_call2_v1 : Ref sig .tc := ⟨.hbm, 66, rfl⟩
abbrev main_v42 : Ref sig .tc := ⟨.hbm, 67, rfl⟩
abbrev main_cst_15 : Ref sig .tc := ⟨.hbm, 68, rfl⟩
abbrev main_v43 : Ref sig .tc := ⟨.hbm, 69, rfl⟩
abbrev main_v44 : Ref sig .tc := ⟨.hbm, 70, rfl⟩
abbrev main_cst_16 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_17 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_18 : Ref sig .tc := ⟨.hbm, 81, rfl⟩
abbrev main_call3_v0 : Ref sig .tc := ⟨.hbm, 82, rfl⟩
abbrev main_call3_v1 : Ref sig .tc := ⟨.hbm, 83, rfl⟩
abbrev main_v53 : Ref sig .tc := ⟨.hbm, 84, rfl⟩
abbrev main_cst_19 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_20 : Ref sig .tc := ⟨.hbm, 94, rfl⟩
abbrev main_v62 : Ref sig .tc := ⟨.hbm, 95, rfl⟩
abbrev main_c_21 : Ref sig .tc := ⟨.hbm, 96, rfl⟩
abbrev main_v63 : Ref sig .tc := ⟨.hbm, 97, rfl⟩
abbrev main_call4_v0 : Ref sig .tc := ⟨.hbm, 98, rfl⟩
abbrev main_call4_c : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_c_0 : Ref sig .tc := ⟨.hbm, 104, rfl⟩
abbrev main_call4_v5 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_22 : Ref sig .tc := ⟨.hbm, 113, rfl⟩
abbrev main_call5_v0 : Ref sig .tc := ⟨.hbm, 114, rfl⟩
abbrev main_call5_v1 : Ref sig .tc := ⟨.hbm, 115, rfl⟩
abbrev main_v71 : Ref sig .tc := ⟨.hbm, 116, rfl⟩
abbrev main_v72 : Ref sig .tc := ⟨.hbm, 117, rfl⟩
abbrev main_cst_23 : Ref sig .tc := ⟨.hbm, 118, rfl⟩
abbrev main_v73 : Ref sig .tc := ⟨.hbm, 119, rfl⟩
abbrev main_v74 : Ref sig .tc := ⟨.hbm, 120, rfl⟩
abbrev main_cst_24 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_25 : Ref sig .tc := ⟨.hbm, 125, rfl⟩
abbrev main_call6_v0 : Ref sig .tc := ⟨.hbm, 126, rfl⟩
abbrev main_call6_v1 : Ref sig .tc := ⟨.hbm, 127, rfl⟩
abbrev main_v78 : Ref sig .tc := ⟨.hbm, 128, rfl⟩
abbrev main_v79 : Ref sig .tc := ⟨.hbm, 129, rfl⟩
abbrev main_c_26 : Ref sig .tc := ⟨.hbm, 130, rfl⟩
abbrev main_v80 : Ref sig .tc := ⟨.hbm, 131, rfl⟩
abbrev main_c_27 : Ref sig .tc := ⟨.hbm, 132, rfl⟩
abbrev main_v81 : Ref sig .tc := ⟨.hbm, 133, rfl⟩
abbrev main_cst_28 : Ref sig .tc := ⟨.hbm, 134, rfl⟩
abbrev main_v82 : Ref sig .tc := ⟨.hbm, 135, rfl⟩
abbrev main_c_29 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_30 : Ref sig .tc := ⟨.hbm, 140, rfl⟩
abbrev main_call7_v0 : Ref sig .tc := ⟨.hbm, 141, rfl⟩
abbrev main_v86 : Ref sig .tc := ⟨.hbm, 142, rfl⟩
abbrev main_v87 : Ref sig .tc := ⟨.hbm, 143, rfl⟩
abbrev main_cst_31 : Ref sig .tc := ⟨.hbm, 144, rfl⟩
abbrev main_v88 : Ref sig .tc := ⟨.hbm, 145, rfl⟩
abbrev main_cst_32 : Ref sig .tc := ⟨.hbm, 146, rfl⟩
abbrev main_call8_v0 : Ref sig .tc := ⟨.hbm, 147, rfl⟩
abbrev main_call8_v1 : Ref sig .tc := ⟨.hbm, 148, rfl⟩
abbrev main_v89 : Ref sig .tc := ⟨.hbm, 149, rfl⟩
abbrev main_v90 : Ref sig .tc := ⟨.hbm, 150, rfl⟩
abbrev main_cst_33 : Ref sig .tc := ⟨.hbm, 151, rfl⟩
abbrev main_call9_v0 : Ref sig .tc := ⟨.hbm, 152, rfl⟩
abbrev main_call9_v1 : Ref sig .tc := ⟨.hbm, 153, rfl⟩
abbrev main_v91 : Ref sig .tc := ⟨.hbm, 154, rfl⟩
abbrev main_cst_34 : Ref sig .tc := ⟨.hbm, 155, rfl⟩
abbrev main_v92 : Ref sig .tc := ⟨.hbm, 156, rfl⟩
abbrev main_v93 : Ref sig .tc := ⟨.hbm, 157, rfl⟩
abbrev main_cst_35 : Ref sig .tc := ⟨.hbm, 158, rfl⟩
abbrev main_v94 : Ref sig .tc := ⟨.hbm, 159, rfl⟩
abbrev main_cst_36 : Ref sig .tc := ⟨.hbm, 160, rfl⟩
abbrev main_v95 : Ref sig .tc := ⟨.hbm, 161, rfl⟩
abbrev main_v96 : Ref sig .tc := ⟨.hbm, 162, rfl⟩
abbrev main_cst_37 : Ref sig .tc := ⟨.hbm, 163, rfl⟩
abbrev main_v97 : Ref sig .tc := ⟨.hbm, 164, rfl⟩
abbrev main_v98 : Ref sig .tc := ⟨.hbm, 165, rfl⟩
abbrev main_c_38 : Ref sig .tc := ⟨.hbm, 166, rfl⟩
abbrev main_v99 : Ref sig .tc := ⟨.hbm, 167, rfl⟩
abbrev main_cst_39 : Ref sig .tc := ⟨.hbm, 168, rfl⟩
abbrev main_call10_v0 : Ref sig .tc := ⟨.hbm, 169, rfl⟩
abbrev main_v100 : Ref sig .tc := ⟨.hbm, 170, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x32_0_1 : S2000000x1.BroadcastsInDim S2000000x32 (![0, 1] : Fin 2 → Fin S2000000x32.rank)
  bcast_S_S65x32 : S_.BroadcastsInDim S65x32 (![] : Fin 0 → Fin S65x32.rank)
  bcast_S_S65 : S_.BroadcastsInDim S65 (![] : Fin 0 → Fin S65.rank)
  bcast_S_S1 : S_.BroadcastsInDim S1 (![] : Fin 0 → Fin S1.rank)
  bcast_S65_S65x1_0 : S65.BroadcastsInDim S65x1 (![0] : Fin 1 → Fin S65x1.rank)
  bcast_S65x1_S65x32_0_1 : S65x1.BroadcastsInDim S65x32 (![0, 1] : Fin 2 → Fin S65x32.rank)
  natLt_1_32 : 1 < 32
  reducesTo_S65_S_d0 : S65.ReducesTo [0] S_
  h_S_ : 0 < S_.numel
  reducesTo_S2000000x32_S2000000_d1 : S2000000x32.ReducesTo [1] S2000000
  bcast_S65x32_S65x1x32_0_2 : S65x32.BroadcastsInDim S65x1x32 (![0, 2] : Fin 2 → Fin S65x1x32.rank)
  bcast_S65x32_S1x65x32_1_2 : S65x32.BroadcastsInDim S1x65x32 (![1, 2] : Fin 2 → Fin S1x65x32.rank)
  bcast_S65x1x32_S65x65x32_0_1_2 : S65x1x32.BroadcastsInDim S65x65x32 (![0, 1, 2] : Fin 3 → Fin S65x65x32.rank)
  bcast_S1x65x32_S65x65x32_0_1_2 : S1x65x32.BroadcastsInDim S65x65x32 (![0, 1, 2] : Fin 3 → Fin S65x65x32.rank)
  reducesTo_S65x65x32_S65x65_d2 : S65x65x32.ReducesTo [2] S65x65
  bcast_S_S65x65 : S_.BroadcastsInDim S65x65 (![] : Fin 0 → Fin S65x65.rank)
  bcast_S65x1_S65x65_0_1 : S65x1.BroadcastsInDim S65x65 (![0, 1] : Fin 2 → Fin S65x65.rank)
  bcast_S65_S1x65_1 : S65.BroadcastsInDim S1x65 (![1] : Fin 1 → Fin S1x65.rank)
  bcast_S1x65_S65x65_0_1 : S1x65.BroadcastsInDim S65x65 (![0, 1] : Fin 2 → Fin S65x65.rank)
  reducesTo_S65x65_S_d0_1 : S65x65.ReducesTo [0, 1] S_
  reducesTo_S65x32_S65_d1 : S65x32.ReducesTo [1] S65
  scatter_S65x32_S2000000x1_S2000000x32_1_0_0_1_wf : ScatterDims.WF S65x32 S2000000x1 S2000000x32 [1] [0] [0] 1
  scatter_S65_S2000000x1_S2000000_n_0_0_1_wf : ScatterDims.WF S65 S2000000x1 S2000000 [] [0] [0] 1
  scatter_S65_S1_S__n_0_0_0_wf : ScatterDims.WF S65 S1 S_ [] [0] [0] 0
  gather_S65x32_S2000000x1_S2000000x32_1_0_n_n_0_1_132_wf : GatherDims.WF S65x32 S2000000x1 S2000000x32 [1] [0] [] [0] [] 1 ![1, 32]

variable [Facts₀]

def scatter_S65x32_S2000000x1_S2000000x32_1_0_0_1 : ScatterDims S65x32 S2000000x1 S2000000x32 where
  updateWindowDims := [1]
  insertedWindowDims := [0]
  scatterDimsToOperandDims := [0]
  indexVectorDim := 1
  wf := scatter_S65x32_S2000000x1_S2000000x32_1_0_0_1_wf
def scatter_S65_S2000000x1_S2000000_n_0_0_1 : ScatterDims S65 S2000000x1 S2000000 where
  updateWindowDims := []
  insertedWindowDims := [0]
  scatterDimsToOperandDims := [0]
  indexVectorDim := 1
  wf := scatter_S65_S2000000x1_S2000000_n_0_0_1_wf
def scatter_S65_S1_S__n_0_0_0 : ScatterDims S65 S1 S_ where
  updateWindowDims := []
  insertedWindowDims := [0]
  scatterDimsToOperandDims := [0]
  indexVectorDim := 0
  wf := scatter_S65_S1_S__n_0_0_0_wf
def gather_S65x32_S2000000x1_S2000000x32_1_0_n_n_0_1_132 : GatherDims S65x32 S2000000x1 S2000000x32 where
  offsetDims := [1]
  collapsedSliceDims := [0]
  operandBatchingDims := []
  startIndicesBatchingDims := []
  startIndexMap := [0]
  indexVectorDim := 1
  sliceSizes := ![1, 32]
  wf := gather_S65x32_S2000000x1_S2000000x32_1_0_n_n_0_1_132_wf

class Facts : Prop extends Facts₀ where

variable [Facts]
-- ==== Proof.Spec.lean ====
import Idealize.ShloMosaic.PureOps.Ideal
import Idealize.ShloMosaic.Lib.ValueIdx

/-!
# What the two programs compute, as functions of the two argument arrays

`x : [2000000, 32]` holds one 32-vector per point, `l : [2000000]` one 32-bit label per point.
Class `r` (a row of a 128-row one-hot table, of which rows 0 … 64 are kept) owns the points whose label
is the 32-bit word of `r`. Everything below is a sum over points of a selector times a value; the selector
is `1` on the class's own points and `0` elsewhere, so no sum needs its terms finite.

The points are cut into 125 tiles of 16000 lanes: lane `j` of tile `t` is point `16000 t + j`.
-/

noncomputable section

namespace Cert.Spec

open Idealize.ShloMosaic Idealize.ShloMosaic.ValueIdx

abbrev SPts : Shape := ⟨1, ![2000000]⟩
abbrev SEmb : Shape := ⟨2, ![2000000, 32]⟩
abbrev SEmbT : Shape := ⟨2, ![32, 2000000]⟩
abbrev SRow : Shape := ⟨2, ![1, 2000000]⟩
abbrev STileSums : Shape := ⟨3, ![125, 128, 32]⟩
abbrev STileCol : Shape := ⟨3, ![125, 128, 1]⟩
abbrev SMeansT : Shape := ⟨2, ![32, 128]⟩

/-- Lane `j` of tile `t` is point `16000 t + j`. -/
def pt (t : Fin 125) (j : Fin 16000) : Fin 2000000 := ⟨16000 * t.val + j.val, by omega⟩

/-- The selector of class `r` at a label: one where the label is the word of `r`, zero elsewhere. -/
def hot (r : ℕ) (l : BitVec 32) : EReal := if BitVec.ofNat 32 r = l then 1 else 0

theorem hot_eq_one {r : ℕ} {l : BitVec 32} (h : BitVec.ofNat 32 r = l) : hot r l = 1 := if_pos h
theorem hot_eq_zero {r : ℕ} {l : BitVec 32} (h : ¬ BitVec.ofNat 32 r = l) : hot r l = 0 := if_neg h

/-! ## The first launch: per tile, each class's sum of its points' vectors and its number of points -/

/-- Entry `(t, r, k)`: over the lanes of tile `t`, the selector of class `r` times coordinate `k` of the point
    (the points lie along the second axis of the transposed array `e`, the labels along the row `l`). -/
def tileSums (e : SEmbT.Idx → EReal) (l : SRow.Idx → BitVec 32) : STileSums.Idx → EReal :=
  fun i => ∑ j : Fin 16000, hot (i 1).val (l (ix2 (0 : Fin 1) (pt (i 0) j))) * e (ix2 (i 2) (pt (i 0) j))

/-- Entry `(t, r, 0)`: the number of lanes of tile `t` whose label is class `r`. -/
def tileCounts (l : SRow.Idx → BitVec 32) : STileCol.Idx → EReal :=
  fun i => ∑ j : Fin 16000, hot (i 1).val (l (ix2 (0 : Fin 1) (pt (i 0) j)))

/-! ## The per-point pull term -/

/-- From a squared distance `d2`: the distance (`0` where `d2` is not positive, the root being taken of `1`
    there), less one half, cut off below at zero, squared. -/
def hinge2 (d2 : EReal) : EReal :=
  let g : BitVec 1 := Ideal.cmp .ogt d2 (Ideal.ofBits .f32 0x00000000#32)
  let dist : EReal := Scalar.select g (Ideal.sqrt (Scalar.select g d2 (Ideal.ofBits .f32 0x3F800000#32))) (Ideal.ofBits .f32 0x00000000#32)
  let h : EReal := max (dist - Ideal.ofBits .f32 0x3F000000#32) (Ideal.ofBits .f32 0x00000000#32)
  h * h

/-- The squared distance of point `n` from the table row its label selects: the row is read off the transposed
    128-column table `mt` by the selector, `∑ r, mt (k, r) · hot r (label n)`. -/
def sqDist (e : SEmbT.Idx → EReal) (l : SRow.Idx → BitVec 32) (mt : SMeansT.Idx → EReal) (n : Fin 2000000) : EReal :=
  ∑ k : Fin 32, (e (ix2 k n) - ∑ r : Fin 128, mt (ix2 k r) * hot r.val (l (ix2 (0 : Fin 1) n)))
              * (e (ix2 k n) - ∑ r : Fin 128, mt (ix2 k r) * hot r.val (l (ix2 (0 : Fin 1) n)))

/-! ## The second launch: per tile, each class's sum of its points' pull terms -/

def tilePull (e : SEmbT.Idx → EReal) (l : SRow.Idx → BitVec 32) (mt : SMeansT.Idx → EReal) : STileCol.Idx → EReal :=
  fun i => ∑ j : Fin 16000, hot (i 1).val (l (ix2 (0 : Fin 1) (pt (i 0) j))) * hinge2 (sqDist e l mt (pt (i 0) j))

/-! ## Over all points: what the tiles add up to, and what a segment sum is -/

/-- The number of points of class `r`. -/
def cnt (l : SPts.Idx → BitVec 32) (r : ℕ) : EReal := ∑ n : Fin 2000000, hot r (l (ix1 n))

/-- Class `r`'s sum of coordinate `k`. -/
def ssum (x : SEmb.Idx → EReal) (l : SPts.Idx → BitVec 32) (r : ℕ) (k : Fin 32) : EReal :=
  ∑ n : Fin 2000000, hot r (l (ix1 n)) * x (ix2 n k)

/-- Class `r`'s sum of a per-point value. -/
def wsum (l : SPts.Idx → BitVec 32) (f : Fin 2000000 → EReal) (r : ℕ) : EReal :=
  ∑ n : Fin 2000000, hot r (l (ix1 n)) * f n

end Cert.Spec

end
-- ==== Proof.Reg0.lean ====
import proofs.«415074_j12979391169049_3_alg».proof.Proof.Gen.KernelIdeal.Frame
import proofs.«415074_j12979391169049_3_alg».proof.Proof.Spec
import Idealize.ShloMosaic.Lib.Pipeline.Value
import Idealize.ShloMosaic.Lib.ValueIdx
import Idealize.ShloMosaic.PureOps.Ideal.Laws
import Idealize.ShloMosaic.Lib.StableHlo.Predicate

set_option maxRecDepth 16384

noncomputable section

namespace Cert.KernelIdeal.Reg0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! # The first launch's arrays after its run

Window 0 is the transposed points array (`main_v0`, 32 × 2000000), window 1 the label row (`main_v1`, 1 × 2000000); both
are only read. Window 2 (`main_v2_0`, 125 × 128 × 32) receives, at grid point `t`, block `(t, ·, ·)`: the one-hot table
of the tile's labels times the tile's points. Window 3 (`main_v2_1`, 125 × 128 × 1) receives the table's row sums. -/

/-! ## The selector -/

/-- The word of "a = b", widened to 32 bits and read as a signed integer, is the real number one where the two
    words agree and zero where they differ. -/
theorem sel_word (a b : BitVec 32) :
    (FloatOps.sitofp (F := Ideal) .f32 ((IntOp.cmpi .eq a b).setWidth 32) : EReal) = if a = b then 1 else 0 := by
  by_cases h : a = b
  · rw [if_pos h, StableHlo.Predicate.cmpi_eq_iff.mpr h]
    show (((((1#1 : BitVec 1).setWidth 32).toInt : ℝ) : EReal)) = 1
    rw [show ((1#1 : BitVec 1).setWidth 32).toInt = 1 from by decide]
    simp
  · rw [if_neg h, eq_zero_of_ne_one (mt StableHlo.Predicate.cmpi_eq_iff.mp h)]
    show (((((0#1 : BitVec 1).setWidth 32).toInt : ℝ) : EReal)) = 0
    rw [show ((0#1 : BitVec 1).setWidth 32).toInt = 0 from by decide]
    simp

/-- Row `r`, lane `j` of the one-hot table is the selector of class `r` at lane `j`'s label. -/
theorem onehot_apply (x1 : Vec Ideal S1x16000 .i32) (r : Fin 128) (j : Fin 16000) :
    k0_pay1 (F := Ideal) x1 (ix2 r j) = hot r.val (x1 (ix2 (0 : Fin 1) j)) := by
  unfold k0_pay1
  show FloatOps.sitofp (F := Ideal) .f32 ((IntOp.cmpi .eq (iota .tc S128x16000 32 [0] iota_S128x16000_d0_w32 (ix2 r j))
      (broadcastTo S128x16000 (shapeCast S1x16000 x1 shapeCasts_S1x16000_S1x16000) broadcasts_S1x16000_S128x16000 (ix2 r j))).setWidth 32) = _
  rw [sel_word, iota_single_apply, shapeCast_self,
    broadcastTo_apply x1 broadcasts_S1x16000_S128x16000 (ix2 r j) (ix2 (0 : Fin 1) j)
      (fun a => match a with | ⟨0, _⟩ => rfl | ⟨1, _⟩ => rfl)]
  rfl

/-! ## The two payloads at an index -/

theorem lhs_dot_S128x16000_S32x16000_S128x32_0 (j : S128x32.Idx) (q : dot_S128x16000_S32x16000_S128x32_1_1_0_0_n_n.contr.Idx) :
    (dot_S128x16000_S32x16000_S128x32_1_1_0_0_n_n.lhsIdx j q 0).val = (j 0).val := by
  unfold DotDims.lhsIdx
  rw [dif_neg (show ¬(0 : Fin S128x16000.rank) ∈ dot_S128x16000_S32x16000_S128x32_1_1_0_0_n_n.lhsBatch by decide),
    dif_pos (show (0 : Fin S128x16000.rank) ∈ dot_S128x16000_S32x16000_S128x32_1_1_0_0_n_n.lhsNonContracting by decide)]
  rfl

theorem lhs_dot_S128x16000_S32x16000_S128x32_1 (j : S128x32.Idx) (q : dot_S128x16000_S32x16000_S128x32_1_1_0_0_n_n.contr.Idx) :
    (dot_S128x16000_S32x16000_S128x32_1_1_0_0_n_n.lhsIdx j q 1).val = (q ⟨0, by decide⟩).val :=
  dot_S128x16000_S32x16000_S128x32_1_1_0_0_n_n.lhsIdx_val_of_single (cl := 1) rfl j q

theorem rhs_dot_S128x16000_S32x16000_S128x32_0 (j : S128x32.Idx) (q : dot_S128x16000_S32x16000_S128x32_1_1_0_0_n_n.contr.Idx) :
    (dot_S128x16000_S32x16000_S128x32_1_1_0_0_n_n.rhsIdx j q 0).val = (j 1).val := by
  unfold DotDims.rhsIdx
  rw [dif_neg (show ¬(0 : Fin S32x16000.rank) ∈ dot_S128x16000_S32x16000_S128x32_1_1_0_0_n_n.rhsBatch by decide),
    dif_pos (show (0 : Fin S32x16000.rank) ∈ dot_S128x16000_S32x16000_S128x32_1_1_0_0_n_n.rhsNonContracting by decide)]
  rfl

theorem rhs_dot_S128x16000_S32x16000_S128x32_1 (j : S128x32.Idx) (q : dot_S128x16000_S32x16000_S128x32_1_1_0_0_n_n.contr.Idx) :
    (dot_S128x16000_S32x16000_S128x32_1_1_0_0_n_n.rhsIdx j q 1).val = (q ⟨0, by decide⟩).val :=
  dot_S128x16000_S32x16000_S128x32_1_1_0_0_n_n.rhsIdx_val_of_single (cr := 1) rfl j q

/-- Entry `(r, k)` of the table-times-points product: over the lanes, the table's entry times the point's coordinate. -/
theorem matmul_entry (a : FVec Ideal S128x16000 .bf16) (b : FVec Ideal S32x16000 .bf16) (r : Fin 128) (k : Fin 32) :
    matmul dot_S128x16000_S32x16000_S128x32_1_1_0_0_n_n none a b (constant (F := Ideal) S128x32 .f32 0x00000000#32) (ix2 r k)
      = ∑ j : Fin 16000, a (ix2 r j) * b (ix2 k j) := by
  refine (Ideal.matmul_constant_zero_apply dot_S128x16000_S32x16000_S128x32_1_1_0_0_n_n none a b (ix2 r k)).trans ?_
  rw [← Equiv.sum_comp (contrEquiv1 dot_S128x16000_S32x16000_S128x32_1_1_0_0_n_n 16000 rfl rfl).symm]
  refine Finset.sum_congr rfl fun j _ => ?_
  have hq := contrEquiv1_symm_val dot_S128x16000_S32x16000_S128x32_1_1_0_0_n_n 16000 rfl rfl j
  have el : dot_S128x16000_S32x16000_S128x32_1_1_0_0_n_n.lhsIdx (ix2 r k)
      ((contrEquiv1 dot_S128x16000_S32x16000_S128x32_1_1_0_0_n_n 16000 rfl rfl).symm j) = ix2 r j := by
    funext d; apply Fin.ext
    match d with
    | ⟨0, _⟩ => exact lhs_dot_S128x16000_S32x16000_S128x32_0 _ _
    | ⟨1, _⟩ => exact (lhs_dot_S128x16000_S32x16000_S128x32_1 _ _).trans hq
  have er : dot_S128x16000_S32x16000_S128x32_1_1_0_0_n_n.rhsIdx (ix2 r k)
      ((contrEquiv1 dot_S128x16000_S32x16000_S128x32_1_1_0_0_n_n 16000 rfl rfl).symm j) = ix2 k j := by
    funext d; apply Fin.ext
    match d with
    | ⟨0, _⟩ => exact rhs_dot_S128x16000_S32x16000_S128x32_0 _ _
    | ⟨1, _⟩ => exact (rhs_dot_S128x16000_S32x16000_S128x32_1 _ _).trans hq
  rw [el, er]

/-- The sums payload at `(0, r, k)`: over the lanes, class `r`'s selector at the lane's label times coordinate `k` of the lane's point. -/
theorem sums_payload (x1 : Vec Ideal S1x16000 .i32) (x0 : Vec Ideal S32x16000 .f32) (r : Fin 128) (k : Fin 32) :
    k0_pay2 (F := Ideal) x1 x0 (ix3 (0 : Fin 1) r k)
      = ∑ j : Fin 16000, hot r.val (x1 (ix2 (0 : Fin 1) j)) * x0 (ix2 k j) := by
  unfold k0_pay2
  refine (shapeCast_addUnit_apply ![128, 32] _ shapeCasts_S128x32_S1x128x32 (ix3 (0 : Fin 1) r k)).trans ?_
  rw [show (fun a : Fin 2 => (ix3 (0 : Fin 1) r k) a.succ) = ix2 r k from
    funext fun a => match a with | ⟨0, _⟩ => rfl | ⟨1, _⟩ => rfl]
  refine (matmul_entry _ _ r k).trans ?_
  refine Finset.sum_congr rfl fun j _ => ?_
  rw [truncf_apply, truncf_apply, shapeCast_self, onehot_apply]

/-- The counts payload at `(0, r, 0)`: the number of lanes whose label is class `r`. -/
theorem counts_payload (x1 : Vec Ideal S1x16000 .i32) (r : Fin 128) :
    k0_pay3 (F := Ideal) x1 (ix3 (0 : Fin 1) r (0 : Fin 1)) = ∑ j : Fin 16000, hot r.val (x1 (ix2 (0 : Fin 1) j)) := by
  unfold k0_pay3
  refine (shapeCast_addUnit_apply ![128, 1] _ shapeCasts_S128x1_S1x128x1 (ix3 (0 : Fin 1) r (0 : Fin 1))).trans ?_
  rw [show (fun a : Fin 2 => (ix3 (0 : Fin 1) r (0 : Fin 1)) a.succ) = ix2 r (0 : Fin 1) from
    funext fun a => match a with | ⟨0, _⟩ => rfl | ⟨1, _⟩ => rfl]
  refine (shapeCast_apply _ shapeCasts_S128_S128x1 (ix2 r (0 : Fin 1)) (ix1 r) ?_).trans ?_
  · rw [Shape.rowMajor_val_one, Shape.rowMajor_val_two]; show r.val = r.val * 1 + 0; omega
  refine (Ideal.multiReduction_add_single (k0_pay1 (F := Ideal) x1) 0x00000000#32 reduces_S128x16000_S128 (.inl rfl) rfl (ix1 r)).trans ?_
  show ∑ j : Fin 16000, k0_pay1 (F := Ideal) x1 (reduces_S128x16000_S128.lift (ix1 r) j) = _
  refine Finset.sum_congr rfl fun j _ => ?_
  rw [show reduces_S128x16000_S128.lift (ix1 r) j = ix2 r j from
    funext fun a => Fin.ext (match a with | ⟨0, _⟩ => rfl | ⟨1, _⟩ => rfl), onehot_apply]

/- The buffer contents the launch is entered with: a parameter, as in the generated frame. -/
variable (V : (c : Dev nD) → (b : Ref sig .tc) → Buf (Elt Ideal) ((c : Thread nD τ).loc b))

/-! ## The blocks of a tile -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The four index maps over the grid: tile `t` reads column block `t` of the points and of the label row, and
    writes leading block `t` of each output. -/
theorem tile_index : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The tile of a grid point, as a number below 125. -/
def tileOf (t : Fin cfg0.N) : Fin 125 := ⟨t.val, t.isLt.trans_eq (show cfg0.N = 125 from N_0)⟩

/-- Lane `j` of tile `t`'s points block, coordinate `k`, is point `16000 t + j` of the array. -/
theorem points_block (c : Dev nD) (t : Fin cfg0.N) (k : Fin 32) (j : Fin 16000) :
    (iblk0 (F := Ideal) V c 0 t : Vec Ideal S32x16000 .f32) (ix2 k j)
      = (V c main_v0 : S32x2000000.Idx → EReal) (ix2 k (pt (tileOf t) j)) := by
  obtain ⟨e0, e1, -⟩ := tile_index t
  unfold iblk0
  rw [View.read_apply]
  show V c main_v0 _ = V c main_v0 _
  congr 1
  funext a
  apply Fin.ext
  match a with
  | ⟨0, _⟩ => show win0_0.index t (0 : Fin 2) * 32 + 1 * k.val = k.val; rw [e0]; omega
  | ⟨1, _⟩ => show win0_0.index t (1 : Fin 2) * 16000 + 1 * j.val = 16000 * t.val + j.val; rw [e1]; omega

/-- Lane `j` of tile `t`'s label block is the label of point `16000 t + j`. -/
theorem labels_block (c : Dev nD) (t : Fin cfg0.N) (j : Fin 16000) :
    (iblk0 (F := Ideal) V c 1 t : Vec Ideal S1x16000 .i32) (ix2 (0 : Fin 1) j)
      = (V c main_v1 : S1x2000000.Idx → BitVec 32) (ix2 (0 : Fin 1) (pt (tileOf t) j)) := by
  obtain ⟨-, -, e0, e1, -⟩ := tile_index t
  unfold iblk0
  rw [View.read_apply]
  show V c main_v1 _ = V c main_v1 _
  congr 1
  funext a
  apply Fin.ext
  match a with
  | ⟨0, _⟩ => show win0_1.index t (0 : Fin 2) * 1 + 1 * 0 = 0; rw [e0]
  | ⟨1, _⟩ => show win0_1.index t (1 : Fin 2) * 16000 + 1 * j.val = 16000 * t.val + j.val; rw [e1]; omega

/-! ## What a tile writes back -/

/-- The sums payload of a tile's two blocks, at an index of the output block, is `tileSums` of the two arrays at the
    array index with leading coordinate the tile and the same class and coordinate. -/
theorem sums_block (x1 : Vec Ideal S1x16000 .i32) (x0 : Vec Ideal S32x16000 .f32)
    (e : SEmbT.Idx → EReal) (l : SRow.Idx → BitVec 32) (t : Fin 125)
    (h0 : ∀ (k : Fin 32) (j : Fin 16000), x0 (ix2 k j) = e (ix2 k (pt t j)))
    (h1 : ∀ j : Fin 16000, x1 (ix2 (0 : Fin 1) j) = l (ix2 (0 : Fin 1) (pt t j)))
    (y : S1x128x32.Idx) (i : STileSums.Idx)
    (hi0 : (i 0).val = t.val) (hi1 : (i 1).val = (y 1).val) (hi2 : (i 2).val = (y 2).val) :
    k0_pay2 (F := Ideal) x1 x0 y = tileSums e l i := by
  obtain ⟨a, r, k, rfl⟩ : ∃ (a : Fin 1) (r : Fin 128) (k : Fin 32), y = ix3 a r k := ⟨y 0, y 1, y 2, eq_ix3 y⟩
  obtain ⟨t', r', k', rfl⟩ : ∃ (t' : Fin 125) (r' : Fin 128) (k' : Fin 32), i = ix3 t' r' k' := ⟨i 0, i 1, i 2, eq_ix3 i⟩
  obtain rfl : a = 0 := Subsingleton.elim _ _
  have et : t' = t := Fin.ext hi0
  have er : r' = r := Fin.ext hi1
  have ek : k' = k := Fin.ext hi2
  rw [et, er, ek, sums_payload]
  show _ = ∑ j : Fin 16000, hot r.val (l (ix2 (0 : Fin 1) (pt t j))) * e (ix2 k (pt t j))
  exact Finset.sum_congr rfl fun j _ => by rw [h0, h1]

/-- The counts payload likewise. -/
theorem counts_block (x1 : Vec Ideal S1x16000 .i32) (l : SRow.Idx → BitVec 32) (t : Fin 125)
    (h1 : ∀ j : Fin 16000, x1 (ix2 (0 : Fin 1) j) = l (ix2 (0 : Fin 1) (pt t j)))
    (y : S1x128x1.Idx) (i : STileCol.Idx)
    (hi0 : (i 0).val = t.val) (hi1 : (i 1).val = (y 1).val) :
    k0_pay3 (F := Ideal) x1 y = tileCounts l i := by
  obtain ⟨a, r, b, rfl⟩ : ∃ (a : Fin 1) (r : Fin 128) (b : Fin 1), y = ix3 a r b := ⟨y 0, y 1, y 2, eq_ix3 y⟩
  obtain ⟨t', r', b', rfl⟩ : ∃ (t' : Fin 125) (r' : Fin 128) (b' : Fin 1), i = ix3 t' r' b' := ⟨i 0, i 1, i 2, eq_ix3 i⟩
  obtain rfl : a = 0 := Subsingleton.elim _ _
  obtain rfl : b = 0 := Subsingleton.elim _ _
  have et : t' = t := Fin.ext hi0
  have er : r' = r := Fin.ext hi1
  rw [et, er, counts_payload]
  show _ = ∑ j : Fin 16000, hot r.val (l (ix2 (0 : Fin 1) (pt t j)))
  exact Finset.sum_congr rfl fun j _ => by rw [h1]

/-- What tile `t` writes back to the sums array is block `t` of `tileSums` of the two input arrays. -/
theorem sums_flushed (c : Dev nD) (t : Fin cfg0.N) :
    (dat0 (F := Ideal) V c).flushed 2 t
      = ((cfg0.win 2).blk t).view.read (Elt Ideal) (tileSums (V c main_v0) (V c main_v1)) := by
  show (cfg0.win 2).cut (grid0.coords t) ((dat0 (F := Ideal) V c).after 2 t) = _
  rw [after0_2]
  unfold out0_2
  rw [View.canon_unit_zero zeros3]
  simp only [View.ld_unit_zero (S := S1x16000) zeros2, View.ld_unit_zero (S := S32x16000) zeros2]
  obtain ⟨-, -, -, -, e0, e1, e2, -⟩ := tile_index t
  funext y
  rw [View.read_apply]
  have hy0 : (y 0).val < 1 := (y 0).isLt
  refine sums_block (iblk0 V c 1 t) (iblk0 V c 0 t) (V c main_v0) (V c main_v1) (tileOf t)
    (points_block V c t) (labels_block V c t) y _ ?_ ?_ ?_
  · show win0_2.index t (0 : Fin 3) * 1 + 1 * (y 0).val = t.val
    rw [e0]; omega
  · show win0_2.index t (1 : Fin 3) * 128 + 1 * (y 1).val = (y 1).val
    rw [e1]; omega
  · show win0_2.index t (2 : Fin 3) * 32 + 1 * (y 2).val = (y 2).val
    rw [e2]; omega

/-- What tile `t` writes back to the counts array is block `t` of `tileCounts` of the label row. -/
theorem counts_flushed (c : Dev nD) (t : Fin cfg0.N) :
    (dat0 (F := Ideal) V c).flushed 3 t
      = ((cfg0.win 3).blk t).view.read (Elt Ideal) (tileCounts (V c main_v1)) := by
  show (cfg0.win 3).cut (grid0.coords t) ((dat0 (F := Ideal) V c).after 3 t) = _
  rw [after0_3]
  unfold out0_3
  rw [View.canon_unit_zero zeros3]
  simp only [View.ld_unit_zero (S := S1x16000) zeros2]
  obtain ⟨-, -, -, -, -, -, -, e0, e1, e2⟩ := tile_index t
  funext y
  rw [View.read_apply]
  have hy0 : (y 0).val < 1 := (y 0).isLt
  refine counts_block (iblk0 V c 1 t) (V c main_v1) (tileOf t) (labels_block V c t) y _ ?_ ?_
  · show win0_3.index t (0 : Fin 3) * 1 + 1 * (y 0).val = t.val
    rw [e0]; omega
  · show win0_3.index t (1 : Fin 3) * 128 + 1 * (y 1).val = (y 1).val
    rw [e1]; omega

/-! ## From the tiles to the arrays -/

/-- The grid point of a leading coordinate. -/
def pointOf (a : Fin 125) : Fin cfg0.N := ⟨a.val, a.isLt.trans_eq (show cfg0.N = 125 from N_0).symm⟩

/-- Entry `(t, r, k)` of the sums array lies in tile `t`'s block. -/
theorem sums_cover (i : S125x128x32.Idx) :
    ∃ t : Fin cfg0.N, (cfg0.win 2).flush t = true ∧ i ∈ ((cfg0.win 2).blk t).view.set := by
  refine ⟨pointOf (i 0), flush0_2 _, ?_⟩
  obtain ⟨-, -, -, -, e0, e1, e2, -⟩ := tile_index (pointOf (i 0))
  have h0 : (i 0).val < 125 := (i 0).isLt
  have h1 : (i 1).val < 128 := (i 1).isLt
  have h2 : (i 2).val < 32 := (i 2).isLt
  show i ∈ ((View.whole main_v2_0).slice (win0_2.rect (pointOf (i 0)))).set
  rw [View.set_slice_whole, Rect.mem_set_unit]
  intro a
  match a with
  | ⟨0, _⟩ =>
    show win0_2.index (pointOf (i 0)) (0 : Fin 3) * 1 ≤ (i 0).val ∧ (i 0).val < win0_2.index (pointOf (i 0)) (0 : Fin 3) * 1 + 1
    rw [e0]; show (i 0).val * 1 ≤ (i 0).val ∧ (i 0).val < (i 0).val * 1 + 1; omega
  | ⟨1, _⟩ =>
    show win0_2.index (pointOf (i 0)) (1 : Fin 3) * 128 ≤ (i 1).val ∧ (i 1).val < win0_2.index (pointOf (i 0)) (1 : Fin 3) * 128 + 128
    rw [e1]; omega
  | ⟨2, _⟩ =>
    show win0_2.index (pointOf (i 0)) (2 : Fin 3) * 32 ≤ (i 2).val ∧ (i 2).val < win0_2.index (pointOf (i 0)) (2 : Fin 3) * 32 + 32
    rw [e2]; omega

/-- Entry `(t, r, 0)` of the counts array lies in tile `t`'s block. -/
theorem counts_cover (i : S125x128x1.Idx) :
    ∃ t : Fin cfg0.N, (cfg0.win 3).flush t = true ∧ i ∈ ((cfg0.win 3).blk t).view.set := by
  refine ⟨pointOf (i 0), flush0_3 _, ?_⟩
  obtain ⟨-, -, -, -, -, -, -, e0, e1, e2⟩ := tile_index (pointOf (i 0))
  have h0 : (i 0).val < 125 := (i 0).isLt
  have h1 : (i 1).val < 128 := (i 1).isLt
  have h2 : (i 2).val < 1 := (i 2).isLt
  show i ∈ ((View.whole main_v2_1).slice (win0_3.rect (pointOf (i 0)))).set
  rw [View.set_slice_whole, Rect.mem_set_unit]
  intro a
  match a with
  | ⟨0, _⟩ =>
    show win0_3.index (pointOf (i 0)) (0 : Fin 3) * 1 ≤ (i 0).val ∧ (i 0).val < win0_3.index (pointOf (i 0)) (0 : Fin 3) * 1 + 1
    rw [e0]; show (i 0).val * 1 ≤ (i 0).val ∧ (i 0).val < (i 0).val * 1 + 1; omega
  | ⟨1, _⟩ =>
    show win0_3.index (pointOf (i 0)) (1 : Fin 3) * 128 ≤ (i 1).val ∧ (i 1).val < win0_3.index (pointOf (i 0)) (1 : Fin 3) * 128 + 128
    rw [e1]; omega
  | ⟨2, _⟩ =>
    show win0_3.index (pointOf (i 0)) (2 : Fin 3) * 1 ≤ (i 2).val ∧ (i 2).val < win0_3.index (pointOf (i 0)) (2 : Fin 3) * 1 + 1
    rw [e2]; omega

/-! ## The four arrays -/

/-- The per-tile class sums: the output array is `Spec.tileSums` of the two input arrays as the launch found them. -/
theorem sums_final (c : Dev nD) :
    (dat0 (F := Ideal) V c).arrAt 2 cfg0.N = tileSums (V c main_v0) (V c main_v1) :=
  (dat0 (F := Ideal) V c).arrAt_eq_of_cover 2 (tileSums (V c main_v0) (V c main_v1))
    (fun t _ => sums_flushed V c t) sums_cover

/-- The per-tile class counts. -/
theorem counts_final (c : Dev nD) :
    (dat0 (F := Ideal) V c).arrAt 3 cfg0.N = tileCounts (V c main_v1) :=
  (dat0 (F := Ideal) V c).arrAt_eq_of_cover 3 (tileCounts (V c main_v1))
    (fun t _ => counts_flushed V c t) counts_cover

/-- An input array is never written: the transposed points array ends as entered. -/
theorem emb_final (c : Dev nD) : (dat0 (F := Ideal) V c).arrAt 0 cfg0.N = V c main_v0 := by
  funext i
  rw [(dat0 (F := Ideal) V c).arrAt_apply_of_forall_not_mem 0 cfg0.N i
    (fun t _ hf => absurd (show false = true from hf) Bool.false_ne_true), A_eq0]

/-- The label row ends as entered. -/
theorem lbl_final (c : Dev nD) : (dat0 (F := Ideal) V c).arrAt 1 cfg0.N = V c main_v1 := by
  funext i
  rw [(dat0 (F := Ideal) V c).arrAt_apply_of_forall_not_mem 1 cfg0.N i
    (fun t _ hf => absurd (show false = true from hf) Bool.false_ne_true), A_eq0]

end Cert.KernelIdeal.Reg0
end
-- ==== Proof.Reg1.lean ====
import proofs.«415074_j12979391169049_3_alg».proof.Proof.Gen.KernelIdeal.Frame
import proofs.«415074_j12979391169049_3_alg».proof.Proof.Spec
import Idealize.ShloMosaic.Lib.Pipeline.Value
import Idealize.ShloMosaic.Lib.ValueIdx
import Idealize.ShloMosaic.PureOps.Ideal.Laws
import Idealize.ShloMosaic.Lib.StableHlo.Predicate

set_option maxRecDepth 16384

noncomputable section

namespace Cert.KernelIdeal.Reg1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/- The buffer contents the launch is entered with: a parameter, as in the generated frame. -/
variable (V : (c : Dev nD) → (b : Ref sig .tc) → Buf (Elt Ideal) ((c : Thread nD τ).loc b))

/-! # The second launch's arrays after its run

Windows 0 and 1 are the transposed points array and the label row again, window 2 the transposed, padded table of
class means (`main_v27`, 32 × 128); all three are only read. Window 3 (`main_v28`, 125 × 128 × 1) receives, at grid
point `t`, each class's sum over the tile of its points' pull terms. -/

/-! ## The selector table -/

/-- The 32-bit word of "the two words are equal", read as a real, is one or zero. -/
theorem sitofp_cmpi_eq (a b : BitVec 32) :
    FloatOps.sitofp (F := Ideal) .f32 ((IntOp.cmpi .eq a b).setWidth 32) = if a = b then 1 else 0 := by
  by_cases h : a = b
  · rw [if_pos h, StableHlo.Predicate.cmpi_eq_iff.mpr h]
    show (((((1#1 : BitVec 1).setWidth 32).toInt : ℝ)) : EReal) = 1
    have : ((1#1 : BitVec 1).setWidth 32).toInt = 1 := by decide
    rw [this]; norm_num
  · rw [if_neg h, eq_zero_of_ne_one (fun e => h (StableHlo.Predicate.cmpi_eq_iff.mp e))]
    show (((((0#1 : BitVec 1).setWidth 32).toInt : ℝ)) : EReal) = 0
    have : ((0#1 : BitVec 1).setWidth 32).toInt = 0 := by decide
    rw [this]; norm_num

/-- Row r, lane j of the selector table is the selector of class r at lane j's label. -/
theorem sel_apply (L : IVec S1x16000 32) (h1 : S1x16000.ShapeCasts S1x16000) (h2 : S128x16000.Iotas .tc 32 [0])
    (h3 : S1x16000.Broadcasts S128x16000) (h4 : 1 < 32) (r : Fin 128) (j : Fin 16000) :
    (sitofp .f32 (extui 32 (cmpi .eq (iota .tc S128x16000 32 [0] h2) (broadcastTo S128x16000 (shapeCast S1x16000 L h1) h3)) h4)
      : FVec Ideal S128x16000 .f32) (ix2 r j) = hot r.val (L (ix2 (0 : Fin 1) j)) := by
  rw [shapeCast_self]
  show FloatOps.sitofp (F := Ideal) .f32 ((IntOp.cmpi .eq (iota .tc S128x16000 32 [0] h2 (ix2 r j)) (broadcastTo S128x16000 L h3 (ix2 r j))).setWidth 32) = _
  rw [iota_single_apply, broadcastTo_apply L h3 (ix2 r j) (ix2 (0 : Fin 1) j) (fun a => match a with | ⟨0, _⟩ => rfl | ⟨1, _⟩ => rfl), sitofp_cmpi_eq]
  rfl

/-! ## The table lookup as a product: the contraction of the table's second axis with the selector's first -/

/-- The two operands' indices at entry i of the product and contraction position q, axis by axis: the table is read at
    (i 0, q), the selector table at (q, i 1). -/
theorem lhs_dotMT_0 (i : S32x16000.Idx) (q : dot_S32x128_S128x16000_S32x16000_1_0_0_1_n_n.contr.Idx) :
    (dot_S32x128_S128x16000_S32x16000_1_0_0_1_n_n.lhsIdx i q 0).val = (i 0).val := by
  unfold DotDims.lhsIdx
  rw [dif_neg (show ¬(0 : Fin S32x128.rank) ∈ dot_S32x128_S128x16000_S32x16000_1_0_0_1_n_n.lhsBatch by decide), dif_pos (show (0 : Fin S32x128.rank) ∈ dot_S32x128_S128x16000_S32x16000_1_0_0_1_n_n.lhsNonContracting by decide)]
  rfl
theorem lhs_dotMT_1 (i : S32x16000.Idx) (q : dot_S32x128_S128x16000_S32x16000_1_0_0_1_n_n.contr.Idx) :
    (dot_S32x128_S128x16000_S32x16000_1_0_0_1_n_n.lhsIdx i q 1).val = (q ⟨0, by decide⟩).val :=
  dot_S32x128_S128x16000_S32x16000_1_0_0_1_n_n.lhsIdx_val_of_single rfl i q
theorem rhs_dotMT_0 (i : S32x16000.Idx) (q : dot_S32x128_S128x16000_S32x16000_1_0_0_1_n_n.contr.Idx) :
    (dot_S32x128_S128x16000_S32x16000_1_0_0_1_n_n.rhsIdx i q 0).val = (q ⟨0, by decide⟩).val :=
  dot_S32x128_S128x16000_S32x16000_1_0_0_1_n_n.rhsIdx_val_of_single rfl i q
theorem rhs_dotMT_1 (i : S32x16000.Idx) (q : dot_S32x128_S128x16000_S32x16000_1_0_0_1_n_n.contr.Idx) :
    (dot_S32x128_S128x16000_S32x16000_1_0_0_1_n_n.rhsIdx i q 1).val = (i 1).val := by
  unfold DotDims.rhsIdx
  rw [dif_neg (show ¬(1 : Fin S128x16000.rank) ∈ dot_S32x128_S128x16000_S32x16000_1_0_0_1_n_n.rhsBatch by decide), dif_pos (show (1 : Fin S128x16000.rank) ∈ dot_S32x128_S128x16000_S32x16000_1_0_0_1_n_n.rhsNonContracting by decide)]
  rfl

/-- Entry (k, j) of the product of the 32 × 128 table with the 128 × 16000 selector table, into a zero accumulator. -/
theorem lookup_apply (M : FVec Ideal S32x128 .bf16) (T : FVec Ideal S128x16000 .bf16) (k : Fin 32) (j : Fin 16000) :
    matmul dot_S32x128_S128x16000_S32x16000_1_0_0_1_n_n none M T (constant (F := Ideal) S32x16000 .f32 0x00000000#32) (ix2 k j)
      = ∑ r : Fin 128, M (ix2 k r) * T (ix2 r j) := by
  simp only [matmul]
  rw [Ideal.matmul_constant_zero_apply, ← Equiv.sum_comp (contrEquiv1 dot_S32x128_S128x16000_S32x16000_1_0_0_1_n_n 128 rfl rfl).symm]
  refine Finset.sum_congr rfl fun r _ => ?_
  have hk := contrEquiv1_symm_val dot_S32x128_S128x16000_S32x16000_1_0_0_1_n_n 128 rfl rfl r
  have el : dot_S32x128_S128x16000_S32x16000_1_0_0_1_n_n.lhsIdx (ix2 k j) ((contrEquiv1 dot_S32x128_S128x16000_S32x16000_1_0_0_1_n_n 128 rfl rfl).symm r) = ix2 k r := funext fun a => Fin.ext (by
    match a with
    | ⟨0, _⟩ => exact lhs_dotMT_0 _ _
    | ⟨1, _⟩ => exact (lhs_dotMT_1 _ _).trans hk)
  have er : dot_S32x128_S128x16000_S32x16000_1_0_0_1_n_n.rhsIdx (ix2 k j) ((contrEquiv1 dot_S32x128_S128x16000_S32x16000_1_0_0_1_n_n 128 rfl rfl).symm r) = ix2 r j := funext fun a => Fin.ext (by
    match a with
    | ⟨0, _⟩ => exact (rhs_dotMT_0 _ _).trans hk
    | ⟨1, _⟩ => exact rhs_dotMT_1 _ _)
  rw [el, er]

/-! ## The two lane sums -/

/-- The sum down the 32 rows of a column. -/
theorem colsum_apply (X : FVec Ideal S32x16000 .f32) (h : S32x16000.Reduces [0] S16000) (hφ : FKind.Formats .f32)
    (hacc : (0x00000000#32 : BitVec 32) = FKind.add.neutral .f32 hφ) (j : Fin 16000) :
    multiReduction (F := Ideal) .add [0] S16000 X 0x00000000#32 h hφ hacc (ix1 j) = ∑ k : Fin 32, X (ix2 k j) := by
  refine (Ideal.multiReduction_add_single X _ h hφ hacc (ix1 j)).trans ?_
  refine Finset.sum_congr rfl fun k _ => congrArg X ?_
  funext a; apply Fin.ext
  match a with
  | ⟨0, _⟩ => rfl
  | ⟨1, _⟩ => rfl

/-- The sum along the 16000 lanes of a row. -/
theorem rowsum_apply (Y : FVec Ideal S128x16000 .f32) (h : S128x16000.Reduces [1] S128) (hφ : FKind.Formats .f32)
    (hacc : (0x00000000#32 : BitVec 32) = FKind.add.neutral .f32 hφ) (r : Fin 128) :
    multiReduction (F := Ideal) .add [1] S128 Y 0x00000000#32 h hφ hacc (ix1 r) = ∑ j : Fin 16000, Y (ix2 r j) := by
  refine (Ideal.multiReduction_add_single Y _ h hφ hacc (ix1 r)).trans ?_
  refine Finset.sum_congr rfl fun j _ => congrArg Y ?_
  funext a; apply Fin.ext
  match a with
  | ⟨0, _⟩ => rfl
  | ⟨1, _⟩ => rfl

/-! ## The layout steps: a unit axis added in front or behind -/

/-- A vector of 16000 lanes read as a 1 × 16000 row. -/
theorem cast_row {α : Type} (v : S16000.Idx → α) (h : S16000.ShapeCasts S1x16000) (z : Fin 1) (j : Fin 16000) :
    shapeCast S1x16000 v h (ix2 z j) = v (ix1 j) :=
  shapeCast_apply v h (ix2 z j) (ix1 j) (by
    rw [Shape.rowMajor_val_one, Shape.rowMajor_val_two]
    show j.val = z.val * 16000 + j.val
    have := z.isLt; omega)

/-- A vector of 128 entries read as a 128 × 1 column. -/
theorem cast_col {α : Type} (v : S128.Idx → α) (h : S128.ShapeCasts S128x1) (r : Fin 128) (w : Fin 1) :
    shapeCast S128x1 v h (ix2 r w) = v (ix1 r) :=
  shapeCast_apply v h (ix2 r w) (ix1 r) (by
    rw [Shape.rowMajor_val_one, Shape.rowMajor_val_two]
    show r.val = r.val * 1 + w.val
    have := w.isLt; omega)

/-- A 128 × 1 column read as a 1 × 128 × 1 block. -/
theorem cast_tile {α : Type} (v : S128x1.Idx → α) (h : S128x1.ShapeCasts S1x128x1) (z : Fin 1) (r : Fin 128) (w : Fin 1) :
    shapeCast S1x128x1 v h (ix3 z r w) = v (ix2 r w) :=
  shapeCast_apply v h (ix3 z r w) (ix2 r w) (by
    rw [Shape.rowMajor_val_two, Shape.rowMajor_val_three]
    show r.val * 1 + w.val = (z.val * 128 + r.val) * 1 + w.val
    have := z.isLt; omega)

/-- The row of per-lane values spread over the 128 classes. -/
theorem spread_apply {α : Type} (v : S1x16000.Idx → α) (h : S1x16000.Broadcasts S128x16000) (r : Fin 128) (j : Fin 16000) :
    broadcastTo S128x16000 v h (ix2 r j) = v (ix2 (0 : Fin 1) j) :=
  broadcastTo_apply v h (ix2 r j) (ix2 (0 : Fin 1) j) (fun a => match a with | ⟨0, _⟩ => rfl | ⟨1, _⟩ => rfl)

/-! ## The body's value at an entry -/

/-- Products of equal factors are equal. -/
theorem mul_congr_ereal {a b c d : EReal} (h1 : a = c) (h2 : b = d) : a * b = c * d := by rw [h1, h2]

/-- From a row of squared distances: the hinge, lane by lane. -/
theorem hinge_row (D : FVec Ideal S1x16000 .f32) (z : Fin 1) (j : Fin 16000) :
    (mulf
      (maximumf (subf (select (cmpf .ogt D (broadcast S1x16000 (Scalar.ofBits .f32 0x00000000#32)))
          (sqrt (select (cmpf .ogt D (broadcast S1x16000 (Scalar.ofBits .f32 0x00000000#32))) D (broadcast S1x16000 (Scalar.ofBits .f32 0x3F800000#32))))
          (broadcast S1x16000 (Scalar.ofBits .f32 0x00000000#32))) (broadcast S1x16000 (Scalar.ofBits .f32 0x3F000000#32)))
        (broadcast S1x16000 (Scalar.ofBits .f32 0x00000000#32)))
      (maximumf (subf (select (cmpf .ogt D (broadcast S1x16000 (Scalar.ofBits .f32 0x00000000#32)))
          (sqrt (select (cmpf .ogt D (broadcast S1x16000 (Scalar.ofBits .f32 0x00000000#32))) D (broadcast S1x16000 (Scalar.ofBits .f32 0x3F800000#32))))
          (broadcast S1x16000 (Scalar.ofBits .f32 0x00000000#32))) (broadcast S1x16000 (Scalar.ofBits .f32 0x3F000000#32)))
        (broadcast S1x16000 (Scalar.ofBits .f32 0x00000000#32))) : FVec Ideal S1x16000 .f32) (ix2 z j)
      = hinge2 (D (ix2 z j)) := rfl

/-- Row k, lane j of "the points less their looked-up table columns". -/
theorem diff_apply (L : IVec S1x16000 32) (M : FVec Ideal S32x128 .f32) (E : FVec Ideal S32x16000 .f32)
    (h1 : S1x16000.ShapeCasts S1x16000) (h2 : S128x16000.Iotas .tc 32 [0]) (h3 : S1x16000.Broadcasts S128x16000) (h4 : 1 < 32)
    (h5 : S32x16000.ShapeCasts S32x16000) (h6 : S32x128.ShapeCasts S32x128) (h7 : FTy.bf16.bits < FTy.f32.bits)
    (k : Fin 32) (j : Fin 16000) :
    (subf (shapeCast S32x16000 E h5)
      (matmul dot_S32x128_S128x16000_S32x16000_1_0_0_1_n_n none (truncf .bf16 (shapeCast S32x128 M h6) h7)
        (truncf .bf16 (sitofp .f32 (extui 32 (cmpi .eq (iota .tc S128x16000 32 [0] h2) (broadcastTo S128x16000 (shapeCast S1x16000 L h1) h3)) h4) : FVec Ideal S128x16000 .f32) h7)
        (constant (F := Ideal) S32x16000 .f32 0x00000000#32)) : FVec Ideal S32x16000 .f32) (ix2 k j)
      = E (ix2 k j) - ∑ r : Fin 128, M (ix2 k r) * hot r.val (L (ix2 (0 : Fin 1) j)) := by
  refine (subf_apply _ _ (ix2 k j)).trans ?_
  rw [shapeCast_self, shapeCast_self M]
  refine congrArg (fun x : EReal => E (ix2 k j) - x) ?_
  refine (lookup_apply _ _ k j).trans ?_
  refine Finset.sum_congr rfl fun r _ => ?_
  exact mul_congr_ereal rfl (sel_apply L h1 h2 h3 h4 r j)

/-- Lane j's pull term, from the three blocks: the squared distance of the lane's point from the table column its
    label selects, through the hinge. -/
def lanePull (L : S1x16000.Idx → BitVec 32) (M : S32x128.Idx → EReal) (E : S32x16000.Idx → EReal) (j : Fin 16000) : EReal :=
  hinge2 (∑ k : Fin 32, (E (ix2 k j) - ∑ r : Fin 128, M (ix2 k r) * hot r.val (L (ix2 (0 : Fin 1) j)))
                      * (E (ix2 k j) - ∑ r : Fin 128, M (ix2 k r) * hot r.val (L (ix2 (0 : Fin 1) j))))

/-- Entry (·, r, ·) of what the body stores: over the lanes, the selector of class r at the lane's label times the
    lane's pull term. -/
theorem pay_apply (L : Vec Ideal S1x16000 .i32) (M : Vec Ideal S32x128 .f32) (E : Vec Ideal S32x16000 .f32)
    (z : Fin 1) (r : Fin 128) (w : Fin 1) :
    k1_pay1 L M E (ix3 z r w) = ∑ j : Fin 16000, hot r.val (L (ix2 (0 : Fin 1) j)) * lanePull L M E j := by
  unfold k1_pay1
  refine (cast_tile _ _ z r w).trans ?_
  refine (cast_col _ _ r w).trans ?_
  refine (rowsum_apply _ _ _ _ r).trans ?_
  refine Finset.sum_congr rfl fun j _ => ?_
  refine (mulf_apply _ _ (ix2 r j)).trans ?_
  refine mul_congr_ereal (sel_apply _ _ _ _ _ r j) ?_
  refine (spread_apply _ _ r j).trans ?_
  refine (hinge_row _ 0 j).trans ?_
  unfold lanePull
  refine congrArg hinge2 ?_
  refine (cast_row _ _ 0 j).trans ?_
  refine (colsum_apply _ _ _ _ j).trans ?_
  refine Finset.sum_congr rfl fun k _ => ?_
  refine (mulf_apply _ _ (ix2 k j)).trans ?_
  exact mul_congr_ereal (diff_apply _ _ _ _ _ _ _ _ _ _ k j) (diff_apply _ _ _ _ _ _ _ _ _ _ k j)

/-! ## A block of the output is a block of the whole-array function -/

/-- The body's value at entry (·, r, ·) of point t's block, when the three input blocks are the arrays read at tile t:
    it is the whole-array function at (t, r, ·). -/
theorem block_value (x0 : Vec Ideal S32x16000 .f32) (x1 : Vec Ideal S1x16000 .i32) (x2 : Vec Ideal S32x128 .f32)
    (e : SEmbT.Idx → EReal) (l : SRow.Idx → BitVec 32) (mt : SMeansT.Idx → EReal) (t : Fin 125)
    (he : ∀ (k : Fin 32) (j : Fin 16000), x0 (ix2 k j) = e (ix2 k (pt t j)))
    (hl : ∀ j : Fin 16000, x1 (ix2 (0 : Fin 1) j) = l (ix2 (0 : Fin 1) (pt t j)))
    (hm : ∀ (k : Fin 32) (r : Fin 128), x2 (ix2 k r) = mt (ix2 k r))
    (z : Fin 1) (r : Fin 128) (w : Fin 1) (w' : Fin 1) :
    k1_pay1 x1 x2 x0 (ix3 z r w) = tilePull e l mt (ix3 t r w') := by
  rw [pay_apply]
  show _ = ∑ j : Fin 16000, hot r.val (l (ix2 (0 : Fin 1) (pt t j))) * hinge2 (sqDist e l mt (pt t j))
  refine Finset.sum_congr rfl fun j _ => ?_
  unfold lanePull sqDist
  simp only [he, hl, hm]

/-! ## What each point writes back, and the array after the run -/

/-- The zero offsets of a whole-block access, as constant functions. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices at tile t: the points and the label row move along their second axis, the table stays, the output
    moves along its first axis. -/
theorem tile_index : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- What tile t writes back is block t of the whole-array function of the three arrays as the launch finds them. -/
theorem pull_flushed (c : Dev nD) (t : Fin cfg1.N) :
    (dat1 (F := Ideal) V c).flushed 3 t
      = ((cfg1.win 3).blk t).view.read (Elt Ideal) (tilePull (V c main_v0) (V c main_v1) (V c main_v27)) := by
  show (cfg1.win 3).cut (grid1.coords t) ((dat1 V c).after 3 t) = _
  rw [after1_3]
  unfold out1_3
  rw [View.canon_unit_zero zeros3]
  simp only [View.ld_unit_zero (S := S1x16000) zeros2, View.ld_unit_zero (S := S32x128) zeros2, View.ld_unit_zero (S := S32x16000) zeros2]
  obtain ⟨e00, e01, e10, e11, e20, e21, e30, e31, e32⟩ := tile_index t
  funext y
  have hy : (win1 3).xinj (grid1.coords t) y = ix3 (n0 := 1) (n1 := 128) (n2 := 1) (y 0) (y 1) (y 2) := by
    funext a; match a with | ⟨0, _⟩ => rfl | ⟨1, _⟩ => rfl | ⟨2, _⟩ => rfl
  have hr : ((win1 3).blk t).view.emb y = ix3 (n0 := 125) (n1 := 128) (n2 := 1) t (y 1) (y 2) := by
    funext a; apply Fin.ext
    match a with
    | ⟨0, _⟩ => show win1_3.index t (0 : Fin 3) * 1 + 1 * (y 0).val = t.val; have : (y 0).val < 1 := (y 0).isLt; omega
    | ⟨1, _⟩ => show win1_3.index t (1 : Fin 3) * 128 + 1 * (y 1).val = (y 1).val; omega
    | ⟨2, _⟩ => show win1_3.index t (2 : Fin 3) * 1 + 1 * (y 2).val = (y 2).val; omega
  have he : ∀ (k : Fin 32) (j : Fin 16000), iblk1 V c 0 t (ix2 k j) = V c main_v0 (ix2 k (pt t j)) := by
    intro k j
    show V c main_v0 (((cfg1.win 0).blk t).view.emb (ix2 k j)) = V c main_v0 (ix2 k (pt t j))
    refine congrArg (V c main_v0) ?_
    funext a; apply Fin.ext
    match a with
    | ⟨0, _⟩ => show win1_0.index t (0 : Fin 2) * 32 + 1 * k.val = k.val; omega
    | ⟨1, _⟩ => show win1_0.index t (1 : Fin 2) * 16000 + 1 * j.val = 16000 * t.val + j.val; omega
  have hl : ∀ j : Fin 16000, iblk1 V c 1 t (ix2 (0 : Fin 1) j) = V c main_v1 (ix2 (0 : Fin 1) (pt t j)) := by
    intro j
    show V c main_v1 (((cfg1.win 1).blk t).view.emb (ix2 (0 : Fin 1) j)) = V c main_v1 (ix2 (0 : Fin 1) (pt t j))
    refine congrArg (V c main_v1) ?_
    funext a; apply Fin.ext
    match a with
    | ⟨0, _⟩ => show win1_1.index t (0 : Fin 2) * 1 + 1 * 0 = 0; omega
    | ⟨1, _⟩ => show win1_1.index t (1 : Fin 2) * 16000 + 1 * j.val = 16000 * t.val + j.val; omega
  have hm : ∀ (k : Fin 32) (r : Fin 128), iblk1 V c 2 t (ix2 k r) = V c main_v27 (ix2 k r) := by
    intro k r
    show V c main_v27 (((cfg1.win 2).blk t).view.emb (ix2 k r)) = V c main_v27 (ix2 k r)
    refine congrArg (V c main_v27) ?_
    funext a; apply Fin.ext
    match a with
    | ⟨0, _⟩ => show win1_2.index t (0 : Fin 2) * 32 + 1 * k.val = k.val; omega
    | ⟨1, _⟩ => show win1_2.index t (1 : Fin 2) * 128 + 1 * r.val = r.val; omega
  show k1_pay1 (iblk1 V c 1 t) (iblk1 V c 2 t) (iblk1 V c 0 t) ((win1 3).xinj (grid1.coords t) y)
    = tilePull (V c main_v0) (V c main_v1) (V c main_v27) (((win1 3).blk t).view.emb y)
  rw [hy, hr]
  exact block_value (iblk1 V c 0 t) (iblk1 V c 1 t) (iblk1 V c 2 t) (V c main_v0) (V c main_v1) (V c main_v27) t he hl hm
    (y 0) (y 1) (y 2) (y 2)

/-- An index of the output array is in tile t's block iff each coordinate is in the block's range on its axis. -/
theorem mem_tile (t : Fin cfg1.N) (i : S125x128x1.Idx) :
    i ∈ ((cfg1.win 3).blk t).view.set ↔ ∀ a : Fin 3, win1_3.index t a * S1x128x1.size a ≤ (i a).val ∧ (i a).val < win1_3.index t a * S1x128x1.size a + S1x128x1.size a := by
  show i ∈ ((View.whole main_v28).slice (win1_3.rect t)).set ↔ _
  rw [View.set_slice_whole, Rect.mem_set_unit]
  exact Iff.rfl

/-- Entry (t, r, ·) of the output array lies in tile t's block, and every tile writes back. -/
theorem pull_cover (i : S125x128x1.Idx) :
    ∃ t : Fin cfg1.N, (cfg1.win 3).flush t = true ∧ i ∈ ((cfg1.win 3).blk t).view.set := by
  have h0 : (i 0).val < 125 := (i 0).isLt
  have h1 : (i 1).val < 128 := (i 1).isLt
  have h2 : (i 2).val < 1 := (i 2).isLt
  obtain ⟨-, -, -, -, -, -, e30, e31, e32⟩ := tile_index ⟨(i 0).val, h0⟩
  have e30' : win1_3.index ⟨(i 0).val, h0⟩ (0 : Fin 3) = (i 0).val := e30
  refine ⟨⟨(i 0).val, h0⟩, flush1_3 _, ?_⟩
  rw [mem_tile]
  intro a
  match a with
  | ⟨0, _⟩ => show win1_3.index ⟨(i 0).val, h0⟩ (0 : Fin 3) * 1 ≤ (i 0).val ∧ (i 0).val < win1_3.index ⟨(i 0).val, h0⟩ (0 : Fin 3) * 1 + 1; omega
  | ⟨1, _⟩ => show win1_3.index ⟨(i 0).val, h0⟩ (1 : Fin 3) * 128 ≤ (i 1).val ∧ (i 1).val < win1_3.index ⟨(i 0).val, h0⟩ (1 : Fin 3) * 128 + 128; omega
  | ⟨2, _⟩ => show win1_3.index ⟨(i 0).val, h0⟩ (2 : Fin 3) * 1 ≤ (i 2).val ∧ (i 2).val < win1_3.index ⟨(i 0).val, h0⟩ (2 : Fin 3) * 1 + 1; omega

/-- The per-tile class pull sums. -/
theorem pull_final (c : Dev nD) :
    (dat1 (F := Ideal) V c).arrAt 3 cfg1.N = tilePull (V c main_v0) (V c main_v1) (V c main_v27) :=
  (dat1 (F := Ideal) V c).arrAt_eq_of_cover 3 (tilePull (V c main_v0) (V c main_v1) (V c main_v27))
    (fun t _ => pull_flushed V c t) pull_cover

/-- The three input arrays end as entered. -/
theorem emb_final (c : Dev nD) : (dat1 (F := Ideal) V c).arrAt 0 cfg1.N = V c main_v0 :=
  ((dat1 (F := Ideal) V c).arrAt_in 0 rfl cfg1.N).trans (A_eq1 V c 0)
theorem lbl_final (c : Dev nD) : (dat1 (F := Ideal) V c).arrAt 1 cfg1.N = V c main_v1 :=
  ((dat1 (F := Ideal) V c).arrAt_in 1 rfl cfg1.N).trans (A_eq1 V c 1)
theorem meansT_final (c : Dev nD) : (dat1 (F := Ideal) V c).arrAt 2 cfg1.N = V c main_v27 :=
  ((dat1 (F := Ideal) V c).arrAt_in 2 rfl cfg1.N).trans (A_eq1 V c 2)

end Cert.KernelIdeal.Reg1

end
-- ==== Proof.KHost.lean ====
import proofs.«415074_j12979391169049_3_alg».proof.Proof.Gen.KernelIdeal

/-!
# The kernel program's host operations around its two launches, as pure functions

Each definition is one printed host operation of @main (or a short run of them), over the values it reads; `so`, `co`
stand for the first launch's two outputs (per-tile class sums, 125 × 128 × 32, and per-tile class counts, 125 × 128 × 1)
and `po` for the second launch's (per-tile class pull sums, 125 × 128 × 1).

* before the first launch: the points array transposed, the labels laid out as a row;
* between the launches: the tiles added up, the first 65 classes kept, class 0 (the background) zeroed; which classes are
  present, the divisor `max(count, 1)`, the class means, the number of present classes, and the means padded back to
  128 rows and transposed;
* after the second launch: the tiles added up, 65 classes kept, divided by the divisor and masked by presence.
-/

noncomputable section

namespace Cert.KernelIdeal.KHost

open Cert.KernelIdeal Cert.KernelIdeal.Facts₀ Cert.KernelIdeal.Facts Idealize.ShloMosaic

variable {F : FTy → Type} [FloatOps F]

/-! ## Before the first launch -/

/-- `%0`: the points array transposed, one point per column. -/
def embT (x0 : (⟨S2000000x32, .f32⟩ : BufTy).Contents (Elt F)) : (⟨S32x2000000, .f32⟩ : BufTy).Contents (Elt F) :=
  transpose S32x2000000 [1, 0] x0 transposes_S2000000x32_S32x2000000_1_0

/-- `%1`: the labels as one row. -/
def lblRow (x1 : (⟨S2000000, .i32⟩ : BufTy).Contents (Elt F)) : (⟨S1x2000000, .i32⟩ : BufTy).Contents (Elt F) :=
  fun i => shapeCast S1x2000000 x1 shapeCasts_S2000000_S1x2000000 i

/-! ## Between the launches -/

/-- `%3`, `%6`: the per-tile sums added over the tiles, classes 0 … 64 kept. -/
def sumsKept (so : (⟨S125x128x32, .f32⟩ : BufTy).Contents (Elt F)) : (⟨S65x32, .f32⟩ : BufTy).Contents (Elt F) :=
  extractStridedSlice S65x32 ![0, 0]
    (Host.reduceAdd so (constant S_ .f32 0x00000000#32) reducesTo_S125x128x32_S128x32_d0 h_S_) slices_S128x32_S65x32_0_0

/-- `%4`, `%5`, `%7`: the per-tile counts added over the tiles, the unit axis dropped, classes 0 … 64 kept. -/
def cntKept (co : (⟨S125x128x1, .f32⟩ : BufTy).Contents (Elt F)) : (⟨S65, .f32⟩ : BufTy).Contents (Elt F) :=
  extractStridedSlice S65 ![0]
    (fun i => shapeCast S128 (Host.reduceAdd co (constant S_ .f32 0x00000000#32) reducesTo_S125x128x1_S128x1_d0 h_S_)
      shapeCasts_S128x1_S128 i) slices_S128_S65_0

/-- `%10`: the class sums with the background class's row set to zero. -/
def sums65 (so : (⟨S125x128x32, .f32⟩ : BufTy).Contents (Elt F)) : (⟨S65x32, .f32⟩ : BufTy).Contents (Elt F) :=
  Host.scatter scatter_S65x32_S1_S32_0_0_0_0 (fun _ b => b) (sumsKept so)
    (broadcastInDim S1 ![] bcast_S_S1 (constantI S_ 32 0#32))
    (broadcastInDim S32 ![] bcast_S_S32 (constant S_ .f32 0x00000000#32))

/-- `%12`: the class counts with the background class's set to zero. -/
def cnt65 (co : (⟨S125x128x1, .f32⟩ : BufTy).Contents (Elt F)) : (⟨S65, .f32⟩ : BufTy).Contents (Elt F) :=
  Host.scatter scatter_S65_S1_S__n_0_0_0 (fun _ b => b) (cntKept co)
    (broadcastInDim S1 ![] bcast_S_S1 (constantI S_ 32 0#32))
    (constant S_ .f32 0x00000000#32)

/-- `%14`: a class is present when its count is positive. -/
def presentOf (cnt : (⟨S65, .f32⟩ : BufTy).Contents (Elt F)) : (⟨S65, .i1⟩ : BufTy).Contents (Elt F) :=
  cmpf .ogt cnt (broadcastInDim S65 ![] bcast_S_S65 (constant S_ .f32 0x00000000#32))

/-- `%16`: the divisor, the count or one, whichever is greater. -/
def safeOf (cnt : (⟨S65, .f32⟩ : BufTy).Contents (Elt F)) : (⟨S65, .f32⟩ : BufTy).Contents (Elt F) :=
  maximumf cnt (broadcastInDim S65 ![] bcast_S_S65 (constant S_ .f32 0x3F800000#32))

/-- `%17` … `%19`: the class means, each row of sums over its class's divisor. -/
def meansOf (sums : (⟨S65x32, .f32⟩ : BufTy).Contents (Elt F)) (safe : (⟨S65, .f32⟩ : BufTy).Contents (Elt F)) :
    (⟨S65x32, .f32⟩ : BufTy).Contents (Elt F) :=
  Host.divf sums (broadcastInDim S65x32 ![0, 1] bcast_S65x1_S65x32_0_1 (broadcastInDim S65x1 ![0] bcast_S65_S65x1_0 safe))

/-- `%20`, `%21`: the number of present classes. -/
def nInstOf (p : (⟨S65, .i1⟩ : BufTy).Contents (Elt F)) : (⟨S_, .i32⟩ : BufTy).Contents (Elt F) :=
  Host.reduce IntOp.addi (extui 32 p natLt_1_32) (constantI S_ 32 0#32) reducesTo_S65_S_d0 h_S_

/-- `%22`, `%23`: that number, or one if it is less, as a float. -/
def nInstFOf (n : (⟨S_, .i32⟩ : BufTy).Contents (Elt F)) : (⟨S_, .f32⟩ : BufTy).Contents (Elt F) :=
  sitofp .f32 (maxsi n (constantI S_ 32 1#32))

/-- `%26`, `%27`: the means written into rows 0 … 64 of a zero table of 128 rows, transposed. -/
def meansT (means : (⟨S65x32, .f32⟩ : BufTy).Contents (Elt F)) : (⟨S32x128, .f32⟩ : BufTy).Contents (Elt F) :=
  transpose S32x128 [1, 0]
    (Host.scatter scatter_S128x32_S1_S65x32_01_n_0_0 (fun _ b => b)
      (broadcastInDim S128x32 ![] bcast_S_S128x32 (constant S_ .f32 0x00000000#32))
      (broadcastInDim S1 ![] bcast_S_S1 (constantI S_ 32 0#32)) means)
    transposes_S128x32_S32x128_1_0

/-! ## After the second launch -/

/-- `%29`, `%30`, `%31`: the per-tile pull sums added over the tiles, the unit axis dropped, classes 0 … 64 kept. -/
def pull65 (po : (⟨S125x128x1, .f32⟩ : BufTy).Contents (Elt F)) : (⟨S65, .f32⟩ : BufTy).Contents (Elt F) :=
  extractStridedSlice S65 ![0]
    (fun i => shapeCast S128 (Host.reduceAdd po (constant S_ .f32 0x00000000#32) reducesTo_S125x128x1_S128x1_d0 h_S_)
      shapeCasts_S128x1_S128 i) slices_S128_S65_0

/-- `%32`, `%33`: each class's pull sum over its divisor where the class is present, zero elsewhere. -/
def maskedOf (p : (⟨S65, .i1⟩ : BufTy).Contents (Elt F)) (safe pull : (⟨S65, .f32⟩ : BufTy).Contents (Elt F)) :
    (⟨S65, .f32⟩ : BufTy).Contents (Elt F) :=
  select p (Host.divf pull safe) (broadcastInDim S65 ![] bcast_S_S65 (id (constant S_ .f32 0x00000000#32)))

end Cert.KernelIdeal.KHost

end
-- ==== Proof.KStage.lean ====
import proofs.«415074_j12979391169049_3_alg».proof.Proof.Gen.KernelIdeal.Launch
import proofs.«415074_j12979391169049_3_alg».proof.Proof.KHost
import Idealize.ShloMosaic.Lib.StableHlo.Run

/-!
# The kernel program's first two stretches of host operations, run from any buffer contents

`StableHlo.after ops X` is what the buffers hold once the operations `ops` have run from contents `X`. For the two
operations before the first launch and the 37 between the launches, each buffer a later part of the program reads is
the named pure function (KHost) of the buffers the stretch itself reads; a buffer the stretch does not write is unchanged.
-/

noncomputable section

namespace Cert.KernelIdeal.KStage

open Cert.KernelIdeal Cert.KernelIdeal.Gen Cert.KernelIdeal.KHost
open Idealize.ShloMosaic Idealize.ShloMosaic.TcCoe Idealize.ShloMosaic.StableHlo Idealize.SL.Sem

variable {F : FTy → Type} [FloatOps F] (X : Valuation τ sig (Elt F))

/-! ## Before the first launch -/

theorem ops0_v0 : after hostOps0 X (Proc.devRef .tc main_v0) = embT (X (Proc.devRef .tc main_arg0)) := by
  unfold hostOps0
  after_results
  rfl

theorem ops0_v1 : after hostOps0 X (Proc.devRef .tc main_v1) = lblRow (X (Proc.devRef .tc main_arg1)) := by
  unfold hostOps0
  after_results
  rfl

/-! ## Between the launches: `so`, `co` are the first launch's outputs `main_v2_0`, `main_v2_1` as the stretch finds them -/

/-- The class counts, background zeroed (`%12`). -/
theorem ops1_v12 : after hostOps1 X (Proc.devRef .tc main_v12) = cnt65 (X (Proc.devRef .tc main_v2_1)) := by
  unfold hostOps1
  after_results_simp <;> rfl

/-- Which classes are present (`%14`). -/
theorem ops1_v14 : after hostOps1 X (Proc.devRef .tc main_v14) = presentOf (cnt65 (X (Proc.devRef .tc main_v2_1))) := by
  unfold hostOps1
  after_results_simp <;> rfl

/-- The divisor (`%16`). -/
theorem ops1_v16 : after hostOps1 X (Proc.devRef .tc main_v16) = safeOf (cnt65 (X (Proc.devRef .tc main_v2_1))) := by
  unfold hostOps1
  after_results_simp <;> rfl

/-- The class means (`%19`). -/
theorem ops1_v19 : after hostOps1 X (Proc.devRef .tc main_v19)
    = meansOf (sums65 (X (Proc.devRef .tc main_v2_0))) (safeOf (cnt65 (X (Proc.devRef .tc main_v2_1)))) := by
  unfold hostOps1
  after_results_simp <;> rfl

/-- The number of present classes (`%21`) and its float (`%23`), each from the buffer before it. -/
theorem ops1_v21 : after hostOps1 X (Proc.devRef .tc main_v21) = nInstOf (after hostOps1 X (Proc.devRef .tc main_v14)) := by
  unfold hostOps1
  after_results_simp <;> rfl

theorem ops1_v23 : after hostOps1 X (Proc.devRef .tc main_v23) = nInstFOf (after hostOps1 X (Proc.devRef .tc main_v21)) := by
  unfold hostOps1
  after_results_simp <;> rfl

/-- The padded, transposed table of means the second launch reads (`%27`). -/
theorem ops1_v27 : after hostOps1 X (Proc.devRef .tc main_v27)
    = meansT (meansOf (sums65 (X (Proc.devRef .tc main_v2_0))) (safeOf (cnt65 (X (Proc.devRef .tc main_v2_1))))) := by
  unfold hostOps1
  after_results_simp <;> rfl

/-- The stretch writes neither the transposed points array nor the label row. -/
theorem ops1_v0 : after hostOps1 X (Proc.devRef .tc main_v0) = X (Proc.devRef .tc main_v0) := by
  unfold hostOps1
  after_results_simp <;> rfl

theorem ops1_v1 : after hostOps1 X (Proc.devRef .tc main_v1) = X (Proc.devRef .tc main_v1) := by
  unfold hostOps1
  after_results_simp <;> rfl

end Cert.KernelIdeal.KStage

end
-- ==== Proof.TailFn.lean ====
import proofs.«415074_j12979391169049_3_alg».proof.Proof.Gen.ReferenceIdeal

/-!
# The loss from the class table onward, as one function

Both programs end with the same arithmetic on three small arrays: `p`, which of the 65 classes are present (class 0,
the background, never is); `μ`, the 65 × 32 table of class means; and `q`, each present class's mean pull term (zero for
an absent class). From them:

* the number `C` of present classes, and `max(C, 1)` as a float;
* the pull loss, `(∑ q) / max(C, 1)`;
* the push loss: over the pairs `a < b` of present classes, `max(3 − ‖μ a − μ b‖, 0)²`, averaged over the number of such
  pairs (zero when there is none) — the pair mask is the strict upper triangle met with presence of both classes;
* the regulariser: the mean over present classes of `‖μ a‖`;
* the total `1 · pull + 1 · push + 0.001 · reg`, or zero when no class is present.

The definitions follow the reference program's printed host operations one for one, so that each program's own chain of
operations is this function of its own three arrays by unfolding.
-/

noncomputable section

namespace Cert.Tail

open Cert.ReferenceIdeal Cert.ReferenceIdeal.Facts₀ Cert.ReferenceIdeal.Facts Idealize.ShloMosaic

variable {F : FTy → Type} [FloatOps F]

/-- The number of present classes. -/
def nInst (p : (⟨S65, .i1⟩ : BufTy).Contents (Elt F)) : (⟨S_, .i32⟩ : BufTy).Contents (Elt F) :=
  Host.reduce IntOp.addi (extui 32 p natLt_1_32) (constantI S_ 32 0#32) reducesTo_S65_S_d0 h_S_

/-- That number, or one if it is less, as a float. -/
def nInstF (p : (⟨S65, .i1⟩ : BufTy).Contents (Elt F)) : (⟨S_, .f32⟩ : BufTy).Contents (Elt F) :=
  sitofp .f32 (maxsi (nInst p) (constantI S_ 32 1#32))

/-- The pull loss: the classes' mean pull terms added up, over the number of present classes. -/
def pullLoss (p : (⟨S65, .i1⟩ : BufTy).Contents (Elt F)) (q : (⟨S65, .f32⟩ : BufTy).Contents (Elt F)) : (⟨S_, .f32⟩ : BufTy).Contents (Elt F) :=
  Host.divf (Host.reduceAdd q (constant S_ .f32 0x00000000#32) reducesTo_S65_S_d0 h_S_) (nInstF p)

/-- The squared distance between every two class means. -/
def pairD2 (μ : (⟨S65x32, .f32⟩ : BufTy).Contents (Elt F)) : (⟨S65x65, .f32⟩ : BufTy).Contents (Elt F) :=
  Host.reduceAdd
    (mulf
      (subf (broadcastInDim S65x65x32 ![0, 1, 2] bcast_S65x1x32_S65x65x32_0_1_2 (broadcastInDim S65x1x32 ![0, 2] bcast_S65x32_S65x1x32_0_2 μ))
            (broadcastInDim S65x65x32 ![0, 1, 2] bcast_S1x65x32_S65x65x32_0_1_2 (broadcastInDim S1x65x32 ![1, 2] bcast_S65x32_S1x65x32_1_2 μ)))
      (subf (broadcastInDim S65x65x32 ![0, 1, 2] bcast_S65x1x32_S65x65x32_0_1_2 (broadcastInDim S65x1x32 ![0, 2] bcast_S65x32_S65x1x32_0_2 μ))
            (broadcastInDim S65x65x32 ![0, 1, 2] bcast_S1x65x32_S65x65x32_0_1_2 (broadcastInDim S1x65x32 ![1, 2] bcast_S65x32_S1x65x32_1_2 μ))))
    (constant S_ .f32 0x00000000#32) reducesTo_S65x65x32_S65x65_d2 h_S_

/-- The strict upper triangle of the 65 × 65 pairs: where row plus zero is at least the column the entry is cleared. -/
def upperTri : (⟨S65x65, .i1⟩ : BufTy).Contents (Elt F) :=
  select
    (cmpi .sge (addi (iotaInDim S65x65 32 0) (broadcastInDim S65x65 ![] bcast_S_S65x65 (constantI S_ 32 0#32))) (iotaInDim S65x65 32 1))
    (broadcastInDim S65x65 ![] bcast_S_S65x65 (constantI S_ 1 0#1))
    (broadcastInDim S65x65 ![] bcast_S_S65x65 (constantI S_ 1 1#1))

/-- The pairs that count: `a < b`, both present. -/
def pairMask (p : (⟨S65, .i1⟩ : BufTy).Contents (Elt F)) : (⟨S65x65, .i1⟩ : BufTy).Contents (Elt F) :=
  andi
    (andi (upperTri (F := F)) (broadcastInDim S65x65 ![0, 1] bcast_S65x1_S65x65_0_1 (broadcastInDim S65x1 ![0] bcast_S65_S65x1_0 p)))
    (broadcastInDim S65x65 ![0, 1] bcast_S1x65_S65x65_0_1 (broadcastInDim S1x65 ![1] bcast_S65_S1x65_1 p))

/-- Each counted pair's push term, `max(3 − distance, 0)²`; zero elsewhere (the root is taken of one there). -/
def pushTerms (p : (⟨S65, .i1⟩ : BufTy).Contents (Elt F)) (μ : (⟨S65x32, .f32⟩ : BufTy).Contents (Elt F)) : (⟨S65x65, .f32⟩ : BufTy).Contents (Elt F) :=
  select (pairMask p)
    (mulf
      (maximumf
        (subf (broadcastInDim S65x65 ![] bcast_S_S65x65 (constant S_ .f32 0x40400000#32))
          (Host.sqrt (select (pairMask p) (pairD2 μ) (broadcastInDim S65x65 ![] bcast_S_S65x65 (id (constant S_ .f32 0x3F800000#32))))))
        (broadcastInDim S65x65 ![] bcast_S_S65x65 (constant S_ .f32 0x00000000#32)))
      (maximumf
        (subf (broadcastInDim S65x65 ![] bcast_S_S65x65 (constant S_ .f32 0x40400000#32))
          (Host.sqrt (select (pairMask p) (pairD2 μ) (broadcastInDim S65x65 ![] bcast_S_S65x65 (id (constant S_ .f32 0x3F800000#32))))))
        (broadcastInDim S65x65 ![] bcast_S_S65x65 (constant S_ .f32 0x00000000#32))))
    (broadcastInDim S65x65 ![] bcast_S_S65x65 (id (constant S_ .f32 0x00000000#32)))

/-- The number of counted pairs. -/
def nPairs (p : (⟨S65, .i1⟩ : BufTy).Contents (Elt F)) : (⟨S_, .i32⟩ : BufTy).Contents (Elt F) :=
  Host.reduce IntOp.addi (extui 32 (pairMask p) natLt_1_32) (constantI S_ 32 0#32) reducesTo_S65x65_S_d0_1 h_S_

/-- The push loss: the counted pairs' terms averaged, zero when no pair counts. -/
def pushLoss (p : (⟨S65, .i1⟩ : BufTy).Contents (Elt F)) (μ : (⟨S65x32, .f32⟩ : BufTy).Contents (Elt F)) : (⟨S_, .f32⟩ : BufTy).Contents (Elt F) :=
  select (cmpi .sgt (nPairs p) (constantI S_ 32 0#32))
    (Host.divf (Host.reduceAdd (pushTerms p μ) (constant S_ .f32 0x00000000#32) reducesTo_S65x65_S_d0_1 h_S_)
      (sitofp .f32 (maxsi (nPairs p) (constantI S_ 32 1#32))))
    (id (constant S_ .f32 0x00000000#32))

/-- The regulariser: the present classes' mean norms added up, over the number of present classes. -/
def regLoss (p : (⟨S65, .i1⟩ : BufTy).Contents (Elt F)) (μ : (⟨S65x32, .f32⟩ : BufTy).Contents (Elt F)) : (⟨S_, .f32⟩ : BufTy).Contents (Elt F) :=
  Host.divf
    (Host.reduceAdd
      (select p
        (Host.sqrt (select p (Host.reduceAdd (mulf μ μ) (constant S_ .f32 0x00000000#32) reducesTo_S65x32_S65_d1 h_S_)
          (broadcastInDim S65 ![] bcast_S_S65 (id (constant S_ .f32 0x3F800000#32)))))
        (broadcastInDim S65 ![] bcast_S_S65 (id (constant S_ .f32 0x00000000#32))))
      (constant S_ .f32 0x00000000#32) reducesTo_S65_S_d0 h_S_)
    (nInstF p)

/-- The total loss, zero when no class is present. -/
def tailFn (p : (⟨S65, .i1⟩ : BufTy).Contents (Elt F)) (μ : (⟨S65x32, .f32⟩ : BufTy).Contents (Elt F)) (q : (⟨S65, .f32⟩ : BufTy).Contents (Elt F)) : (⟨S_, .f32⟩ : BufTy).Contents (Elt F) :=
  select (cmpi .sgt (nInst p) (constantI S_ 32 0#32))
    (addf
      (addf (mulf (constant S_ .f32 0x3F800000#32) (pullLoss p q)) (mulf (constant S_ .f32 0x3F800000#32) (pushLoss p μ)))
      (mulf (constant S_ .f32 0x3A83126F#32) (regLoss p μ)))
    (id (constant S_ .f32 0x00000000#32))

end Cert.Tail

end
-- ==== Proof.TailK.lean ====
import proofs.«415074_j12979391169049_3_alg».proof.Proof.Gen.KernelIdeal.Launch
import proofs.«415074_j12979391169049_3_alg».proof.Proof.KHost
import proofs.«415074_j12979391169049_3_alg».proof.Proof.TailFn
import Idealize.ShloMosaic.Lib.StableHlo.Run

/-!
# The kernel program's host operations after its second launch

Run from any buffer contents `X` in which the number of present classes and its float are what the earlier stretch
computed them to be from the presence array, the sixteen stretches after the second launch leave in the result buffer
the loss function `Cert.Tail.tailFn` of three of `X`'s arrays: the presence array, the class means, and the second
launch's per-tile pull sums added up, divided by the divisor and masked by presence.
-/

noncomputable section

namespace Cert.TailK

open Cert.KernelIdeal Cert.KernelIdeal.Gen
open Idealize.ShloMosaic Idealize.ShloMosaic.TcCoe Idealize.ShloMosaic.StableHlo Idealize.SL.Sem

variable {F : FTy → Type} [FloatOps F] (X : Valuation τ sig (Elt F))

set_option maxRecDepth 8192 in
set_option maxHeartbeats 8000000 in
/-- The result buffer after the last stretch. -/
theorem kernel_tail
    (hC : X (Proc.devRef .tc main_v21) = KHost.nInstOf (X (Proc.devRef .tc main_v14)))
    (hCf : X (Proc.devRef .tc main_v23) = KHost.nInstFOf (X (Proc.devRef .tc main_v21))) :
    (after hostOps2_15 (after hostOps2_14 (after hostOps2_13 (after hostOps2_12 (after hostOps2_11 (after hostOps2_10 (after hostOps2_9 (after hostOps2_8 (after hostOps2_7 (after hostOps2_6 (after hostOps2_5 (after hostOps2_4 (after hostOps2_3 (after hostOps2_2 (after hostOps2_1 (after hostOps2 X)))))))))))))))) (Proc.devRef .tc main_v80)
      = Cert.Tail.tailFn (X (Proc.devRef .tc main_v14)) (X (Proc.devRef .tc main_v19))
          (KHost.maskedOf (X (Proc.devRef .tc main_v14)) (X (Proc.devRef .tc main_v16)) (KHost.pull65 (X (Proc.devRef .tc main_v28)))) := by
  unfold hostOps2 hostOps2_1 hostOps2_2 hostOps2_3 hostOps2_4 hostOps2_5 hostOps2_6 hostOps2_7 hostOps2_8 hostOps2_9
    hostOps2_10 hostOps2_11 hostOps2_12 hostOps2_13 hostOps2_14 hostOps2_15
  after_results_simp
  try simp only [TRef.ofBuf, TRef.toBuf, cast_eq]
  rw [hCf, hC]
  rfl

end Cert.TailK

end
-- ==== Proof.KVal.lean ====
import proofs.«415074_j12979391169049_3_alg».proof.Proof.KHost
import proofs.«415074_j12979391169049_3_alg».proof.Proof.Spec
import proofs.«415074_j12979391169049_3_alg».proof.Proof.TailFn

/-!
# The kernel program's result as a function of its two arguments

The launches' outputs are the per-tile sums of the specification (of the transposed points array and the label row);
the host operations around them are KHost's; the loss from the class table onward is `Cert.Tail.tailFn`.
-/

noncomputable section

namespace Cert.KernelIdeal.KVal

open Cert.KernelIdeal Cert.KernelIdeal.KHost Cert.Spec
open Idealize.ShloMosaic

variable (x0 : (⟨S2000000x32, .f32⟩ : BufTy).Contents (Elt Ideal)) (x1 : (⟨S2000000, .i32⟩ : BufTy).Contents (Elt Ideal))

/-- The class counts, background zeroed. -/
def kCnt : (⟨S65, .f32⟩ : BufTy).Contents (Elt Ideal) := cnt65 (F := Ideal) (tileCounts (lblRow (F := Ideal) x1))

/-- The class sums, background zeroed. -/
def kSums : (⟨S65x32, .f32⟩ : BufTy).Contents (Elt Ideal) :=
  sums65 (F := Ideal) (tileSums (embT (F := Ideal) x0) (lblRow (F := Ideal) x1))

/-- Which classes are present. -/
def kPresent : (⟨S65, .i1⟩ : BufTy).Contents (Elt Ideal) := presentOf (F := Ideal) (kCnt x1)

/-- The divisor. -/
def kSafe : (⟨S65, .f32⟩ : BufTy).Contents (Elt Ideal) := safeOf (F := Ideal) (kCnt x1)

/-- The class means. -/
def kMeans : (⟨S65x32, .f32⟩ : BufTy).Contents (Elt Ideal) := meansOf (F := Ideal) (kSums x0 x1) (kSafe x1)

/-- The class pull sums, against the padded, transposed table of the class means. -/
def kPull : (⟨S65, .f32⟩ : BufTy).Contents (Elt Ideal) :=
  pull65 (F := Ideal) (tilePull (embT (F := Ideal) x0) (lblRow (F := Ideal) x1) (meansT (F := Ideal) (kMeans x0 x1)))

/-- Each present class's mean pull term. -/
def kMasked : (⟨S65, .f32⟩ : BufTy).Contents (Elt Ideal) := maskedOf (F := Ideal) (kPresent x1) (kSafe x1) (kPull x0 x1)

/-- The kernel program's result. -/
def kernelOut : (⟨S_, .f32⟩ : BufTy).Contents (Elt Ideal) :=
  Cert.Tail.tailFn (F := Ideal) (kPresent x1) (kMeans x0 x1) (kMasked x0 x1)

end Cert.KernelIdeal.KVal

end
-- ==== Proof.KWalk.lean ====
import proofs.«415074_j12979391169049_3_alg».proof.Proof.Gen.KernelIdeal.Frame
import proofs.«415074_j12979391169049_3_alg».proof.Proof.Reg0
import proofs.«415074_j12979391169049_3_alg».proof.Proof.Reg1
import proofs.«415074_j12979391169049_3_alg».proof.Proof.KStage
import proofs.«415074_j12979391169049_3_alg».proof.Proof.TailK
import proofs.«415074_j12979391169049_3_alg».proof.Proof.KVal

/-!
# The kernel program's result buffer at its last boundary

The generated frame folds the buffer contents through @main: `W0` the launch memory, `W1` after the two host
operations before the first launch, `W2` with the first launch's arrays at what its write-backs leave, `W3` after the
stretch between the launches, `W4` with the second launch's arrays, `W5 … W20` after the sixteen stretches of the
tail. Walking back from `W20` at the result buffer: the tail is the loss function of `W4`'s presence array, means and
masked pull sums; the second launch's output is the per-tile pull sums of its three input arrays as `W3` holds them;
those, and the presence array, divisor and means, are the host functions of the first launch's outputs in `W2`, which
are the per-tile sums and counts of the transposed points array and the label row in `W1` — the launch memory's two
argument arrays transposed and laid out as a row.
-/

set_option maxRecDepth 16384

noncomputable section

namespace Cert.KernelIdeal.KWalk

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before and through the first launch -/

/-- Before the first launch the transposed points array and the label row are those of the two arguments. -/
theorem W1_v0 : W1 (F := Ideal) m ρ c (Proc.devRef .tc main_v0) = KHost.embT (m ((c.tc : Thread nD τ).loc main_arg0)) :=
  KStage.ops0_v0 (W0 (F := Ideal) m ρ c)

theorem W1_v1 : W1 (F := Ideal) m ρ c (Proc.devRef .tc main_v1) = KHost.lblRow (m ((c.tc : Thread nD τ).loc main_arg1)) :=
  KStage.ops0_v1 (W0 (F := Ideal) m ρ c)

/-- After the first launch: its two outputs are the per-tile sums and counts of those two arrays, which it leaves as
    they were. -/
theorem W2_sums : W2 (F := Ideal) m ρ c (Proc.devRef .tc main_v2_0)
    = Spec.tileSums (KHost.embT (m ((c.tc : Thread nD τ).loc main_arg0))) (KHost.lblRow (m ((c.tc : Thread nD τ).loc main_arg1))) := by
  refine (W2_arr m ρ c 2).trans ?_
  refine (Reg0.sums_final (V1 m ρ) c).trans ?_
  show Spec.tileSums (W1 (F := Ideal) m ρ c (Proc.devRef .tc main_v0)) (W1 (F := Ideal) m ρ c (Proc.devRef .tc main_v1)) = _
  rw [W1_v0, W1_v1]

theorem W2_counts : W2 (F := Ideal) m ρ c (Proc.devRef .tc main_v2_1)
    = Spec.tileCounts (KHost.lblRow (m ((c.tc : Thread nD τ).loc main_arg1))) := by
  refine (W2_arr m ρ c 3).trans ?_
  refine (Reg0.counts_final (V1 m ρ) c).trans ?_
  show Spec.tileCounts (W1 (F := Ideal) m ρ c (Proc.devRef .tc main_v1)) = _
  rw [W1_v1]

theorem W2_v0 : W2 (F := Ideal) m ρ c (Proc.devRef .tc main_v0) = KHost.embT (m ((c.tc : Thread nD τ).loc main_arg0)) :=
  ((W2_arr m ρ c 0).trans (Reg0.emb_final (V1 m ρ) c)).trans (W1_v0 m ρ c)

theorem W2_v1 : W2 (F := Ideal) m ρ c (Proc.devRef .tc main_v1) = KHost.lblRow (m ((c.tc : Thread nD τ).loc main_arg1)) :=
  ((W2_arr m ρ c 1).trans (Reg0.lbl_final (V1 m ρ) c)).trans (W1_v1 m ρ c)

/-! ## Between the launches -/

/-- The presence array, the divisor, the class means and their padded transpose, from the per-tile sums and counts;
    the two input arrays are not written. -/
theorem W3_v14 : W3 (F := Ideal) m ρ c (Proc.devRef .tc main_v14) = KVal.kPresent (m ((c.tc : Thread nD τ).loc main_arg1)) := by
  refine (KStage.ops1_v14 (W2 (F := Ideal) m ρ c)).trans ?_
  rw [W2_counts]; rfl

theorem W3_v16 : W3 (F := Ideal) m ρ c (Proc.devRef .tc main_v16) = KVal.kSafe (m ((c.tc : Thread nD τ).loc main_arg1)) := by
  refine (KStage.ops1_v16 (W2 (F := Ideal) m ρ c)).trans ?_
  rw [W2_counts]; rfl

theorem W3_v19 : W3 (F := Ideal) m ρ c (Proc.devRef .tc main_v19)
    = KVal.kMeans (m ((c.tc : Thread nD τ).loc main_arg0)) (m ((c.tc : Thread nD τ).loc main_arg1)) := by
  refine (KStage.ops1_v19 (W2 (F := Ideal) m ρ c)).trans ?_
  rw [W2_counts, W2_sums]; rfl

theorem W3_v27 : W3 (F := Ideal) m ρ c (Proc.devRef .tc main_v27)
    = KHost.meansT (KVal.kMeans (m ((c.tc : Thread nD τ).loc main_arg0)) (m ((c.tc : Thread nD τ).loc main_arg1))) := by
  refine (KStage.ops1_v27 (W2 (F := Ideal) m ρ c)).trans ?_
  rw [W2_counts, W2_sums]; rfl

theorem W3_v0 : W3 (F := Ideal) m ρ c (Proc.devRef .tc main_v0) = KHost.embT (m ((c.tc : Thread nD τ).loc main_arg0)) :=
  (KStage.ops1_v0 (W2 (F := Ideal) m ρ c)).trans (W2_v0 m ρ c)

theorem W3_v1 : W3 (F := Ideal) m ρ c (Proc.devRef .tc main_v1) = KHost.lblRow (m ((c.tc : Thread nD τ).loc main_arg1)) :=
  (KStage.ops1_v1 (W2 (F := Ideal) m ρ c)).trans (W2_v1 m ρ c)

/-! ## Through the second launch -/

/-- The second launch's output is the per-tile pull sums of its three input arrays; the buffers the tail reads
    besides it are not among the launch's arrays. -/
theorem W4_pull : W4 (F := Ideal) m ρ c (Proc.devRef .tc main_v28)
    = Spec.tilePull (KHost.embT (m ((c.tc : Thread nD τ).loc main_arg0))) (KHost.lblRow (m ((c.tc : Thread nD τ).loc main_arg1)))
        (KHost.meansT (KVal.kMeans (m ((c.tc : Thread nD τ).loc main_arg0)) (m ((c.tc : Thread nD τ).loc main_arg1)))) := by
  refine (W4_arr m ρ c 3).trans ?_
  refine (Reg1.pull_final (V3 m ρ) c).trans ?_
  show Spec.tilePull (W3 (F := Ideal) m ρ c (Proc.devRef .tc main_v0)) (W3 (F := Ideal) m ρ c (Proc.devRef .tc main_v1))
    (W3 (F := Ideal) m ρ c (Proc.devRef .tc main_v27)) = _
  rw [W3_v0, W3_v1, W3_v27]

theorem W4_v14 : W4 (F := Ideal) m ρ c (Proc.devRef .tc main_v14) = KVal.kPresent (m ((c.tc : Thread nD τ).loc main_arg1)) :=
  (W4_of_ne m ρ c main_v14 (by decide)).trans (W3_v14 m ρ c)

theorem W4_v16 : W4 (F := Ideal) m ρ c (Proc.devRef .tc main_v16) = KVal.kSafe (m ((c.tc : Thread nD τ).loc main_arg1)) :=
  (W4_of_ne m ρ c main_v16 (by decide)).trans (W3_v16 m ρ c)

theorem W4_v19 : W4 (F := Ideal) m ρ c (Proc.devRef .tc main_v19)
    = KVal.kMeans (m ((c.tc : Thread nD τ).loc main_arg0)) (m ((c.tc : Thread nD τ).loc main_arg1)) :=
  (W4_of_ne m ρ c main_v19 (by decide)).trans (W3_v19 m ρ c)

/-- The number of present classes and its float are, in the contents the tail starts from, what the stretch between the
    launches computed from the presence array. -/
theorem W4_count : W4 (F := Ideal) m ρ c (Proc.devRef .tc main_v21) = KHost.nInstOf (W4 (F := Ideal) m ρ c (Proc.devRef .tc main_v14)) := by
  rw [W4_of_ne m ρ c main_v21 (by decide), W4_of_ne m ρ c main_v14 (by decide)]
  exact KStage.ops1_v21 (W2 (F := Ideal) m ρ c)

theorem W4_countF : W4 (F := Ideal) m ρ c (Proc.devRef .tc main_v23) = KHost.nInstFOf (W4 (F := Ideal) m ρ c (Proc.devRef .tc main_v21)) := by
  rw [W4_of_ne m ρ c main_v23 (by decide), W4_of_ne m ρ c main_v21 (by decide)]
  exact KStage.ops1_v23 (W2 (F := Ideal) m ρ c)

/-! ## The tail -/

/-- The result buffer at the last boundary is the kernel program's value function of the two argument arrays. -/
theorem W20_out (m : (ℓ : Loc nD τ sig) → Buf (Elt Ideal) ℓ) (ρ : Dev nD → PrngReg) (c : Dev nD) :
    W20 (F := Ideal) m ρ c (Proc.devRef .tc main_v80)
      = KVal.kernelOut (m ((c.tc : Thread nD τ).loc main_arg0)) (m ((c.tc : Thread nD τ).loc main_arg1)) := by
  refine (TailK.kernel_tail (W4 (F := Ideal) m ρ c) (W4_count m ρ c) (W4_countF m ρ c)).trans ?_
  rw [W4_v14, W4_v19, W4_v16, W4_pull]
  rfl

end Cert.KernelIdeal.KWalk

end
-- ==== Proof.LibHostScatter.lean ====
import Idealize.ShloMosaic.PureOps.ShapeOps

/-!
# A replacing host scatter, read at one element

`Host.scatter d (fun _ b => b) x idx upd` takes the update indices in row-major order and, for each one whose result
index lies inside the operand, replaces the operand's element there by the update's. Read at ONE element `i`:

* if no update index lands on `i`, the element is the operand's (`scatter_replace_of_miss`);
* if update index `j` lands on `i` and no other does, the element is `upd j` (`scatter_replace_of_hit`).

Both hold for any dimension numbers, shapes and element type: they are facts about the fold, not about a program.
-/

namespace Idealize.ShloMosaic

variable {s si u : Shape} {α : Type} {w : Nat}

/-- One step of the scatter's fold: the update numbered `n` in row-major order, applied to the accumulator `r`. -/
private def scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the left fold of `scatterStep` over the update numbers. -/
private theorem scatter_eq_foldl (d : ScatterDims s si u) (f : α → α → α) (x : s.Idx → α) (idx : IVec si w)
    (upd : u.Idx → α) :
    Host.scatter d f x idx upd = (List.finRange u.numel).foldl (scatterStep d f idx upd) x := rfl

/-- A step whose update does not land on `i` leaves element `i` alone. -/
private theorem scatterStep_of_ne (d : ScatterDims s si u) (f : α → α → α) (idx : IVec si w) (upd : u.Idx → α)
    (r : s.Idx → α) (n : Fin u.numel) (i : s.Idx) (h : d.resultIdx? (u.rowMajor.symm n) idx ≠ some i) :
    scatterStep d f idx upd r n i = r i := by
  unfold scatterStep
  generalize d.resultIdx? (u.rowMajor.symm n) idx = o at h ⊢
  cases o with
  | none => rfl
  | some i'' => exact if_neg fun e => h (congrArg some e.symm)

/-- A step whose update lands on `i` writes the body's value there. -/
private theorem scatterStep_of_eq (d : ScatterDims s si u) (f : α → α → α) (idx : IVec si w) (upd : u.Idx → α)
    (r : s.Idx → α) (n : Fin u.numel) (i : s.Idx) (h : d.resultIdx? (u.rowMajor.symm n) idx = some i) :
    scatterStep d f idx upd r n i = f (r i) (upd (u.rowMajor.symm n)) := by
  unfold scatterStep
  generalize d.resultIdx? (u.rowMajor.symm n) idx = o at h ⊢
  subst h
  exact if_pos rfl

/-- A fold over update numbers none of which lands on `i` leaves element `i` alone, from any accumulator. -/
private theorem foldl_scatterStep_of_miss (d : ScatterDims s si u) (f : α → α → α) (idx : IVec si w) (upd : u.Idx → α)
    (i : s.Idx) (L : List (Fin u.numel)) :
    ∀ acc : s.Idx → α, (∀ n ∈ L, d.resultIdx? (u.rowMajor.symm n) idx ≠ some i) →
      L.foldl (scatterStep d f idx upd) acc i = acc i := by
  induction L with
  | nil => intro acc _; rfl
  | cons n L ih =>
    intro acc h
    rw [List.foldl_cons, ih _ fun m hm => h m (List.mem_cons_of_mem _ hm)]
    exact scatterStep_of_ne d f idx upd acc n i (h n (List.mem_cons_self ..))

/-- A replacing fold over distinct update numbers, exactly one of which (`n0`) lands on `i`, leaves that update's
    value at `i`, from any accumulator. -/
private theorem foldl_scatterStep_of_hit (d : ScatterDims s si u) (idx : IVec si w) (upd : u.Idx → α)
    (i : s.Idx) (n0 : Fin u.numel) (h0 : d.resultIdx? (u.rowMajor.symm n0) idx = some i) (L : List (Fin u.numel)) :
    ∀ acc : s.Idx → α, L.Nodup → n0 ∈ L →
      (∀ n ∈ L, d.resultIdx? (u.rowMajor.symm n) idx = some i → n = n0) →
      L.foldl (scatterStep d (fun _ b => b) idx upd) acc i = upd (u.rowMajor.symm n0) := by
  induction L with
  | nil => intro acc _ hm; exact absurd hm (List.not_mem_nil)
  | cons n L ih =>
    intro acc hnd hm huniq
    rw [List.foldl_cons]
    have hnd' := List.nodup_cons.mp hnd
    by_cases hn : n = n0
    · subst hn
      rw [foldl_scatterStep_of_miss d _ idx upd i L _ fun m hmL e =>
        hnd'.1 (huniq m (List.mem_cons_of_mem _ hmL) e ▸ hmL)]
      exact scatterStep_of_eq d _ idx upd acc n i h0
    · have hmL : n0 ∈ L := (List.mem_cons.mp hm).resolve_left fun e => hn e.symm
      exact ih _ hnd'.2 hmL fun m hm' => huniq m (List.mem_cons_of_mem _ hm')

/-- An element no update lands on keeps the operand's value. -/
theorem scatter_replace_of_miss (d : ScatterDims s si u) (x : s.Idx → α) (idx : IVec si w) (upd : u.Idx → α) (i : s.Idx)
    (h : ∀ j : u.Idx, d.resultIdx? j idx ≠ some i) :
    Host.scatter d (fun _ b => b) x idx upd i = x i := by
  rw [scatter_eq_foldl]
  exact foldl_scatterStep_of_miss d _ idx upd i _ x fun n _ => h _

/-- An element exactly one update lands on holds that update's value. -/
theorem scatter_replace_of_hit (d : ScatterDims s si u) (x : s.Idx → α) (idx : IVec si w) (upd : u.Idx → α) (i : s.Idx)
    (j : u.Idx) (hj : d.resultIdx? j idx = some i) (huniq : ∀ j' : u.Idx, d.resultIdx? j' idx = some i → j' = j) :
    Host.scatter d (fun _ b => b) x idx upd i = upd j := by
  rw [scatter_eq_foldl]
  have h0 : d.resultIdx? (u.rowMajor.symm (u.rowMajor j)) idx = some i := by
    rw [Equiv.symm_apply_apply]; exact hj
  have key := foldl_scatterStep_of_hit d idx upd i (u.rowMajor j) h0 (List.finRange u.numel) x
    (List.nodup_finRange _) (List.mem_finRange _)
    fun n _ e => by
      have := huniq _ e
      rw [← this, Equiv.apply_symm_apply]
  rw [key, Equiv.symm_apply_apply]

end Idealize.ShloMosaic
-- ==== Proof.KRead.lean ====
import proofs.«415074_j12979391169049_3_alg».proof.Proof.KHost
import proofs.«415074_j12979391169049_3_alg».proof.Proof.Spec
import Idealize.ShloMosaic.Lib.Pipeline.Value
import Idealize.ShloMosaic.Lib.ValueIdx
import Idealize.ShloMosaic.PureOps.Ideal.Laws
import Idealize.ShloMosaic.Lib.IdealHost
import proofs.«415074_j12979391169049_3_alg».proof.Proof.LibHostScatter

/-!
# The kernel program's host operations read at an index

What the host code around the launches leaves, entry by entry, when the launches' outputs are the per-tile sums of the
specification: adding the 125 tiles of 16000 lanes is adding over all 2000000 points (lane `j` of tile `t` is point
`16000 t + j`), keeping rows 0 … 64 keeps those classes, and the background class 0 is set to zero.
-/

noncomputable section

namespace Cert.KernelIdeal.KRead

open Cert.KernelIdeal Cert.KernelIdeal.KHost Cert.Spec
open Idealize.ShloMosaic Idealize.ShloMosaic.ValueIdx

variable (x0 : (⟨S2000000x32, .f32⟩ : BufTy).Contents (Elt Ideal)) (x1 : (⟨S2000000, .i32⟩ : BufTy).Contents (Elt Ideal))

/-- The transposed array at `(k, n)` is the points array at `(n, k)`. -/
theorem embT_apply (k : Fin 32) (n : Fin 2000000) : embT (F := Ideal) x0 (ix2 k n) = x0 (ix2 n k) := by
  unfold embT
  refine transpose_apply _ x0 _ (ix2 k n) (ix2 n k) fun b => ?_
  match b with
  | ⟨0, _⟩ => rfl
  | ⟨1, _⟩ => rfl

/-- The label row at `(0, n)` is label `n`. -/
theorem lblRow_apply (n : Fin 2000000) : lblRow (F := Ideal) x1 (ix2 (0 : Fin 1) n) = x1 (ix1 n) := by
  unfold lblRow
  refine shapeCast_apply x1 _ (ix2 (0 : Fin 1) n) (ix1 n) ?_
  rw [Shape.rowMajor_val_one, Shape.rowMajor_val_two]
  show n.val = (0 : Fin 1).val * _ + n.val
  simp

/-- Adding a per-lane value over the lanes of every tile is adding it over all points. -/
theorem sum_tiles (f : Fin 2000000 → EReal) : ∑ t : Fin 125, ∑ j : Fin 16000, f (pt t j) = ∑ n : Fin 2000000, f n := by
  rw [← Fintype.sum_prod_type']
  refine Fintype.sum_equiv (finProdFinEquiv.trans (finCongr (by norm_num))) _ _ fun p => ?_
  congr 1
  refine Fin.ext ?_
  simp [pt, finProdFinEquiv]
  omega

/-! ## The tiles added up, rows 0 … 64 kept -/

private theorem reduces_col : S125x128x1.Reduces [0] S128x1 := by decide
private theorem reduces_sums : S125x128x32.Reduces [0] S128x32 := by decide

/-- A 125 × 128 × 1 array added over its tiles, the unit axis dropped, rows 0 … 64 kept: entry `r` is the sum over the
    tiles `t` of entry `(t, r, 0)`. -/
private theorem cntKept_apply (co : (⟨S125x128x1, .f32⟩ : BufTy).Contents (Elt Ideal)) (r : Fin 65) :
    cntKept (F := Ideal) co (ix1 r) = ∑ t : Fin 125, co (ix3 t (⟨r.val, by omega⟩ : Fin 128) (0 : Fin 1)) := by
  unfold cntKept
  refine (extractStridedSlice_apply _ _ _ (ix1 r) (ix1 (⟨r.val, by omega⟩ : Fin 128)) fun a => ?_).trans ?_
  · match a with
    | ⟨0, _⟩ => show r.val = 0 + r.val; omega
  refine (shapeCast_apply _ _ (ix1 (⟨r.val, by omega⟩ : Fin 128)) (ix2 (⟨r.val, by omega⟩ : Fin 128) (0 : Fin 1)) ?_).trans ?_
  · rw [Shape.rowMajor_val_one, Shape.rowMajor_val_two]
    show r.val * 1 + 0 = r.val
    omega
  refine (hostReduceAdd_apply _ _ _ _ _).trans ?_
  rw [Ideal.hostReduceAdd_single _ reduces_col]
  show Ideal.ofBits .f32 0x00000000#32 + ∑ t : Fin 125, co (reduces_col.lift _ t) = _
  rw [Ideal.ofBits_zero_f32, zero_add]
  refine Finset.sum_congr rfl fun t _ => congrArg co (funext fun c => Fin.ext ?_)
  match c with
  | ⟨0, _⟩ => rfl
  | ⟨1, _⟩ => rfl
  | ⟨2, _⟩ => rfl

/-- A 125 × 128 × 32 array added over its tiles, rows 0 … 64 kept: entry `(r, k)` is the sum over the tiles `t` of entry
    `(t, r, k)`. -/
private theorem sumsKept_apply (so : (⟨S125x128x32, .f32⟩ : BufTy).Contents (Elt Ideal)) (r : Fin 65) (k : Fin 32) :
    sumsKept (F := Ideal) so (ix2 r k) = ∑ t : Fin 125, so (ix3 t (⟨r.val, by omega⟩ : Fin 128) k) := by
  unfold sumsKept
  refine (extractStridedSlice_apply _ _ _ (ix2 r k) (ix2 (⟨r.val, by omega⟩ : Fin 128) k) fun a => ?_).trans ?_
  · match a with
    | ⟨0, _⟩ => show r.val = 0 + r.val; omega
    | ⟨1, _⟩ => show k.val = 0 + k.val; omega
  refine (hostReduceAdd_apply _ _ _ _ _).trans ?_
  rw [Ideal.hostReduceAdd_single _ reduces_sums]
  show Ideal.ofBits .f32 0x00000000#32 + ∑ t : Fin 125, so (reduces_sums.lift _ t) = _
  rw [Ideal.ofBits_zero_f32, zero_add]
  refine Finset.sum_congr rfl fun t _ => congrArg so (funext fun c => Fin.ext ?_)
  match c with
  | ⟨0, _⟩ => rfl
  | ⟨1, _⟩ => rfl
  | ⟨2, _⟩ => rfl

/-- The per-tile counts added up and kept: the number of the class's points. -/
private theorem cntKept_tiles (r : Fin 65) :
    cntKept (F := Ideal) (tileCounts (lblRow (F := Ideal) x1)) (ix1 r) = cnt x1 r.val := by
  refine (cntKept_apply _ r).trans ?_
  refine Eq.trans ?_ (sum_tiles fun n => hot r.val (x1 (ix1 n)))
  refine Finset.sum_congr rfl fun t _ => ?_
  show ∑ j : Fin 16000, hot r.val (lblRow (F := Ideal) x1 (ix2 (0 : Fin 1) (pt t j))) = _
  refine Finset.sum_congr rfl fun j _ => ?_
  rw [lblRow_apply]

/-- The per-tile sums added up and kept: the sum of the class's points. -/
private theorem sumsKept_tiles (r : Fin 65) (k : Fin 32) :
    sumsKept (F := Ideal) (tileSums (embT (F := Ideal) x0) (lblRow (F := Ideal) x1)) (ix2 r k) = ssum x0 x1 r.val k := by
  refine (sumsKept_apply _ r k).trans ?_
  refine Eq.trans ?_ (sum_tiles fun n => hot r.val (x1 (ix1 n)) * x0 (ix2 n k))
  refine Finset.sum_congr rfl fun t _ => ?_
  show ∑ j : Fin 16000, hot r.val (lblRow (F := Ideal) x1 (ix2 (0 : Fin 1) (pt t j)))
      * embT (F := Ideal) x0 (ix2 k (pt t j)) = _
  refine Finset.sum_congr rfl fun j _ => ?_
  rw [lblRow_apply, embT_apply]

/-! ## The replacing scatter at the one scatter index 0 -/

/-- An update lands on `i` exactly when, on every axis, the start plus the window coordinate is `i`'s coordinate. -/
private theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split
  · next h =>
    rw [Option.some.injEq]
    constructor
    · rintro rfl a
      have := h a
      simp only
      omega
    · intro h'
      funext a
      apply Fin.ext
      have := h' a
      simp only
      omega
  · next h =>
    constructor
    · intro e
      exact absurd e (by simp)
    · intro h'
      exfalso
      apply h
      intro a
      have := h' a
      have := (i a).isLt
      omega

/-- Where every scatter index is the zero word, every window starts at zero. -/
private theorem start_eq_zero {s si u : Shape} (d : ScatterDims s si u) (j : u.Idx) (idx : IVec si 32)
    (hidx : ∀ b, idx b = 0#32) (a : Fin s.rank) : d.start j idx a = 0 := by
  unfold ScatterDims.start
  split
  · rw [hidx]; rfl
  · rfl

/-- The scatter indices: the zero word, broadcast. -/
private theorem idx0 (h : S_.BroadcastsInDim S1 ![]) (b : S1.Idx) :
    (broadcastInDim S1 ![] h (constantI S_ 32 0#32)) b = 0#32 := rfl

/-- The one scalar update lands on element 0. -/
private theorem land_cnt (h : S_.BroadcastsInDim S1 ![]) (j : S_.Idx) (i : S65.Idx) :
    scatter_S65_S1_S__n_0_0_0.resultIdx? j (broadcastInDim S1 ![] h (constantI S_ 32 0#32)) = some i ↔ (i 0).val = 0 := by
  rw [resultIdx?_eq_some_iff]
  constructor
  · intro H
    have := H 0
    rw [start_eq_zero _ _ _ (idx0 h)] at this
    change (0 : Int) + ((0 : Nat) : Int) = _ at this
    omega
  · intro H a
    match a with
    | ⟨0, _⟩ =>
      rw [start_eq_zero _ _ _ (idx0 h)]
      show (0 : Int) + ((0 : Nat) : Int) = ((i 0).val : Int)
      omega

/-- Update `k` of the row of 32 lands on `(0, k)`. -/
private theorem land_sums (h : S_.BroadcastsInDim S1 ![]) (j : S32.Idx) (i : S65x32.Idx) :
    scatter_S65x32_S1_S32_0_0_0_0.resultIdx? j (broadcastInDim S1 ![] h (constantI S_ 32 0#32)) = some i
      ↔ (i 0).val = 0 ∧ (i 1).val = (j 0).val := by
  rw [resultIdx?_eq_some_iff]
  constructor
  · intro H
    have h0 := H 0
    have h1 := H 1
    rw [start_eq_zero _ _ _ (idx0 h)] at h0 h1
    change (0 : Int) + ((0 : Nat) : Int) = _ at h0
    change (0 : Int) + (((j 0).val : Nat) : Int) = _ at h1
    omega
  · intro H a
    match a with
    | ⟨0, _⟩ =>
      rw [start_eq_zero _ _ _ (idx0 h)]
      show (0 : Int) + ((0 : Nat) : Int) = ((i 0).val : Int)
      omega
    | ⟨1, _⟩ =>
      rw [start_eq_zero _ _ _ (idx0 h)]
      show (0 : Int) + (((j 0).val : Nat) : Int) = ((i 1).val : Int)
      omega

/-- Update `(r, k)` of the 65 × 32 table lands on `(r, k)`. -/
private theorem land_pad (h : S_.BroadcastsInDim S1 ![]) (j : S65x32.Idx) (i : S128x32.Idx) :
    scatter_S128x32_S1_S65x32_01_n_0_0.resultIdx? j (broadcastInDim S1 ![] h (constantI S_ 32 0#32)) = some i
      ↔ (i 0).val = (j 0).val ∧ (i 1).val = (j 1).val := by
  rw [resultIdx?_eq_some_iff]
  constructor
  · intro H
    have h0 := H 0
    have h1 := H 1
    rw [start_eq_zero _ _ _ (idx0 h)] at h0 h1
    change (0 : Int) + (((j 0).val : Nat) : Int) = _ at h0
    change (0 : Int) + (((j 1).val : Nat) : Int) = _ at h1
    omega
  · intro H a
    match a with
    | ⟨0, _⟩ =>
      rw [start_eq_zero _ _ _ (idx0 h)]
      show (0 : Int) + (((j 0).val : Nat) : Int) = ((i 0).val : Int)
      omega
    | ⟨1, _⟩ =>
      rw [start_eq_zero _ _ _ (idx0 h)]
      show (0 : Int) + (((j 1).val : Nat) : Int) = ((i 1).val : Int)
      omega

/-- The counts with the background's replaced: zero at class 0, the kept count elsewhere. -/
private theorem cnt65_apply (co : (⟨S125x128x1, .f32⟩ : BufTy).Contents (Elt Ideal)) (r : Fin 65) :
    cnt65 (F := Ideal) co (ix1 r) = if r.val = 0 then 0 else cntKept (F := Ideal) co (ix1 r) := by
  unfold cnt65
  by_cases hr : r.val = 0
  · rw [if_pos hr]
    refine (scatter_replace_of_hit _ _ _ _ (ix1 r) ix0 ((land_cnt _ _ _).2 hr) fun j' _ => eq_ix0 j').trans ?_
    exact Ideal.ofBits_zero_f32
  · rw [if_neg hr]
    exact scatter_replace_of_miss _ _ _ _ (ix1 r) fun j H => hr ((land_cnt _ j _).1 H)

/-- The sums with the background's row replaced: zero on row 0, the kept sum elsewhere. -/
private theorem sums65_apply (so : (⟨S125x128x32, .f32⟩ : BufTy).Contents (Elt Ideal)) (r : Fin 65) (k : Fin 32) :
    sums65 (F := Ideal) so (ix2 r k) = if r.val = 0 then 0 else sumsKept (F := Ideal) so (ix2 r k) := by
  unfold sums65
  by_cases hr : r.val = 0
  · rw [if_pos hr]
    refine (scatter_replace_of_hit _ _ _ _ (ix2 r k) (ix1 k) ((land_sums _ _ _).2 ⟨hr, rfl⟩) fun j' H => ?_).trans ?_
    · exact (eq_ix1 j').trans (congrArg ix1 (Fin.ext ((land_sums _ _ _).1 H).2.symm))
    · exact Ideal.ofBits_zero_f32
  · rw [if_neg hr]
    exact scatter_replace_of_miss _ _ _ _ (ix2 r k) fun j H => hr ((land_sums _ j _).1 H).1

/-! ## The host's arrays at an index -/

/-- The class counts the host keeps: zero for the background, the number of the class's points otherwise. -/
theorem cnt_apply (r : Fin 65) :
    cnt65 (F := Ideal) (tileCounts (lblRow (F := Ideal) x1)) (ix1 r) = if r.val = 0 then 0 else cnt x1 r.val := by
  rw [cnt65_apply, cntKept_tiles]

/-- The class sums the host keeps: zero for the background, the sum of the class's points otherwise. -/
theorem sums_apply (r : Fin 65) (k : Fin 32) :
    sums65 (F := Ideal) (tileSums (embT (F := Ideal) x0) (lblRow (F := Ideal) x1)) (ix2 r k)
      = if r.val = 0 then 0 else ssum x0 x1 r.val k := by
  rw [sums65_apply, sumsKept_tiles]

/-- The class pull sums the host keeps (every class, the background included), against any table `mt`. -/
theorem pull_apply (mt : (⟨S32x128, .f32⟩ : BufTy).Contents (Elt Ideal)) (r : Fin 65) :
    pull65 (F := Ideal) (tilePull (embT (F := Ideal) x0) (lblRow (F := Ideal) x1) mt) (ix1 r)
      = wsum x1 (fun n => hinge2 (sqDist (embT (F := Ideal) x0) (lblRow (F := Ideal) x1) mt n)) r.val := by
  show cntKept (F := Ideal) _ (ix1 r) = _
  refine (cntKept_apply _ r).trans ?_
  refine Eq.trans ?_ (sum_tiles fun n =>
    hot r.val (x1 (ix1 n)) * hinge2 (sqDist (embT (F := Ideal) x0) (lblRow (F := Ideal) x1) mt n))
  refine Finset.sum_congr rfl fun t _ => ?_
  show ∑ j : Fin 16000, hot r.val (lblRow (F := Ideal) x1 (ix2 (0 : Fin 1) (pt t j)))
      * hinge2 (sqDist (embT (F := Ideal) x0) (lblRow (F := Ideal) x1) mt (pt t j)) = _
  refine Finset.sum_congr rfl fun j _ => ?_
  rw [lblRow_apply]

/-- The padded, transposed table: column `r` is row `r` of the means for `r < 65` and zero beyond. -/
theorem meansT_apply (μ : (⟨S65x32, .f32⟩ : BufTy).Contents (Elt Ideal)) (k : Fin 32) (r : Fin 128) :
    meansT (F := Ideal) μ (ix2 k r) = if h : r.val < 65 then μ (ix2 (⟨r.val, h⟩ : Fin 65) k) else 0 := by
  unfold meansT
  refine (transpose_apply _ _ _ (ix2 k r) (ix2 r k) fun b => ?_).trans ?_
  · match b with
    | ⟨0, _⟩ => rfl
    | ⟨1, _⟩ => rfl
  by_cases h : r.val < 65
  · rw [dif_pos h]
    refine scatter_replace_of_hit _ _ _ _ (ix2 r k) (ix2 (⟨r.val, h⟩ : Fin 65) k) ((land_pad _ _ _).2 ⟨rfl, rfl⟩)
      fun j' H => ?_
    obtain ⟨h0, h1⟩ := (land_pad _ _ _).1 H
    refine (eq_ix2 j').trans ?_
    congr 1
    · exact Fin.ext h0.symm
    · exact Fin.ext h1.symm
  · rw [dif_neg h]
    refine (scatter_replace_of_miss _ _ _ _ (ix2 r k) fun j H => h ?_).trans ?_
    · have h0 : r.val = (j 0).val := ((land_pad _ j _).1 H).1
      have := idx2_lt0 j
      omega
    · exact Ideal.ofBits_zero_f32

end Cert.KernelIdeal.KRead

end
-- ==== Proof.RefDims.lean ====
import proofs.«415074_j12979391169049_3_alg».proof.Proof.Gen.ReferenceIdeal
import Idealize.ShloMosaic.Lib.ValueIdx
import Idealize.ShloMosaic.Lib.StableHlo.Predicate

/-!
# Where the reference's scatters and its gather land

The reference's segment sums scatter along the first axis of a 65-slot operand with one scatter index per point, held
in a `[2000000, 1]` array: update `n` (for the two-axis operand, update `(n, k)`) lands on slot `r` (on `(r, k)`)
exactly when the index of point `n`, read as a signed integer, is `r`; an index outside `0 … 64` lands nowhere.
The one-element scatter that clears the presence array's slot 0 lands where its one index says. The gather of a row
of the 65 × 32 table reads row `r` when the point's index, read signed, is `r` with `0 ≤ r ≤ 64`.
-/

noncomputable section

namespace Cert.RefDims

open Cert.ReferenceIdeal Cert.ReferenceIdeal.Facts₀ Cert.ReferenceIdeal.Facts
open Idealize.ShloMosaic Idealize.ShloMosaic.ValueIdx

/-- The one-axis segment scatter: update `n` lands on slot `r` iff point `n`'s index, read signed, is `r`. -/
theorem lands_seg (idx : IVec S2000000x1 32) (n : Fin 2000000) (r : Fin 65) :
    scatter_S65_S2000000x1_S2000000_n_0_0_1.resultIdx? (ix1 n) idx = some (ix1 r)
      ↔ (idx (ix2 n (0 : Fin 1))).toInt = (r.val : Int) := by
  have hstart : ∀ a : Fin 1, scatter_S65_S2000000x1_S2000000_n_0_0_1.start (ix1 n) idx a = (idx (ix2 n (0 : Fin 1))).toInt := by
    intro a
    obtain rfl : a = 0 := Subsingleton.elim _ _
    unfold ScatterDims.start
    rw [dif_pos (show (0 : Fin 1) ∈ scatter_S65_S2000000x1_S2000000_n_0_0_1.scatterDimsToOperandDims from List.mem_singleton.mpr rfl)]
    congr 2
    funext b; refine Fin.ext ?_
    match b with
    | ⟨0, _⟩ => rfl
    | ⟨1, _⟩ => rfl
  have hwin : ∀ a : Fin 1, scatter_S65_S2000000x1_S2000000_n_0_0_1.window (ix1 n) a = 0 := by
    intro a
    obtain rfl : a = 0 := Subsingleton.elim _ _
    unfold ScatterDims.window
    rw [dif_neg (by decide)]
  have hsz : ∀ a : Fin 1, S65.size a = 65 := by
    intro a
    obtain rfl : a = 0 := Subsingleton.elim _ _
    rfl
  have hr := r.isLt
  unfold ScatterDims.resultIdx?
  constructor
  · intro H
    split at H
    · next hc =>
      have e := congrArg Fin.val (congrFun (Option.some.inj H) 0)
      have h0 := hc 0
      rw [hstart, hwin, hsz] at h0
      simp only [hstart, hwin] at e
      change _ = r.val at e
      omega
    · exact absurd H (by simp)
  · intro H
    split
    · next hc =>
      congr 1
      funext a
      obtain rfl : a = 0 := Subsingleton.elim _ _
      refine Fin.ext ?_
      simp only [hstart, hwin]
      change _ = r.val
      omega
    · next hc =>
      exfalso; apply hc
      intro a
      rw [hstart, hwin, hsz]
      omega

/-- The two-axis segment scatter: update `(n, k)` lands on `(r, k')` iff point `n`'s index is `r` and `k = k'`. -/
theorem lands_segRow (idx : IVec S2000000x1 32) (n : Fin 2000000) (k : Fin 32) (r : Fin 65) (k' : Fin 32) :
    scatter_S65x32_S2000000x1_S2000000x32_1_0_0_1.resultIdx? (ix2 n k) idx = some (ix2 r k')
      ↔ (idx (ix2 n (0 : Fin 1))).toInt = (r.val : Int) ∧ k = k' := by
  have hstart0 : scatter_S65x32_S2000000x1_S2000000x32_1_0_0_1.start (ix2 n k) idx (0 : Fin 2) = (idx (ix2 n (0 : Fin 1))).toInt := by
    unfold ScatterDims.start
    rw [dif_pos (show (0 : Fin 2) ∈ scatter_S65x32_S2000000x1_S2000000x32_1_0_0_1.scatterDimsToOperandDims from List.mem_singleton.mpr rfl)]
    congr 2
    funext b; refine Fin.ext ?_
    match b with
    | ⟨0, _⟩ => rfl
    | ⟨1, _⟩ => rfl
  have hstart1 : scatter_S65x32_S2000000x1_S2000000x32_1_0_0_1.start (ix2 n k) idx (1 : Fin 2) = 0 := by
    unfold ScatterDims.start
    rw [dif_neg (by decide)]
  have hwin0 : scatter_S65x32_S2000000x1_S2000000x32_1_0_0_1.window (ix2 n k) (0 : Fin 2) = 0 := by
    unfold ScatterDims.window
    rw [dif_neg (by decide)]
  have hwin1 : scatter_S65x32_S2000000x1_S2000000x32_1_0_0_1.window (ix2 n k) (1 : Fin 2) = k.val := by
    unfold ScatterDims.window
    rw [dif_pos (by decide)]
    rfl
  have hsz0 : S65x32.size (0 : Fin 2) = 65 := rfl
  have hsz1 : S65x32.size (1 : Fin 2) = 32 := rfl
  have hr := r.isLt
  have hk := k.isLt
  have hk' := k'.isLt
  unfold ScatterDims.resultIdx?
  constructor
  · intro H
    split at H
    · next hc =>
      have e0 := congrArg Fin.val (congrFun (Option.some.inj H) (0 : Fin 2))
      have e1 := congrArg Fin.val (congrFun (Option.some.inj H) (1 : Fin 2))
      have h0 := hc (0 : Fin 2)
      rw [hstart0, hwin0, hsz0] at h0
      simp only [hstart0, hwin0] at e0
      simp only [hstart1, hwin1] at e1
      change _ = r.val at e0
      change _ = k'.val at e1
      refine ⟨by omega, Fin.ext (by omega)⟩
    · exact absurd H (by simp)
  · rintro ⟨H, rfl⟩
    split
    · next hc =>
      congr 1
      funext a
      refine Fin.ext ?_
      match a with
      | ⟨0, _⟩ =>
        show (scatter_S65x32_S2000000x1_S2000000x32_1_0_0_1.start (ix2 n k) idx (0 : Fin 2)
          + scatter_S65x32_S2000000x1_S2000000x32_1_0_0_1.window (ix2 n k) (0 : Fin 2)).toNat = r.val
        rw [hstart0, hwin0]; omega
      | ⟨1, _⟩ =>
        show (scatter_S65x32_S2000000x1_S2000000x32_1_0_0_1.start (ix2 n k) idx (1 : Fin 2)
          + scatter_S65x32_S2000000x1_S2000000x32_1_0_0_1.window (ix2 n k) (1 : Fin 2)).toNat = k.val
        rw [hstart1, hwin1]; omega
    · next hc =>
      exfalso; apply hc
      refine Fin.forall_fin_two.mpr ⟨?_, ?_⟩
      · rw [hstart0, hwin0, hsz0]; omega
      · rw [hstart1, hwin1, hsz1]; omega

/-- The one-element scatter: its one update lands on slot `r` iff the one index, read signed, is `r`. -/
theorem lands_one (idx : IVec S1 32) (r : Fin 65) :
    scatter_S65_S1_S__n_0_0_0.resultIdx? ix0 idx = some (ix1 r) ↔ (idx (ix1 (0 : Fin 1))).toInt = (r.val : Int) := by
  have hstart : ∀ a : Fin 1, scatter_S65_S1_S__n_0_0_0.start ix0 idx a = (idx (ix1 (0 : Fin 1))).toInt := by
    intro a
    obtain rfl : a = 0 := Subsingleton.elim _ _
    unfold ScatterDims.start
    rw [dif_pos (show (0 : Fin 1) ∈ scatter_S65_S1_S__n_0_0_0.scatterDimsToOperandDims from List.mem_singleton.mpr rfl)]
    congr 2
    funext b; refine Fin.ext ?_
    match b with
    | ⟨0, _⟩ => rfl
  have hwin : ∀ a : Fin 1, scatter_S65_S1_S__n_0_0_0.window ix0 a = 0 := by
    intro a
    obtain rfl : a = 0 := Subsingleton.elim _ _
    unfold ScatterDims.window
    rw [dif_neg (by decide)]
  have hsz : ∀ a : Fin 1, S65.size a = 65 := by
    intro a
    obtain rfl : a = 0 := Subsingleton.elim _ _
    rfl
  have hr := r.isLt
  unfold ScatterDims.resultIdx?
  constructor
  · intro H
    split at H
    · next hc =>
      have e := congrArg Fin.val (congrFun (Option.some.inj H) 0)
      have h0 := hc 0
      rw [hstart, hwin, hsz] at h0
      simp only [hstart, hwin] at e
      change _ = r.val at e
      omega
    · exact absurd H (by simp)
  · intro H
    split
    · next hc =>
      congr 1
      funext a
      obtain rfl : a = 0 := Subsingleton.elim _ _
      refine Fin.ext ?_
      simp only [hstart, hwin]
      change _ = r.val
      omega
    · next hc =>
      exfalso; apply hc
      intro a
      rw [hstart, hwin, hsz]
      omega

/-- The gather of a row: at point `n` whose index, read signed, is the row number `r`, entry `k` is the table's `(r, k)`. -/
theorem gather_row {α : Type} (x : S65x32.Idx → α) (idx : IVec S2000000x1 32) (n : Fin 2000000) (k : Fin 32) (r : Fin 65)
    (h : (idx (ix2 n (0 : Fin 1))).toInt = (r.val : Int)) :
    Host.gather gather_S65x32_S2000000x1_S2000000x32_1_0_n_n_0_1_132 x idx (ix2 n k) = x (ix2 r k) := by
  have hr := r.isLt
  unfold Host.gather
  congr 1
  funext a
  refine Fin.ext ?_
  show gather_S65x32_S2000000x1_S2000000x32_1_0_n_n_0_1_132.start (ix2 n k) idx a
      + gather_S65x32_S2000000x1_S2000000x32_1_0_n_n_0_1_132.batchCoord (ix2 n k) a
      + gather_S65x32_S2000000x1_S2000000x32_1_0_n_n_0_1_132.offCoord (ix2 n k) a = (ix2 r k a).val
  rw [GatherDims.batchCoord_eq_zero _ _ _ List.not_mem_nil, Nat.add_zero]
  match a with
  | ⟨0, _⟩ =>
    show gather_S65x32_S2000000x1_S2000000x32_1_0_n_n_0_1_132.start (ix2 n k) idx (0 : Fin 2)
      + gather_S65x32_S2000000x1_S2000000x32_1_0_n_n_0_1_132.offCoord (ix2 n k) (0 : Fin 2) = r.val
    rw [GatherDims.offCoord_eq_zero _ _ _ (by decide), Nat.add_zero]
    unfold GatherDims.start
    rw [dif_pos (show (0 : Fin 2) ∈ gather_S65x32_S2000000x1_S2000000x32_1_0_n_n_0_1_132.startIndexMap from List.mem_singleton.mpr rfl)]
    have hsi : gather_S65x32_S2000000x1_S2000000x32_1_0_n_n_0_1_132.siIdx (ix2 n k)
        ⟨List.idxOf (0 : Fin 2) gather_S65x32_S2000000x1_S2000000x32_1_0_n_n_0_1_132.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi, h]
    show min (r.val : Int).toNat (65 - 1) = r.val
    rw [Int.toNat_natCast]
    omega
  | ⟨1, _⟩ =>
    show gather_S65x32_S2000000x1_S2000000x32_1_0_n_n_0_1_132.start (ix2 n k) idx (1 : Fin 2)
      + gather_S65x32_S2000000x1_S2000000x32_1_0_n_n_0_1_132.offCoord (ix2 n k) (1 : Fin 2) = k.val
    have hs : gather_S65x32_S2000000x1_S2000000x32_1_0_n_n_0_1_132.start (ix2 n k) idx (1 : Fin 2) = 0 := by
      unfold GatherDims.start
      rw [dif_neg (by decide)]
    rw [hs, Nat.zero_add]
    unfold GatherDims.offCoord
    rw [dif_pos (by decide)]
    rfl

end Cert.RefDims

end
-- ==== Proof.RefScat.lean ====
import proofs.«415074_j12979391169049_3_alg».proof.Proof.RefRead
import proofs.«415074_j12979391169049_3_alg».proof.Proof.Spec
import proofs.«415074_j12979391169049_3_alg».proof.Proof.LibHostScatter
import proofs.«415074_j12979391169049_3_alg».proof.Proof.RefDims
import Idealize.ShloMosaic.Lib.ValueIdx
import Idealize.ShloMosaic.Lib.StableHlo.Predicate
import Idealize.ShloMosaic.PureOps.Ideal.Laws

/-!
# The reference's segment sums, presence array and gather, read at an index

The reference first replaces every label that is not positive by 0 and gives such a point the weight 0, every other
point the weight 1. A segment sum into 65 slots adds, into slot `r`, the weighted values of the points whose replaced
label is `r`; a point whose label is 65 or more lands outside the 65 slots and is dropped. So slot 0 receives only
weight-0 terms and is zero, and slot `r ≥ 1` receives exactly the points whose label is the word of `r`, each with
weight one: the class sums of the specification. The presence array is "count positive" with slot 0 cleared, and the
gather reads, for a point whose label is a kept class `r ≥ 1`, row `r` of the means.
-/

noncomputable section

namespace Cert.RefScat

open Cert.ReferenceIdeal Cert.ReferenceIdeal.ReadP Cert.Spec
open Idealize.ShloMosaic Idealize.ShloMosaic.ValueIdx

variable (x0 : (⟨S2000000x32, .f32⟩ : BufTy).Contents (Elt Ideal)) (x1 : (⟨S2000000, .i32⟩ : BufTy).Contents (Elt Ideal))

/-- At the ideal values the host's accumulating scatter is the exact sum of the updates landing on each element. -/
private theorem scatterAdd_eq {s si u : Shape} {w : Nat} {φ : FTy} (d : ScatterDims s si u) (x : FVec Ideal s φ)
    (idx : IVec si w) (upd : FVec Ideal u φ) : Host.scatterAdd d x idx upd = Ideal.hostScatterAdd d x idx upd := rfl

/-! ## Words: the replaced label and the weight -/

/-- The compare bit "label positive, read signed". -/
private theorem pos_iff (l : BitVec 32) : IntOp.cmpi .sgt l 0#32 = 1#1 ↔ 0 < l.toInt := by
  simp [IntOp.cmpi, BitVec.slt, StableHlo.Predicate.ofBool_eq_one_iff]

/-- The replaced label of point `n`: the label where it is positive, the zero word elsewhere. -/
private theorem v2_eq (n : Fin 2000000) :
    val_main_v2 (F := Ideal) x1 (ix1 n) = if 0 < (x1 (ix1 n)).toInt then x1 (ix1 n) else 0#32 := by
  show Scalar.select (IntOp.cmpi .sgt (x1 (ix1 n)) 0#32) (x1 (ix1 n)) 0#32 = _
  by_cases h : 0 < (x1 (ix1 n)).toInt
  · rw [if_pos h, (pos_iff _).2 h, select_one]
  · rw [if_neg h, eq_zero_of_ne_one (mt (pos_iff _).1 h), select_zero]

/-- The weight of point `n`: one where the label is positive, zero elsewhere. -/
private theorem v3_eq (n : Fin 2000000) :
    val_main_v3 (F := Ideal) x1 (ix1 n) = if 0 < (x1 (ix1 n)).toInt then 1 else 0 := by
  show (((IntOp.cmpi .sgt (x1 (ix1 n)) 0#32).toNat : ℝ) : EReal) = _
  by_cases h : 0 < (x1 (ix1 n)).toInt
  · rw [if_pos h, (pos_iff _).2 h]
    simp
  · rw [if_neg h, eq_zero_of_ne_one (mt (pos_iff _).1 h)]
    simp

/-- One point's term of a segment sum into slot `r`: the value times the weight where the replaced label, read signed,
    is `r`. For slot 0 it is zero (the weight is); for a slot `1 … 64` it is the value where the label is the word of `r`. -/
private theorem seg_term (l : BitVec 32) (r : ℕ) (hr : r < 65) (v : EReal) :
    (if (if 0 < l.toInt then l else 0#32).toInt = (r : Int) then v * (if 0 < l.toInt then (1 : EReal) else 0) else 0)
      = if r = 0 then 0 else hot r l * v := by
  by_cases hp : 0 < l.toInt
  · simp only [if_pos hp, mul_one]
    by_cases h0 : r = 0
    · subst h0
      rw [if_pos rfl, if_neg]
      push_cast
      omega
    · rw [if_neg h0]
      by_cases hl : BitVec.ofNat 32 r = l
      · subst hl
        rw [hot_eq_one rfl, one_mul, if_pos (StableHlo.Predicate.toInt_ofNat_small r (by omega))]
      · rw [hot_eq_zero hl, zero_mul, if_neg]
        intro e
        apply hl
        apply BitVec.eq_of_toInt_eq
        rw [StableHlo.Predicate.toInt_ofNat_small r (by omega)]
        exact e.symm
  · simp only [if_neg hp, mul_zero, ite_self]
    by_cases h0 : r = 0
    · rw [if_pos h0]
    · rw [if_neg h0, hot_eq_zero, zero_mul]
      rintro rfl
      apply hp
      rw [StableHlo.Predicate.toInt_ofNat_small r (by omega)]
      omega

/-! ## Sums over a one-axis index set -/

/-- A sum over a one-axis index set is the sum over the coordinate. -/
private theorem sum_idx1 {N : Nat} (f : (⟨1, ![N]⟩ : Shape).Idx → EReal) : ∑ i, f i = ∑ n : Fin N, f (ix1 n) := by
  refine Fintype.sum_equiv ⟨fun i => i 0, fun n => ix1 n, fun i => (eq_ix1 i).symm, fun _ => rfl⟩ _ _ fun i => ?_
  exact congrArg f (eq_ix1 i)

/-! ## A one-axis segment sum at a slot -/

/-- A segment sum, into 65 zero slots, of per-point values `v n` times the weight, the slot chosen by the replaced label:
    slot 0 is zero, slot `r ≥ 1` is class `r`'s sum of `v`. -/
private theorem seg_apply (v : Fin 2000000 → EReal) (x : S65.Idx → EReal) (idx : IVec S2000000x1 32)
    (upd : S2000000.Idx → EReal) (r : Fin 65) (hx : x (ix1 r) = 0)
    (hidx : ∀ n, idx (ix2 n (0 : Fin 1)) = val_main_v2 (F := Ideal) x1 (ix1 n))
    (hupd : ∀ n, upd (ix1 n) = v n * val_main_v3 (F := Ideal) x1 (ix1 n)) :
    Ideal.hostScatterAdd scatter_S65_S2000000x1_S2000000_n_0_0_1 x idx upd (ix1 r)
      = if r.val = 0 then 0 else wsum x1 v r.val := by
  unfold Ideal.hostScatterAdd
  rw [hx, zero_add, Finset.sum_filter, sum_idx1]
  have key : ∀ n : Fin 2000000,
      (if scatter_S65_S2000000x1_S2000000_n_0_0_1.resultIdx? (ix1 n) idx = some (ix1 r) then upd (ix1 n) else 0)
        = if r.val = 0 then 0 else hot r.val (x1 (ix1 n)) * v n := by
    intro n
    rw [← seg_term (x1 (ix1 n)) r.val r.isLt (v n), ← v2_eq, ← v3_eq, ← hidx, ← hupd]
    exact if_congr (RefDims.lands_seg idx n r) rfl rfl
  refine (Finset.sum_congr rfl fun n _ => key n).trans ?_
  by_cases h0 : r.val = 0
  · rw [if_pos h0]
    exact Finset.sum_eq_zero fun n _ => if_pos h0
  · rw [if_neg h0]
    unfold wsum
    exact Finset.sum_congr rfl fun n _ => if_neg h0

/-- The class counts: zero for the background slot, the number of the class's points otherwise. -/
theorem cnt_apply (r : Fin 65) :
    val_main_v12 (F := Ideal) x1 (ix1 r) = if r.val = 0 then 0 else cnt x1 r.val := by
  unfold val_main_v12
  rw [scatterAdd_eq]
  have h0 : val_main_v10 (F := Ideal) (ix1 r) = 0 := Ideal.ofBits_zero_f32
  have hidx : ∀ n : Fin 2000000,
      val_main_v11 (F := Ideal) x1 (ix2 n (0 : Fin 1)) = val_main_v2 (F := Ideal) x1 (ix1 n) := fun n =>
    (val_main_v11_apply x1 (ix2 n (0 : Fin 1))).trans
      (congrArg (val_main_v2 (F := Ideal) x1) (funext fun a => match a with | ⟨0, _⟩ => rfl))
  have hupd : ∀ n : Fin 2000000,
      val_main_v3 (F := Ideal) x1 (ix1 n) = (fun _ : Fin 2000000 => (1 : EReal)) n * val_main_v3 (F := Ideal) x1 (ix1 n) :=
    fun n => (one_mul _).symm
  rw [seg_apply x1 (fun _ => 1) (val_main_v10 (F := Ideal)) (val_main_v11 (F := Ideal) x1) (val_main_v3 (F := Ideal) x1)
    r h0 hidx hupd]
  unfold wsum cnt
  simp only [mul_one]

/-- The class sums. -/
theorem sums_apply (r : Fin 65) (k : Fin 32) :
    val_main_v9 (F := Ideal) x0 x1 (ix2 r k) = if r.val = 0 then 0 else ssum x0 x1 r.val k := by
  unfold val_main_v9
  rw [scatterAdd_eq]
  unfold Ideal.hostScatterAdd
  have h0 : val_main_v7 (F := Ideal) (ix2 r k) = 0 := Ideal.ofBits_zero_f32
  rw [h0, zero_add, Finset.sum_filter, sum_idx2]
  have hidx : ∀ n : Fin 2000000,
      val_main_v8 (F := Ideal) x1 (ix2 n (0 : Fin 1)) = val_main_v2 (F := Ideal) x1 (ix1 n) := fun n =>
    (val_main_v8_apply x1 (ix2 n (0 : Fin 1))).trans
      (congrArg (val_main_v2 (F := Ideal) x1) (funext fun a => match a with | ⟨0, _⟩ => rfl))
  have hupd : ∀ n : Fin 2000000, val_main_v6 (F := Ideal) x0 x1 (ix2 n k)
      = x0 (ix2 n k) * val_main_v3 (F := Ideal) x1 (ix1 n) := fun n => by
    refine (val_main_v6_apply x0 x1 (ix2 n k)).trans (congrArg (x0 (ix2 n k) * ·) ?_)
    refine (val_main_v5_apply x1 (ix2 n k)).trans ((val_main_v4_apply x1 _).trans ?_)
    exact congrArg (val_main_v3 (F := Ideal) x1) (funext fun a => match a with | ⟨0, _⟩ => rfl)
  have key : ∀ n : Fin 2000000,
      (∑ k' : Fin 32, if scatter_S65x32_S2000000x1_S2000000x32_1_0_0_1.resultIdx? (ix2 n k') (val_main_v8 (F := Ideal) x1)
          = some (ix2 r k) then val_main_v6 (F := Ideal) x0 x1 (ix2 n k') else 0)
        = if r.val = 0 then 0 else hot r.val (x1 (ix1 n)) * x0 (ix2 n k) := by
    intro n
    rw [← seg_term (x1 (ix1 n)) r.val r.isLt (x0 (ix2 n k)), ← v2_eq, ← v3_eq, ← hidx, ← hupd]
    rw [Finset.sum_eq_single k]
    · exact if_congr ((RefDims.lands_segRow _ n k r k).trans (and_iff_left rfl)) rfl rfl
    · intro k' _ hk'
      exact if_neg fun h => hk' ((RefDims.lands_segRow _ n k' r k).1 h).2
    · intro h
      exact absurd (Finset.mem_univ k) h
  refine (Finset.sum_congr rfl fun n _ => key n).trans ?_
  by_cases hr0 : r.val = 0
  · rw [if_pos hr0]
    exact Finset.sum_eq_zero fun n _ => if_pos hr0
  · rw [if_neg hr0]
    unfold ssum
    exact Finset.sum_congr rfl fun n _ => if_neg hr0

/-- The presence array: slot 0 cleared, every other slot "count positive". -/
theorem present_apply (r : Fin 65) :
    val_main_v16 (F := Ideal) x1 (ix1 r) = if r.val = 0 then 0#1 else val_main_v14 (F := Ideal) x1 (ix1 r) := by
  have hidx : ((val_main_v15 (F := Ideal)) (ix1 (0 : Fin 1))).toInt = 0 := by
    rw [val_main_v15_apply, val_main_c_3_apply]; rfl
  unfold val_main_v16
  split
  · next h0 =>
    rw [scatter_replace_of_hit _ _ _ _ (ix1 r) ix0
      ((Cert.RefDims.lands_one _ r).mpr (by rw [hidx, h0]; rfl)) (fun j' _ => eq_ix0 j')]
    rfl
  · next h0 =>
    refine scatter_replace_of_miss _ _ _ _ _ fun j hj => h0 ?_
    rw [eq_ix0 j] at hj
    have e := (Cert.RefDims.lands_one _ r).mp hj
    rw [hidx] at e
    omega

/-- The class pull sums: zero for the background slot, the sum of the class's points' pull terms otherwise. -/
theorem pull_apply (r : Fin 65) :
    val_main_v51 (F := Ideal) x0 x1 (ix1 r)
      = if r.val = 0 then 0 else wsum x1 (fun n => val_main_v47 (F := Ideal) x0 x1 (ix1 n)) r.val := by
  unfold val_main_v51
  rw [scatterAdd_eq]
  have h0 : val_main_v49 (F := Ideal) (ix1 r) = 0 := Ideal.ofBits_zero_f32
  have hidx : ∀ n : Fin 2000000,
      val_main_v50 (F := Ideal) x1 (ix2 n (0 : Fin 1)) = val_main_v2 (F := Ideal) x1 (ix1 n) := fun n =>
    (val_main_v50_apply x1 (ix2 n (0 : Fin 1))).trans
      (congrArg (val_main_v2 (F := Ideal) x1) (funext fun a => match a with | ⟨0, _⟩ => rfl))
  have hupd : ∀ n : Fin 2000000, val_main_v48 (F := Ideal) x0 x1 (ix1 n)
      = (fun n : Fin 2000000 => val_main_v47 (F := Ideal) x0 x1 (ix1 n)) n * val_main_v3 (F := Ideal) x1 (ix1 n) :=
    fun n => val_main_v48_apply x0 x1 (ix1 n)
  exact seg_apply x1 (fun n => val_main_v47 (F := Ideal) x0 x1 (ix1 n)) (val_main_v49 (F := Ideal))
    (val_main_v50 (F := Ideal) x1) (val_main_v48 (F := Ideal) x0 x1) r h0 hidx hupd

/-- The gather at a point whose label is the kept class `r ≥ 1`: row `r` of the means. -/
theorem gather_apply (n : Fin 2000000) (k : Fin 32) (r : Fin 65) (hr : 0 < r.val) (hl : x1 (ix1 n) = BitVec.ofNat 32 r.val) :
    val_main_v32 (F := Ideal) x0 x1 (ix2 n k) = val_main_v21 (F := Ideal) x0 x1 (ix2 r k) := by
  have hr' := r.isLt
  unfold val_main_v32
  apply Cert.RefDims.gather_row
  rw [val_main_v31_apply]
  have hi : idx_main_v31 (ix2 n (0 : Fin 1)) = ix1 n := by
    funext a; match a with | ⟨0, _⟩ => rfl
  have hn : (BitVec.ofNat 32 r.val).toNat = r.val := by
    rw [BitVec.toNat_ofNat]; exact Nat.mod_eq_of_lt (by omega)
  have h1 : IntOp.cmpi .sgt (BitVec.ofNat 32 r.val) 0#32 = 1#1 :=
    (StableHlo.Predicate.sgt_iff_toNat (by rw [hn]; omega) (by decide)).mpr (by rw [hn]; exact hr)
  have h2 : IntOp.cmpi .slt (BitVec.ofNat 32 r.val) 0#32 = 0#1 :=
    eq_zero_of_ne_one fun h => by
      have := (StableHlo.Predicate.slt_iff_toNat (by rw [hn]; omega) (by decide)).mp h
      simp at this
  rw [hi, val_main_v30_apply, val_main_v27_apply, val_main_v2_apply, val_main_v1_apply, val_main_v0_apply,
    val_main_c_apply, val_main_v26_apply, val_main_c_8_apply, hl, h1, select_one, h2, select_zero]
  exact StableHlo.Predicate.toInt_ofNat_small _ (by omega)

end Cert.RefScat

end
-- ==== Proof.TailR.lean ====
import proofs.«415074_j12979391169049_3_alg».proof.Proof.RefRead
import proofs.«415074_j12979391169049_3_alg».proof.Proof.TailFn

/-!
# The reference's host operations from the class table onward

The reference's result is the loss function `Cert.Tail.tailFn` of its own presence array, class means and masked mean
pull terms: its operations from there on are the function's, one for one.
-/

noncomputable section

namespace Cert.TailR

open Cert.ReferenceIdeal Cert.ReferenceIdeal.ReadP
open Idealize.ShloMosaic

variable {F : FTy → Type} [FloatOps F]

/-- The reference's result as the loss function of its three arrays. -/
theorem ref_tail (x0 : (⟨S2000000x32, .f32⟩ : BufTy).Contents (Elt F)) (x1 : (⟨S2000000, .i32⟩ : BufTy).Contents (Elt F)) :
    val_main_v100 (F := F) x0 x1
      = Cert.Tail.tailFn (val_main_v16 (F := F) x1) (val_main_v21 (F := F) x0 x1) (val_main_v53 (F := F) x0 x1) := by
  rfl

end Cert.TailR

end
-- ==== Proof.Bridge.lean ====
import proofs.«415074_j12979391169049_3_alg».proof.Proof.KVal
import proofs.«415074_j12979391169049_3_alg».proof.Proof.KRead
import proofs.«415074_j12979391169049_3_alg».proof.Proof.RefRead
import proofs.«415074_j12979391169049_3_alg».proof.Proof.RefScat
import proofs.«415074_j12979391169049_3_alg».proof.Proof.TailR

/-!
# The two programs compute one function of the arguments

Both end in the loss function `Cert.Tail.tailFn` of a presence array, a table of class means and the masked mean pull
terms; here the kernel program's three arrays are shown equal to the reference's.

* Counts and sums. The kernel adds, per class `r < 128`, the selector of `r` over all points (tile by tile), keeps
  `r ≤ 64` and zeroes class 0; the reference's segment sum drops every label outside `0 … 64` and gives the points it
  sends to slot 0 the weight 0. Entry by entry both are `0` at `r = 0` and the class's count (sum) otherwise.
* Hence the divisor `max(count, 1)` and the means agree, being the same operations of equal arrays; presence agrees
  because the kernel's "count > 0" is false at class 0, whose count is 0, where the reference clears the slot.
* Pull. For a present class `r` (so `r ≥ 1`) both add, over the points labelled `r`, the point's pull term; the kernel
  looks the point's mean up as `∑ r', table (k, r') · selector r'`, which is row `r` of the means, and the reference
  gathers row `r`: the same squared distance, the same hinge. For an absent class both sides are masked to zero, so the
  background's pull sum (which differs: the reference weights it by zero) is never read.
-/

noncomputable section

namespace Cert.Bridge

open Cert.Spec Cert.KernelIdeal.KVal Cert.KernelIdeal.KHost Cert.ReferenceIdeal.ReadP
open Idealize.ShloMosaic Idealize.ShloMosaic.ValueIdx

/-- The class table's shape. -/
abbrev STbl : Shape := ⟨2, ![65, 32]⟩

variable (x0 : (⟨SEmb, .f32⟩ : BufTy).Contents (Elt Ideal)) (x1 : (⟨SPts, .i32⟩ : BufTy).Contents (Elt Ideal))

/-! ## Counts, sums, divisor, means -/

theorem kCnt_eq : kCnt x1 = val_main_v12 (F := Ideal) x1 := by
  funext i
  obtain ⟨r, rfl⟩ : ∃ r : Fin 65, i = ix1 r := ⟨i 0, eq_ix1 i⟩
  exact (Cert.KernelIdeal.KRead.cnt_apply x1 r).trans (Cert.RefScat.cnt_apply x1 r).symm

theorem kSums_eq : kSums x0 x1 = val_main_v9 (F := Ideal) x0 x1 := by
  funext i
  obtain ⟨r, k, rfl⟩ : ∃ (r : Fin 65) (k : Fin 32), i = ix2 r k := ⟨i 0, i 1, eq_ix2 i⟩
  exact (Cert.KernelIdeal.KRead.sums_apply x0 x1 r k).trans (Cert.RefScat.sums_apply x0 x1 r k).symm

theorem kSafe_eq : kSafe x1 = val_main_v18 (F := Ideal) x1 := by
  unfold kSafe; rw [kCnt_eq]; rfl

theorem kMeans_eq : kMeans x0 x1 = val_main_v21 (F := Ideal) x0 x1 := by
  unfold kMeans; rw [kSums_eq, kSafe_eq]; rfl

/-! ## Presence -/

/-- The kernel's presence array is the reference's "count positive" array before its slot 0 is cleared. -/
theorem kPresent_eq14 : kPresent x1 = val_main_v14 (F := Ideal) x1 := by
  unfold kPresent; rw [kCnt_eq]; rfl

/-- At class 0 the count is zero, so "count positive" is already false there. -/
theorem v14_zero (r : Fin 65) (h0 : r.val = 0) : val_main_v14 (F := Ideal) x1 (ix1 r) = 0#1 := by
  rw [val_main_v14_apply, Cert.RefScat.cnt_apply, if_pos h0, val_main_v13_apply, val_main_cst_2_apply]
  have hz : (FloatOps.ofBits (F := Ideal) .f32 0x00000000#32 : EReal) = 0 := Ideal.ofBits_zero_f32
  rw [hz]
  show Ideal.cmp .ogt (0 : EReal) 0 = 0#1
  simp [Ideal.cmp]

theorem kPresent_eq : kPresent x1 = val_main_v16 (F := Ideal) x1 := by
  rw [kPresent_eq14]
  funext i
  obtain ⟨r, rfl⟩ : ∃ r : Fin 65, i = ix1 r := ⟨i 0, eq_ix1 i⟩
  rw [Cert.RefScat.present_apply]
  split
  · next h0 => exact v14_zero x1 r h0
  · rfl

/-- A present class is not the background. -/
theorem pos_of_present (r : Fin 65) (h : val_main_v16 (F := Ideal) x1 (ix1 r) = 1#1) : 0 < r.val := by
  rcases Nat.eq_zero_or_pos r.val with h0 | h0
  · rw [Cert.RefScat.present_apply, if_pos h0] at h; exact absurd h (by decide)
  · exact h0

/-! ## The per-point pull term -/

/-- The kernel's table lookup at a point of the kept class `r`: only column `r` of the padded table is selected, and it
    is row `r` of the means. -/
theorem lookup_row (μ : (⟨STbl, .f32⟩ : BufTy).Contents (Elt Ideal)) (l : BitVec 32) (r : Fin 65) (hl : BitVec.ofNat 32 r.val = l) (k : Fin 32) :
    ∑ r' : Fin 128, meansT (F := Ideal) μ (ix2 k r') * hot r'.val l = μ (ix2 r k) := by
  have hr : r.val < 128 := by have := r.isLt; omega
  rw [Finset.sum_eq_single (⟨r.val, hr⟩ : Fin 128)]
  · rw [hot_eq_one hl, mul_one, Cert.KernelIdeal.KRead.meansT_apply, dif_pos r.isLt]
  · intro r' _ hne
    have : ¬ BitVec.ofNat 32 r'.val = l := by
      intro h
      apply hne
      have h2 : BitVec.ofNat 32 r'.val = BitVec.ofNat 32 r.val := h.trans hl.symm
      have h3 := congrArg BitVec.toNat h2
      simp only [BitVec.toNat_ofNat] at h3
      have hr' := r'.isLt
      rw [Nat.mod_eq_of_lt (by omega), Nat.mod_eq_of_lt (by omega)] at h3
      exact Fin.ext h3
    rw [hot_eq_zero this, mul_zero]
  · intro h; exact absurd (Finset.mem_univ _) h

/-- At a point `n` of the kept class `r ≥ 1` the kernel's squared distance to its looked-up mean is the reference's
    to its gathered row. -/
theorem sqDist_eq (n : Fin 2000000) (r : Fin 65) (hr : 0 < r.val) (hl : BitVec.ofNat 32 r.val = x1 (ix1 n)) :
    sqDist (embT (F := Ideal) x0) (lblRow (F := Ideal) x1) (meansT (F := Ideal) (val_main_v21 (F := Ideal) x0 x1)) n
      = val_main_v35 (F := Ideal) x0 x1 (ix1 n) := by
  rw [val_main_v35_apply, val_main_cst_10_apply]
  unfold sqDist
  have hz : (FloatOps.ofBits (F := Ideal) .f32 0x00000000#32 : EReal) = 0 := Ideal.ofBits_zero_f32
  rw [hz, zero_add]
  refine Finset.sum_congr rfl fun k _ => ?_
  have hidx : idx_main_v35 (ix1 n) k = ix2 n k := by
    funext a; match a with | ⟨0, _⟩ => rfl | ⟨1, _⟩ => rfl
  rw [hidx, val_main_v34_apply, val_main_v33_apply, Cert.RefScat.gather_apply x0 x1 n k r hr hl.symm,
    Cert.KernelIdeal.KRead.embT_apply, Cert.KernelIdeal.KRead.lblRow_apply, lookup_row _ _ r hl k]
  rfl

/-- The reference's chain from the squared distance to the pull term is the specification's hinge: the same compares
    against the literal 0, the same two selects, the root, the literal one half, the cut at zero and the square. -/
theorem hinge_eq (n : Fin 2000000) :
    hinge2 (val_main_v35 (F := Ideal) x0 x1 (ix1 n)) = val_main_v47 (F := Ideal) x0 x1 (ix1 n) := by
  rw [val_main_v47_apply, val_main_v46_apply, val_main_v44_apply, val_main_v42_apply, val_main_v41_apply, val_main_v39_apply,
    val_main_v38_apply, val_main_v37_apply, val_main_v36_apply, val_main_v40_apply, val_main_v43_apply, val_main_v45_apply,
    val_main_call1_v1_apply, val_main_call2_v1_apply, val_main_call1_v0_apply, val_main_call2_v0_apply,
    val_main_cst_11_apply, val_main_cst_12_apply, val_main_cst_13_apply, val_main_cst_14_apply, val_main_cst_15_apply,
    val_main_cst_16_apply]
  simp only [hinge2, Ideal.ofBits_def, Ideal.cmpf_def, Ideal.subf_def, Ideal.maximumf_def, Ideal.mulf_def,
    Ideal.hostUnary_sqrt_def]

theorem point_eq (n : Fin 2000000) (r : Fin 65) (hr : 0 < r.val) (hl : BitVec.ofNat 32 r.val = x1 (ix1 n)) :
    hinge2 (sqDist (embT (F := Ideal) x0) (lblRow (F := Ideal) x1) (meansT (F := Ideal) (val_main_v21 (F := Ideal) x0 x1)) n)
      = val_main_v47 (F := Ideal) x0 x1 (ix1 n) := by
  rw [sqDist_eq x0 x1 n r hr hl, hinge_eq]

/-! ## The masked pull, and the result -/

theorem kPull_eq (r : Fin 65) (hr : 0 < r.val) :
    kPull x0 x1 (ix1 r) = val_main_v51 (F := Ideal) x0 x1 (ix1 r) := by
  unfold kPull
  rw [kMeans_eq, Cert.KernelIdeal.KRead.pull_apply, Cert.RefScat.pull_apply, if_neg (by omega)]
  unfold wsum
  refine Finset.sum_congr rfl fun n _ => ?_
  dsimp only
  by_cases hl : BitVec.ofNat 32 r.val = x1 (ix1 n)
  · rw [point_eq x0 x1 n r hr hl]
  · rw [hot_eq_zero hl, zero_mul, zero_mul]

theorem kMasked_eq : kMasked x0 x1 = val_main_v53 (F := Ideal) x0 x1 := by
  funext i
  obtain ⟨r, rfl⟩ : ∃ r : Fin 65, i = ix1 r := ⟨i 0, eq_ix1 i⟩
  unfold kMasked maskedOf
  rw [select_apply, val_main_v53_apply, kPresent_eq]
  by_cases hp : val_main_v16 (F := Ideal) x1 (ix1 r) = 1#1
  · rw [hp, select_one, select_one, val_main_v52_apply]
    have hK : Host.divf (F := Ideal) (kPull x0 x1) (kSafe x1) (ix1 r)
        = FloatOps.hostDivf (F := Ideal) (φ := .f32) (kPull x0 x1 (ix1 r)) (kSafe x1 (ix1 r)) := rfl
    rw [hK, kPull_eq x0 x1 r (pos_of_present x1 r hp), kSafe_eq]
  · rw [eq_zero_of_ne_one hp, select_zero, select_zero]
    rfl

/-- The kernel program's value function is the reference's result stage. -/
theorem kernelOut_eq : kernelOut x0 x1 = val_main_v100 (F := Ideal) x0 x1 := by
  unfold kernelOut
  rw [kPresent_eq, kMeans_eq, kMasked_eq, ← Cert.TailR.ref_tail]

end Cert.Bridge

end
-- ==== Proof.lean ====
/-
  A discriminative loss over two million points in 32 dimensions with integer labels: per class (labels 1 … 64; label 0
  is the background, any other label belongs to no class) the mean of its points; a pull term, the hinged distance of
  every point to its own class mean, averaged per class and then over the present classes; a push term over the pairs of
  present class means; and a small regulariser on the means' norms.

  The kernel program makes the class sums and counts with a one-hot table: a first launch over 125 tiles of 16000 points
  writes, per tile, the table (class × lane, one where the lane's label is the class) times the tile's points and the
  table's row sums; the host adds the tiles, keeps classes 0 … 64, zeroes the background; a second launch looks every
  point's class mean up by the same table and adds up the pull terms per class and tile. The reference makes the same
  sums with segment sums (which drop a label outside the 65 slots and weight the background by zero) and looks the means
  up with a gather. Read over the extended reals the two agree: a sum of selector × value needs no finiteness (the
  selector is zero or one), the tiles' sums regroup into one sum over the points, the background's slot is zero on both
  sides where it is read and masked by presence where it differs, and from the class table onward both programs apply
  the same operations (one function, `Cert.Tail.tailFn`).

  The frames of the two kernel programs are the generated ones; the reference's is its generated run with the result
  dropped. The ideal pass's one rewrite, a widening of a narrowing, is the identity over the extended reals.
-/
import proofs.«415074_j12979391169049_3_alg».proof.Defs
import proofs.«415074_j12979391169049_3_alg».proof.Proof.Gen.Kernel
import proofs.«415074_j12979391169049_3_alg».proof.Proof.Gen.Kernel.Frame
import proofs.«415074_j12979391169049_3_alg».proof.Proof.Gen.KernelIdeal
import proofs.«415074_j12979391169049_3_alg».proof.Proof.Gen.KernelIdeal.Frame
import proofs.«415074_j12979391169049_3_alg».proof.Proof.Gen.ReferenceIdeal
import proofs.«415074_j12979391169049_3_alg».proof.Proof.Gen.Pre_finite_inputs
import proofs.«415074_j12979391169049_3_alg».proof.Proof.KRun
import proofs.«415074_j12979391169049_3_alg».proof.Proof.KWalk
import proofs.«415074_j12979391169049_3_alg».proof.Proof.RefRun
import proofs.«415074_j12979391169049_3_alg».proof.Proof.RefRead
import proofs.«415074_j12979391169049_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The one rewrite of the ideal pass: the selector table narrowed to bf16 and widened back is itself. -/
theorem preserves : Cert.preserves_Kernel_KernelIdeal :=
  IdealRules.truncf_extf.statement Cert.KernelIdeal.S128x16000 .f32 .bf16

/-- Both programs end at one function of the argument arrays: the kernel program's run leaves it at its last boundary
    (the walk back through the launches), the reference's run leaves its composed term, which is its last stage, and
    the two are equal index by index. -/
theorem algebraic : Cert.algebraic_KernelIdeal_ReferenceIdeal := by
  intro m ρ m' ρ' _ hagree
  refine ⟨fun c => Cert.KernelIdeal.KVal.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KWalk.W20_out m ρ c), (h c).2⟩)
      (Cert.KernelIdeal.KRun.run_out (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v100_eq, (hagree c).1, (hagree c).2]
    exact (Cert.Bridge.kernelOut_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
